-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  bcast_S_S1x640000 : S_.BroadcastsInDim S1x640000 (![] : Fin 0 → Fin S1x640000.rank)
  reducesTo_S1x640000_S_d0_1 : S1x640000.ReducesTo [0, 1] S_

variable [Facts]

def fn_part1 {F : FTy → Type} [FloatOps F] (main_arg1 : IVec S2x640000 32) (main_v13 : IVec S_ 1) (main_v16 : IVec S1x640000 1) : IVec S_ 1 :=
  let main_v17 : IVec S1x640000 32 := (extractStridedSlice S1x640000 ![0, 0] · slices_S2x640000_S1x640000_0_0) main_arg1
  let main_c_5 : IVec S_ 32 := constantI S_ 32 10000#32
  let main_v18 : IVec S1x640000 32 := broadcastInDim S1x640000 ![] bcast_S_S1x640000 main_c_5
  let main_v19 : IVec S1x640000 1 := cmpi .slt main_v17 main_v18
  let main_v20 : IVec S1x640000 1 := andi main_v16 main_v19
  let main_c_6 : IVec S_ 1 := constantI S_ 1 1#1
  let main_v21 : IVec S_ 1 := (fun x v => Host.reduce IntOp.andi x v reducesTo_S1x640000_S_d0_1 h_S_) main_v20 main_c_6
  let main_v22 : IVec S_ 1 := andi main_v13 main_v21
  main_v22

def fn {F : FTy → Type} [FloatOps F] (main_arg0 : FVec F S10000x128 .f32) (main_arg1 : IVec S2x640000 32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![0, 0] · slices_S2x640000_S1x640000_0_0) main_arg1
  let main_c_4 : IVec S_ 32 := constantI S_ 32 0#32
  let main_v15 : IVec S1x640000 32 := broadcastInDim S1x640000 ![] bcast_S_S1x640000 main_c_4
  let main_v16 : IVec S1x640000 1 := cmpi .sge main_v14 main_v15
  fn_part1 (F := F) main_arg1 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650240 : Shape := ⟨1, ![650240]⟩
abbrev S650240x1 : Shape := ⟨2, ![650240, 1]⟩
abbrev S1x650240 : Shape := ⟨2, ![1, 650240]⟩
abbrev S1x10112 : Shape := ⟨2, ![1, 10112]⟩
abbrev S128x1 : Shape := ⟨2, ![128, 1]⟩
abbrev S128x10112 : Shape := ⟨2, ![128, 10112]⟩
abbrev S1x128 : Shape := ⟨2, ![1, 128]⟩
abbrev S10112x1 : Shape := ⟨2, ![10112, 1]⟩
abbrev S10000x1 : Shape := ⟨2, ![10000, 1]⟩
abbrev S10112x128 : Shape := ⟨2, ![10112, 128]⟩
abbrev S2x10112x128 : Shape := ⟨3, ![2, 10112, 128]⟩
abbrev S1x10112x128 : Shape := ⟨3, ![1, 10112, 128]⟩

abbrev nBuf : Space → Nat
  | .hbm => 47
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S10000, .i32⟩
  | .hbm, ⟨9, _⟩ => ⟨S650000, .i32⟩
  | .hbm, ⟨10, _⟩ => ⟨S650000, .i32⟩
  | .hbm, ⟨11, _⟩ => ⟨S_, .i32⟩
  | .hbm, ⟨12, _⟩ => ⟨S_, .i32⟩
  | .hbm, ⟨13, _⟩ => ⟨S650240, .i32⟩
  | .hbm, ⟨14, _⟩ => ⟨S_, .i32⟩
  | .hbm, ⟨15, _⟩ => ⟨S_, .i32⟩
  | .hbm, ⟨16, _⟩ => ⟨S650240, .i32⟩
  | .hbm, ⟨17, _⟩ => ⟨S650240x1, .i32⟩
  | .hbm, ⟨18, _⟩ => ⟨S650240x1, .i32⟩
  | .hbm, ⟨19, _⟩ => ⟨S1x650240, .i32⟩
  | .hbm, ⟨20, _⟩ => ⟨S1x10112, .f32⟩
  | .hbm, ⟨21, _⟩ => ⟨S_, .f32⟩
  | .hbm, ⟨22, _⟩ => ⟨S1x10112, .f32⟩
  | .hbm, ⟨23, _⟩ => ⟨S1x10112, .i1⟩
  | .hbm, ⟨24, _⟩ => ⟨S1x10112, .f32⟩
  | .hbm, ⟨25, _⟩ => ⟨S_, .f32⟩
  | .hbm, ⟨26, _⟩ => ⟨S_, .f32⟩
  | .hbm, ⟨27, _⟩ => ⟨S1x10112, .f32⟩
  | .hbm, ⟨28, _⟩ => ⟨S1x10112, .f32⟩
  | .hbm, ⟨29, _⟩ => ⟨S10112x1, .f32⟩
  | .hbm, ⟨30, _⟩ => ⟨S10000x1, .f32⟩
  | .hbm, ⟨31, _⟩ => ⟨S10000x128, .bf16⟩
  | .hbm, ⟨32, _⟩ => ⟨S_, .i32⟩
  | .hbm, ⟨33, _⟩ => ⟨S_, .bf16⟩
  | .hbm, ⟨34, _⟩ => ⟨S10112x128, .bf16⟩
  | .hbm, ⟨35, _⟩ => ⟨S2x10112x128, .f32⟩
  | .hbm, ⟨36, _⟩ => ⟨S1x10112x128, .f32⟩
  | .hbm, ⟨37, _⟩ => ⟨S10112x128, .f32⟩
  | .hbm, ⟨38, _⟩ => ⟨S1x10112x128, .f32⟩
  | .hbm, ⟨39, _⟩ => ⟨S10112x128, .f32⟩
  | .hbm, ⟨40, _⟩ => ⟨S10112x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | .local _ .vmem, ⟨0, _⟩ => ⟨S128x1, .i32⟩
  | .local _ .vmem, ⟨1, _⟩ => ⟨S128x1, .i32⟩
  | .local _ .vmem, ⟨2, _⟩ => ⟨S1x10112, .f32⟩
  | .local _ .vmem, ⟨3, _⟩ => ⟨S10000x128, .f32⟩
  | .local _ .vmem, ⟨4, _⟩ => ⟨S128x128, .f32⟩
  | .local _ .vmem, ⟨5, _⟩ => ⟨S10000x1, .f32⟩
  | .local _ .vmem, ⟨6, _⟩ => ⟨S10000x128, .bf16⟩
  | .local _ .vmem, ⟨7, _⟩ => ⟨S128x1, .i32⟩
  | .local _ .vmem, ⟨8, _⟩ => ⟨S128x1, .i32⟩
  | .local _ .vmem, ⟨9, _⟩ => ⟨S1x128, .i32⟩
  | .local _ .vmem, ⟨10, _⟩ => ⟨S1x128, .i32⟩
  | .local _ .vmem, ⟨11, _⟩ => ⟨S10112x128, .bf16⟩
  | .local _ .vmem, ⟨12, _⟩ => ⟨S1x10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call2_v0 : Ref sig .tc := ⟨.hbm, 26, rfl⟩
abbrev main_call2_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_call3_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem3_0 : DmaSem sig := 12

abbrev nD : Nat := 1
abbrev τ : Topo := Topo.v7x

variable {F : FTy → Type} [FloatOps F]

abbrev grid0 : Pipeline.Grid := ⟨1, ![5080], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![2, 2540], ![false, false]⟩

def cc2_transform_0 (i : grid2.Coords) : Fin 2 → Nat :=
  let arg0 : BitVec 32 := BitVec.ofNat 32 (i 0).val
  let arg1 : BitVec 32 := BitVec.ofNat 32 (i 1).val
  let c2540_i32 : BitVec 32 := 2540#32
  let v0 : BitVec 32 := Scalar.muli arg0 c2540_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c2540_i32 : BitVec 32 := 2540#32
  let v0 : BitVec 32 := Scalar.muli arg0 c2540_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S10112x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x10112x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  pads_S650000_S650240_02400 : S650000.Pads (![0] : Fin 1 → Nat) ![240] ![0] S650240
  h_S_ : 0 < S_.numel
  shapeCasts_S650240_S650240x1 : S650240.ShapeCasts S650240x1
  shapeCasts_S650240_S1x650240 : S650240.ShapeCasts S1x650240
  inb_S1x10112_S1x10112_0_0 : ∀ a, (![0, 0] : Fin 2 → Nat) a + S1x10112.size a ≤ S1x10112.size a
  h_S1x10112 : 0 < S1x10112.numel
  iota_S128x10112_d1_w32 : S128x10112.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10112 : S128x1.Broadcasts S128x10112
  natLt_1_32 : 1 < 32
  bitsLt_bf16_f32 : FTy.bits .bf16 < FTy.bits .f32
  shapeCasts_S1x10112_S1x10112 : S1x10112.ShapeCasts S1x10112
  bcast_S_S1x10112 : S_.BroadcastsInDim S1x10112 (![] : Fin 0 → Fin S1x10112.rank)
  transposes_S1x10112_S10112x1_1_0 : S1x10112.Transposes [1, 0] S10112x1
  slices_S10112x1_S10000x1_0_0 : S10112x1.Slices ![0, 0] S10000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  packedbf16_S10000x128_S10000x128_0_0 : (Rect.unit (s := S10000x128) ![0, 0] S10000x128.size inb_S10000x128_S10000x128_0_0).PackedRows (EltTy.packing .bf16)
  pads_S10000x128_S10112x128_01120_000 : S10000x128.Pads (![0, 0] : Fin 2 → Nat) ![112, 0] ![0, 0] S10112x128
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  iota_S10112x128_d0_w32 : S10112x128.Iotas .tc 32 [0]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10112x128 : S1x128.Broadcasts S10112x128
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  slices_S2x10112x128_S1x10112x128_0_0_0 : S2x10112x128.Slices ![0, 0, 0] S1x10112x128
  slices_S2x10112x128_S1x10112x128_1_0_0 : S2x10112x128.Slices ![1, 0, 0] S1x10112x128
  slices_S10112x128_S10000x128_0_0 : S10112x128.Slices ![0, 0] S10000x128
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S1x128_S128x10112_S1x10112_1_0_0_1_n_n_wf : DotDims.WF S1x128 S128x10112 S1x10112 [1] [0] [0] [1] [] []
  dot_S10000x128_S128x128_S10000x128_1_0_0_1_n_n_wf : DotDims.WF S10000x128 S128x128 S10000x128 [1] [0] [0] [1] [] []
  dot_S128x10112_S10112x128_S128x128_1_0_0_1_n_n_wf : DotDims.WF S128x10112 S10112x128 S128x128 [1] [0] [0] [1] [] []
  dot_S10112x128_S128x128_S10112x128_1_0_0_1_n_n_wf : DotDims.WF S10112x128 S128x128 S10112x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S650240x1.size a
  hwx0_0 : ∀ i : grid0.Coords, EltTy.bits .i32 = 32 ∨ (Rect.block (s := S650240x1) S128x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10112.size a ≤ S1x10112.size a
  hwx0_1 : ∀ i : grid0.Coords, EltTy.bits .f32 = 32 ∨ (Rect.block (s := S1x10112) S1x10112.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S10000x1.size a
  hwx1_2 : ∀ i : grid1.Coords, EltTy.bits .f32 = 32 ∨ (Rect.block (s := S10000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .bf16 = 32 ∨ (Rect.block (s := S10000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1.size a ≤ S650240x1.size a
  hwx2_0 : ∀ i : grid2.Coords, EltTy.bits .i32 = 32 ∨ (Rect.block (s := S650240x1) S128x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x650240.size a
  hwx2_1 : ∀ i : grid2.Coords, EltTy.bits .i32 = 32 ∨ (Rect.block (s := S1x650240) S1x128.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10112x128.size a ≤ S10112x128.size a
  hwx2_2 : ∀ i : grid2.Coords, EltTy.bits .bf16 = 32 ∨ (Rect.block (s := S10112x128) S10112x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10112x128.size a ≤ S2x10112x128.size a
  hwx2_3 : ∀ i : grid2.Coords, EltTy.bits .f32 = 32 ∨ (Rect.block (s := S2x10112x128) S1x10112x128.size (cc2_transform_3 i) (hinb2_3 i)).WholeWords (EltTy.packing .f32)

variable [Facts₀]

def dot_S1x128_S128x10112_S1x10112_1_0_0_1_n_n : DotDims S1x128 S128x10112 S1x10112 where
  lhsContracting := [1]
  rhsContracting := [0]
  lhsNonContracting := [0]
  rhsNonContracting := [1]
  lhsBatch := []
  rhsBatch := []
  wf := dot_S1x128_S128x10112_S1x10112_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x10112_S10112x128_S128x128_1_0_0_1_n_n : DotDims S128x10112 S10112x128 S128x128 where
  lhsContracting := [1]
  rhsContracting := [0]
  lhsNonContracting := [0]
  rhsNonContracting := [1]
  lhsBatch := []
  rhsBatch := []
  wf := dot_S128x10112_S10112x128_S128x128_1_0_0_1_n_n_wf
def dot_S10112x128_S128x128_S10112x128_1_0_0_1_n_n : DotDims S10112x128 S128x128 S10112x128 where
  lhsContracting := [1]
  rhsContracting := [0]
  lhsNonContracting := [0]
  rhsNonContracting := [1]
  lhsBatch := []
  rhsBatch := []
  wf := dot_S10112x128_S128x128_S10112x128_1_0_0_1_n_n_wf

abbrev win0_0 : Pipeline.Window sig grid0 :=
  Pipeline.Window.ofSpec (Memref.whole main_v10) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x10112.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S128x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S10112x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x10112x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S10000, .i32⟩
  | .hbm, ⟨5, _⟩ => ⟨S1x640000, .i32⟩
  | .hbm, ⟨6, _⟩ => ⟨S640000, .i32⟩
  | .hbm, ⟨7, _⟩ => ⟨S650000, .i32⟩
  | .hbm, ⟨8, _⟩ => ⟨S1x640000, .i32⟩
  | .hbm, ⟨9, _⟩ => ⟨S640000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S10000, .f32⟩
  | .hbm, ⟨15, _⟩ => ⟨S650000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S10000x128, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S650000x1, .f32⟩
  | .hbm, ⟨55, _⟩ => ⟨S650000x128, .f32⟩
  | .hbm, ⟨56, _⟩ => ⟨S650000x128, .f32⟩
  | .hbm, ⟨57, _⟩ => ⟨S_, .f32⟩
  | .hbm, ⟨58, _⟩ => ⟨S10000x128, .f32⟩
  | .hbm, ⟨59, _⟩ => ⟨S650000x1, .i32⟩
  | .hbm, ⟨60, _⟩ => ⟨S10000x128, .f32⟩
  | .hbm, ⟨61, _⟩ => ⟨S1x128, .f32⟩
  | .hbm, ⟨62, _⟩ => ⟨S10000x128, .f32⟩
  | .hbm, ⟨63, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The mathematics of the graph convolution, stated once over plain index types.

  The graph has 10000 nodes and 640000 edges; every node also gets a loop, and the edge list is padded to 650240 places
  (5080 blocks of 128) by a word that names no node. An edge is two 32-bit words, its source and its target; the word
  `w` names node `k` when it is the number `k`. The degree of a node counts the edges that arrive at it; the
  normalising factor of a node is the inverse square root of its degree (0 for a node nothing arrives at); the result at
  node `r` is the sum, over the edges arriving at `r`, of the transformed features of the edge's source, scaled by the
  factors of both ends, plus the bias.

  Two arrangements of that sum are stated: the one that selects by one-hot products and scales the source rows before
  and the target rows after the sum (`outK`), and the one that reads the source row by index and scales each term
  (`outR`). They are equal when the features and weights are real numbers and every source word names a node
  (`outK_eq_outR`): then a one-hot product over the 10112 padded rows picks exactly the source's row, and a real factor
  moves across a finite sum of reals.
-/
import Mathlib.Algebra.BigOperators.Fin
import Mathlib.Algebra.BigOperators.Group.Finset.Basic
import Mathlib.Data.EReal.Operations
import Idealize.ShloMosaic.PureOps.Ideal
import Idealize.ShloMosaic.Lib.ValueIdx
import proofs.«430727_j6906307412209_2_alg».proof.Proof.LibSums

open scoped BigOperators

noncomputable section

namespace Cert.Spec

open Idealize.ShloMosaic Idealize.ShloMosaic.ValueIdx

/-- 1 where the word `w` is the number `k`, else 0. -/
def hot (w : BitVec 32) (k : ℕ) : EReal := if BitVec.ofNat 32 k = w then 1 else 0

/-- Place `e` of the padded edge list built from one row of the adjacency array: the row's word for an edge of the
    graph, the node itself for its loop, and the all-ones word (which names no node) in the padding. -/
def edge (row : Fin 640000 → BitVec 32) (e : ℕ) : BitVec 32 :=
  if h : e < 640000 then row ⟨e, h⟩ else if e < 650000 then BitVec.ofNat 32 (e - 640000) else 4294967295#32

/-- A column of words read at any place (0 past its end). -/
def colW {n : ℕ} (a : (⟨2, ![n, 1]⟩ : Shape).Idx → BitVec 32) (e : ℕ) : BitVec 32 :=
  if h : e < n then a (ix2 ⟨e, h⟩ (0 : Fin 1)) else 0#32

/-- A row of words read at any place (0 past its end). -/
def rowW {n : ℕ} (a : (⟨2, ![1, n]⟩ : Shape).Idx → BitVec 32) (e : ℕ) : BitVec 32 :=
  if h : e < n then a (ix2 (0 : Fin 1) ⟨e, h⟩) else 0#32

/-- The number of places of the padded list whose target word names `k`, counted block by block. -/
def degK (d : ℕ → BitVec 32) (k : ℕ) : EReal := ∑ t : Fin 5080, ∑ q : Fin 128, hot (d (t.val * 128 + q.val)) k

/-- The same count over the 650000 places before the padding, from zero. -/
def degR (d : ℕ → BitVec 32) (k : ℕ) : EReal := ∑ e : Fin 650000, hot (d e.val) k

/-- The normalising factor of a degree: its inverse square root where it is positive, else 0. -/
def dinvOf (g : EReal) : EReal := if 0 < g then Ideal.rsqrt g else 0

/-- The transformed features: row `i` of `x` times column `j` of `W`. -/
def xw (x : Fin 10000 → Fin 128 → EReal) (W : Fin 128 → Fin 128 → EReal) (i : Fin 10000) (j : Fin 128) : EReal :=
  ∑ k : Fin 128, x i k * W k j

/-- The transformed features scaled by the node's factor, on 10112 rows of which those past the nodes are zero. -/
def hpad (x : Fin 10000 → Fin 128 → EReal) (W : Fin 128 → Fin 128 → EReal) (dv : ℕ → EReal) (k : ℕ) (j : Fin 128) : EReal :=
  if h : k < 10000 then xw x W ⟨k, h⟩ j * dv k else 0

/-- Half `c` of the edge blocks (2540 blocks of 128 places): for target row `r`, the one-hot selection of the places
    arriving at `r`, each bringing the one-hot selection of its source's row of `hp`. -/
def part (s d : ℕ → BitVec 32) (hp : ℕ → Fin 128 → EReal) (c r : ℕ) (j : Fin 128) : EReal :=
  ∑ i : Fin 2540, ∑ q : Fin 128,
    hot (d ((c * 2540 + i.val) * 128 + q.val)) r
      * ∑ k : Fin 10112, hot (s ((c * 2540 + i.val) * 128 + q.val)) k.val * hp k.val j

/-- The result in the first arrangement: both halves added, the target's factor applied once, then the bias. -/
def outK (s d : ℕ → BitVec 32) (x : Fin 10000 → Fin 128 → EReal) (W : Fin 128 → Fin 128 → EReal) (b : Fin 128 → EReal)
    (r : Fin 10000) (j : Fin 128) : EReal :=
  dinvOf (degK d r.val)
      * (part s d (hpad x W fun k => dinvOf (degK d k)) 0 r.val j + part s d (hpad x W fun k => dinvOf (degK d k)) 1 r.val j)
    + b j

/-- A word made non-negative the way an index into 10000 rows is: 10000 added to a negative one. -/
def norm (w : BitVec 32) : BitVec 32 := Scalar.select (IntOp.cmpi .slt w 0#32) (IntOp.addi w 10000#32) w

/-- The row of a 10000-row table that the index word `w` reads: made non-negative, then kept inside the table. -/
def node (w : BitVec 32) : Fin 10000 := ⟨min (norm w).toInt.toNat 9999, by omega⟩

/-- The result in the second arrangement: over the 650000 places, those arriving at `r` each bring their source's row
    scaled by both ends' factors; then the bias. -/
def outR (s d : ℕ → BitVec 32) (x : Fin 10000 → Fin 128 → EReal) (W : Fin 128 → Fin 128 → EReal) (b : Fin 128 → EReal)
    (r : Fin 10000) (j : Fin 128) : EReal :=
  (∑ e : Fin 650000,
      hot (d e.val) r.val
        * (xw x W (node (s e.val)) j
            * (dinvOf (degR d (node (s e.val)).val) * dinvOf (degR d (node (d e.val)).val))))
    + b j

/-! ## Extended reals that are real numbers -/

/-- An extended real that is a real number: neither infinity. -/
def IsReal (y : EReal) : Prop := y ≠ ⊥ ∧ y ≠ ⊤

theorem isReal_coe (r : ℝ) : IsReal (r : EReal) := ⟨EReal.coe_ne_bot r, EReal.coe_ne_top r⟩

theorem IsReal.eq_coe {y : EReal} (h : IsReal y) : y = ((y.toReal : ℝ) : EReal) := (EReal.coe_toReal h.2 h.1).symm

theorem IsReal.exists_coe {y : EReal} (h : IsReal y) : ∃ r : ℝ, y = (r : EReal) := ⟨y.toReal, h.eq_coe⟩

theorem isReal_zero : IsReal 0 := by rw [← EReal.coe_zero]; exact isReal_coe 0

theorem isReal_one : IsReal 1 := by rw [← EReal.coe_one]; exact isReal_coe 1

/-- A product of two reals is real. -/
theorem IsReal.mul {a b : EReal} (ha : IsReal a) (hb : IsReal b) : IsReal (a * b) := by
  obtain ⟨a', rfl⟩ := ha.exists_coe
  obtain ⟨b', rfl⟩ := hb.exists_coe
  rw [← EReal.coe_mul]
  exact isReal_coe _

/-- A finite sum of reals is real. -/
theorem isReal_sum {ι : Type*} (s : Finset ι) (f : ι → EReal) (h : ∀ i ∈ s, IsReal (f i)) : IsReal (∑ i ∈ s, f i) :=
  ⟨Cert.LibSums.sum_ne_bot s f fun i hi => (h i hi).1, Cert.LibSums.sum_ne_top s f fun i hi => (h i hi).2⟩

/-- A real factor moves inside a finite sum of reals (false at the infinities, where the product does not distribute). -/
theorem real_mul_sum {ι : Type*} (s : Finset ι) (c : EReal) (f : ι → EReal) (hc : IsReal c)
    (hf : ∀ i ∈ s, IsReal (f i)) : c * ∑ i ∈ s, f i = ∑ i ∈ s, c * f i := by
  obtain ⟨c', rfl⟩ := hc.exists_coe
  have h1 : ∑ i ∈ s, f i = ∑ i ∈ s, (((f i).toReal : ℝ) : EReal) :=
    Finset.sum_congr rfl fun i hi => (hf i hi).eq_coe
  have h2 : ∑ i ∈ s, (c' : EReal) * f i = ∑ i ∈ s, ((c' * (f i).toReal : ℝ) : EReal) :=
    Finset.sum_congr rfl fun i hi => by rw [EReal.coe_mul, ← (hf i hi).eq_coe]
  rw [h1, h2, Cert.LibSums.sum_coe, Cert.LibSums.sum_coe, ← EReal.coe_mul, Finset.mul_sum]

/-! ## Words -/

/-- A word whose signed value lies in [0, 10000) has that same unsigned value. -/
theorem toNat_lt_of_toInt {w : BitVec 32} (h : 0 ≤ w.toInt ∧ w.toInt < 10000) : w.toNat < 10000 := by
  have hw := w.isLt
  rw [BitVec.toInt_eq_toNat_cond] at h
  split at h <;> omega

/-- The signed value of a small word is its unsigned value. -/
theorem toInt_of_toNat_lt {w : BitVec 32} (h : w.toNat < 10000) : w.toInt = (w.toNat : ℤ) := by
  rw [BitVec.toInt_eq_toNat_cond]
  split <;> omega

/-- Below 2^32 the word of a number is a given word exactly when the number is the word's value. -/
theorem ofNat_eq_iff {w : BitVec 32} {k : ℕ} (hk : k < 2 ^ 32) : BitVec.ofNat 32 k = w ↔ k = w.toNat := by
  constructor
  · rintro rfl
    rw [BitVec.toNat_ofNat, Nat.mod_eq_of_lt hk]
  · intro h
    apply BitVec.eq_of_toNat_eq
    rw [BitVec.toNat_ofNat, Nat.mod_eq_of_lt hk, h]

/-- A small word is not negative, so making it non-negative leaves it alone. -/
theorem norm_eq {w : BitVec 32} (h : w.toNat < 10000) : norm w = w := by
  have hlt : w.slt 0#32 = false := by
    unfold BitVec.slt
    rw [toInt_of_toNat_lt h, BitVec.toInt_zero]
    exact decide_eq_false (by omega)
  show Scalar.select (BitVec.ofBool (w.slt 0#32)) (IntOp.addi w 10000#32) w = w
  rw [hlt]
  show (if (0#1 : BitVec 1) = 1 then IntOp.addi w 10000#32 else w) = w
  rw [if_neg (by decide)]

/-- The row a small index word reads is the one it names. -/
theorem node_val {w : BitVec 32} (h : w.toNat < 10000) : (node w).val = w.toNat := by
  show min (norm w).toInt.toNat 9999 = w.toNat
  rw [norm_eq h, toInt_of_toNat_lt h, Int.toNat_natCast]
  omega

/-! ## One-hot selections -/

theorem isReal_hot (w : BitVec 32) (k : ℕ) : IsReal (hot w k) := by
  unfold hot
  split
  · exact isReal_one
  · exact isReal_zero

/-- The one-hot product over the 10112 rows picks the row the word names. -/
theorem sum_hot {w : BitVec 32} (h : w.toNat < 10112) (g : ℕ → EReal) :
    ∑ k : Fin 10112, hot w k.val * g k.val = g w.toNat := by
  rw [Finset.sum_eq_single (⟨w.toNat, h⟩ : Fin 10112)]
  · show hot w w.toNat * g w.toNat = g w.toNat
    rw [hot, if_pos ((ofNat_eq_iff (by omega)).2 rfl), one_mul]
  · intro k _ hk
    rw [hot, if_neg, zero_mul]
    intro hh
    apply hk
    apply Fin.ext
    exact (ofNat_eq_iff (by have := k.isLt; omega)).1 hh
  · intro hh
    exact absurd (Finset.mem_univ _) hh

/-- Where the one-hot factor of a word at row `r` is not 0, the word is the number `r`. -/
theorem toNat_of_hot_ne_zero {w : BitVec 32} {r : ℕ} (hr : r < 2 ^ 32) (h : hot w r ≠ 0) : w.toNat = r := by
  unfold hot at h
  split at h
  · rename_i hh
    exact ((ofNat_eq_iff hr).1 hh).symm
  · exact absurd rfl h

/-! ## The padded edge list -/

theorem edge_pad (row : Fin 640000 → BitVec 32) {e : ℕ} (h : 650000 ≤ e) : edge row e = 4294967295#32 := by
  unfold edge
  rw [dif_neg (by omega), if_neg (by omega)]

/-- The padding word names none of the 10112 rows. -/
theorem hot_pad {k : ℕ} (hk : k < 10112) : hot 4294967295#32 k = 0 := by
  rw [hot, if_neg]
  intro hh
  have h1 := (ofNat_eq_iff (w := 4294967295#32) (by omega)).1 hh
  have h2 : (4294967295#32 : BitVec 32).toNat = 4294967295 := rfl
  omega

/-- Before the padding every source word names a node. -/
theorem edge_src_lt (srow : Fin 640000 → BitVec 32) (hs : ∀ e, 0 ≤ (srow e).toInt ∧ (srow e).toInt < 10000)
    {e : ℕ} (he : e < 650000) : (edge srow e).toNat < 10000 := by
  unfold edge
  split
  · exact toNat_lt_of_toInt (hs _)
  · rw [BitVec.toNat_ofNat]
    omega

/-! ## Degrees and factors -/

/-- The blockwise count over the padded list is the count over the places before the padding. -/
theorem degK_eq_degR (row : Fin 640000 → BitVec 32) {k : ℕ} (hk : k < 10112) :
    degK (edge row) k = degR (edge row) k := by
  unfold degK degR
  refine (Cert.LibSums.sum_blocks 5080 128 (fun e => hot (edge row e) k)).trans ?_
  exact Cert.LibSums.sum_fin_le 650000 (5080 * 128) (by decide) (fun e => hot (edge row e) k)
    (fun e he _ => by rw [edge_pad row he]; exact hot_pad hk)

theorem isReal_degR (d : ℕ → BitVec 32) (k : ℕ) : IsReal (degR d k) :=
  isReal_sum _ _ fun _ _ => isReal_hot _ _

/-- The factor of a real degree is real: an inverse square root of a positive real, or 0. -/
theorem isReal_dinvOf {g : EReal} (hg : IsReal g) : IsReal (dinvOf g) := by
  obtain ⟨r, rfl⟩ := hg.exists_coe
  unfold dinvOf
  split
  · rename_i hpos
    have hr : 0 < r := EReal.coe_pos.1 hpos
    rw [Ideal.rsqrt_coe, if_neg (not_lt.2 hr.le), if_neg hr.ne']
    exact isReal_coe _
  · exact isReal_zero

/-- The transformed features of real inputs are real. -/
theorem isReal_xw (x : Fin 10000 → Fin 128 → EReal) (W : Fin 128 → Fin 128 → EReal)
    (hx : ∀ i k, x i k ≠ ⊥ ∧ x i k ≠ ⊤) (hW : ∀ k j, W k j ≠ ⊥ ∧ W k j ≠ ⊤) (i : Fin 10000) (j : Fin 128) :
    IsReal (xw x W i j) :=
  isReal_sum _ _ fun k _ => IsReal.mul (hx i k) (hW k j)

/-! ## The blocks put together -/

/-- Two halves of 2540 blocks of 128 places are all 650240 places, of which those from 650000 on add nothing. -/
theorem sum_halves (F : ℕ → EReal) (hF : ∀ e, 650000 ≤ e → F e = 0) :
    (∑ i : Fin 2540, ∑ q : Fin 128, F ((0 * 2540 + i.val) * 128 + q.val))
      + (∑ i : Fin 2540, ∑ q : Fin 128, F ((1 * 2540 + i.val) * 128 + q.val)) = ∑ e : Fin 650000, F e.val := by
  have h2 := Cert.LibSums.sum_blocks 2 2540 (fun t => ∑ q : Fin 128, F (t * 128 + q.val))
  have h3 := Cert.LibSums.sum_blocks (2 * 2540) 128 F
  have h4 := Cert.LibSums.sum_fin_le 650000 (2 * 2540 * 128) (by decide) F (fun e he _ => hF e he)
  rw [Fin.sum_univ_two] at h2
  exact h2.trans (h3.trans h4)

/-- Both halves of the selection together: the sum over the places before the padding. -/
theorem part_add (srow drow : Fin 640000 → BitVec 32) (hp : ℕ → Fin 128 → EReal) {r : ℕ} (hr : r < 10112)
    (j : Fin 128) :
    part (edge srow) (edge drow) hp 0 r j + part (edge srow) (edge drow) hp 1 r j
      = ∑ e : Fin 650000,
          hot (edge drow e.val) r * ∑ k : Fin 10112, hot (edge srow e.val) k.val * hp k.val j := by
  unfold part
  exact sum_halves (fun e => hot (edge drow e) r * ∑ k : Fin 10112, hot (edge srow e) k.val * hp k.val j)
    (fun e he => by
      show hot (edge drow e) r * _ = 0
      rw [edge_pad drow he, hot_pad hr, zero_mul])

/-- The padded row a small source word picks is its node's transformed features times the node's factor. -/
theorem hpad_node (x : Fin 10000 → Fin 128 → EReal) (W : Fin 128 → Fin 128 → EReal) (dv : ℕ → EReal) (j : Fin 128)
    {w : BitVec 32} (h : w.toNat < 10000) : hpad x W dv w.toNat j = xw x W (node w) j * dv (node w).val := by
  have hn : node w = ⟨w.toNat, h⟩ := Fin.ext (node_val h)
  unfold hpad
  rw [dif_pos h, hn]

/-- The two arrangements agree on real features and weights when every source word of the graph's edges names a node. -/
theorem outK_eq_outR (srow drow : Fin 640000 → BitVec 32) (x : Fin 10000 → Fin 128 → EReal) (W : Fin 128 → Fin 128 → EReal)
    (b : Fin 128 → EReal) (hx : ∀ i k, x i k ≠ ⊥ ∧ x i k ≠ ⊤) (hW : ∀ k j, W k j ≠ ⊥ ∧ W k j ≠ ⊤)
    (hs : ∀ e, 0 ≤ (srow e).toInt ∧ (srow e).toInt < 10000) (r : Fin 10000) (j : Fin 128) :
    outK (edge srow) (edge drow) x W b r j = outR (edge srow) (edge drow) x W b r j := by
  have hr : r.val < 10112 := by have := r.isLt; omega
  have hr' : r.val < 2 ^ 32 := by have := r.isLt; omega
  unfold outK outR
  refine congrArg (· + b j) ?_
  rw [degK_eq_degR drow hr, part_add srow drow _ hr j]
  have hterm : ∀ e : Fin 650000,
      hot (edge drow e.val) r.val
          * ∑ k : Fin 10112, hot (edge srow e.val) k.val * hpad x W (fun k => dinvOf (degK (edge drow) k)) k.val j
        = hot (edge drow e.val) r.val
          * (xw x W (node (edge srow e.val)) j * dinvOf (degR (edge drow) (node (edge srow e.val)).val)) := by
    intro e
    have hlt := edge_src_lt srow hs e.isLt
    rw [sum_hot (by omega) (fun k => hpad x W (fun k => dinvOf (degK (edge drow) k)) k j), hpad_node x W _ j hlt]
    show _ * (_ * dinvOf (degK (edge drow) (node (edge srow e.val)).val)) = _
    rw [degK_eq_degR drow (by have := (node (edge srow e.val)).isLt; omega)]
  rw [Finset.sum_congr rfl fun e _ => hterm e]
  rw [real_mul_sum _ _ _ (isReal_dinvOf (isReal_degR _ _)) (fun e _ =>
    (isReal_hot _ _).mul ((isReal_xw x W hx hW _ j).mul (isReal_dinvOf (isReal_degR _ _))))]
  refine Finset.sum_congr rfl fun e _ => ?_
  by_cases h0 : hot (edge drow e.val) r.val = 0
  · rw [h0, zero_mul, zero_mul, mul_zero]
  · have hd : (edge drow e.val).toNat = r.val := toNat_of_hot_ne_zero hr' h0
    have hn : (node (edge drow e.val)).val = r.val := by rw [node_val (by rw [hd]; exact r.isLt), hd]
    rw [hn, mul_left_comm, mul_left_comm (dinvOf _), mul_comm (dinvOf (degR (edge drow) r.val))]

end Cert.Spec

end
-- ==== Proof.PreFacts.lean ====
/-
  What the precondition says.

  The precondition is a conjunction of four tests, each an "and" over a whole array: every entry of the features, of the
  weights and of the bias is below +∞ in absolute value, that is, a real number; and every word of row 0 of the adjacency
  array, read as a signed number, is at least 0 and below 10000.
-/
import proofs.«430727_j6906307412209_2_alg».proof.Defs
import proofs.«430727_j6906307412209_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.ValueIdx

namespace Cert.PreFacts

open Cert.Pre_finite_inputs

/-- The scalar shape has one index. -/
instance subsingleton_scalar_idx : Subsingleton S_.Idx := ⟨fun a b => funext fun d => d.elim0⟩

/-- The bit pattern 0x7F800000 read at f32 is +∞. -/
theorem inf_bits : Ideal.ofBits .f32 0x7F800000#32 = (⊤ : EReal) := by
  simp [Ideal.ofBits, Ideal.ieee]

/-- An extended real whose absolute value max x (-x) is below +∞ is a real number. -/
theorem real_of_abs_lt_top (x : EReal) (h : Ideal.cmp .olt (max x (-x)) (⊤ : EReal) = 1#1) :
    x ≠ (⊥ : EReal) ∧ x ≠ (⊤ : EReal) := by
  unfold Ideal.cmp at h
  rw [StableHlo.Predicate.ofBool_eq_one_iff] at h
  simp only [decide_eq_true_eq] at h
  induction x using EReal.rec with
  | bot => simp at h
  | top => simp at h
  | coe r => exact ⟨EReal.coe_ne_bot r, EReal.coe_ne_top r⟩

/-- A word that passes the signed tests 0 ≤ w and w < 10000 has its signed value in [0, 10000). -/
theorem range_of_cmp (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (10000#32 : BitVec 32).toInt = 10000 := by decide
  rw [e0] at h0
  rw [e1] at h1
  exact ⟨h0, h1⟩

/-- From the printed precondition at the extended reals: the features and the weights are real numbers, and every source
    word names a node. -/
theorem of_pre [Cert.Pre_finite_inputs.Facts] (a0 : FVec Ideal S10000x128 .f32) (a1 : IVec S2x640000 32)
    (a2 : FVec Ideal S128x128 .f32) (a3 : FVec Ideal S128 .f32)
    (h : Cert.Pre_finite_inputs.fn (F := Ideal) a0 a1 a2 a3 = fun _ => 1#1) :
    (∀ (p : Fin 10000) (q : Fin 128), a0 (ix2 p q) ≠ (⊥ : EReal) ∧ a0 (ix2 p q) ≠ (⊤ : EReal))
    ∧ (∀ (p : Fin 128) (q : Fin 128), a2 (ix2 p q) ≠ (⊥ : EReal) ∧ a2 (ix2 p q) ≠ (⊤ : EReal))
    ∧ (∀ e : Fin 640000, 0 ≤ (a1 (ix2 (0 : Fin 2) e)).toInt ∧ (a1 (ix2 (0 : Fin 2) e)).toInt < 10000) := by
  -- the one entry of the scalar result, with the chain of operations written out
  have e := congrFun h ValueIdx.ix0
  dsimp only [Cert.Pre_finite_inputs.fn, Cert.Pre_finite_inputs.fn_part1] at e
  -- the four conjuncts: features, weights, bias (not used), row 0 of the adjacency array
  obtain ⟨e, h1⟩ := IntOp.andi_eq_one.1 e
  obtain ⟨e, -⟩ := IntOp.andi_eq_one.1 e
  obtain ⟨h0, h2⟩ := IntOp.andi_eq_one.1 e
  refine ⟨fun p q => ?_, fun p q => ?_, fun c => ?_⟩
  · -- |a0 (p, q)| < +∞
    have H : Ideal.cmp .olt (max (a0 (ix2 p q)) (-(a0 (ix2 p q)))) (Ideal.ofBits .f32 0x7F800000#32) = 1#1 :=
      Host.reduce_andi_all _ _ _ _ ix0 h0 (ix2 p q)
    rw [inf_bits] at H
    exact real_of_abs_lt_top _ H
  · -- |a2 (p, q)| < +∞
    have H : Ideal.cmp .olt (max (a2 (ix2 p q)) (-(a2 (ix2 p q)))) (Ideal.ofBits .f32 0x7F800000#32) = 1#1 :=
      Host.reduce_andi_all _ _ _ _ ix0 h2 (ix2 p q)
    rw [inf_bits] at H
    exact real_of_abs_lt_top _ H
  · -- both signed tests at entry (0, c) of the slice, which is entry (0, c) of the array
    obtain ⟨hge, hlt⟩ := IntOp.andi_eq_one.1 (Host.reduce_andi_all _ _ _ _ ix0 h1 (ix2 (0 : Fin 1) c))
    have hs : extractStridedSlice S1x640000 ![0, 0] a1 Facts.slices_S2x640000_S1x640000_0_0 (ix2 (0 : Fin 1) c)
        = a1 (ix2 (0 : Fin 2) c) := slice2_axis0_apply 0 a1 _ 0 c 0 rfl
    have hge' : IntOp.cmpi .sge (extractStridedSlice S1x640000 ![0, 0] a1 Facts.slices_S2x640000_S1x640000_0_0
        (ix2 (0 : Fin 1) c)) 0#32 = 1#1 := hge
    have hlt' : IntOp.cmpi .slt (extractStridedSlice S1x640000 ![0, 0] a1 Facts.slices_S2x640000_S1x640000_0_0
        (ix2 (0 : Fin 1) c)) 10000#32 = 1#1 := hlt
    rw [hs] at hge' hlt'
    exact range_of_cmp _ hge' hlt'

end Cert.PreFacts

end
-- ==== Proof.Region0.lean ====
/-
  The first call: the degree of every row.

  The call walks the 5080 blocks of 128 target words. At the first block it clears its one output block, a row of
  10112 numbers; at every block it adds to entry `k` of that row the number of the block's 128 words that name `k`
  (a row of ones times the 128 × 10112 one-hot matrix of the block). The row is written back once, after the last block.
  So entry `k` of the array it leaves is the count, over all 650240 places, of the words that name `k`.
-/
import proofs.«430727_j6906307412209_2_alg».proof.Proof.Gen.KernelIdeal.Frame
import proofs.«430727_j6906307412209_2_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

theorem hz : (![0, 0] : Fin 2 → Nat) = fun _ => 0 := funext fun a => by fin_cases a <;> rfl

/-- The number of a block's 128 words that name `k`. -/
def cnt (x : IVec S128x1 32) (k : ℕ) : EReal := ∑ q : Fin 128, Spec.hot (x (ix2 q (0 : Fin 1))) k

/-- A column broadcast over many columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_cnt_0 (i : S1x10112.Idx) (q : dot_S1x128_S128x10112_S1x10112_1_0_0_1_n_n.contr.Idx) :
    (dot_S1x128_S128x10112_S1x10112_1_0_0_1_n_n.lhsIdx i q 0).val = (i 0).val := by
  unfold DotDims.lhsIdx
  rw [dif_neg (show ¬(0 : Fin S1x128.rank) ∈ dot_S1x128_S128x10112_S1x10112_1_0_0_1_n_n.lhsBatch by decide), dif_pos (show (0 : Fin S1x128.rank) ∈ dot_S1x128_S128x10112_S1x10112_1_0_0_1_n_n.lhsNonContracting by decide)]
  rfl
theorem lhs_cnt_1 (i : S1x10112.Idx) (q : dot_S1x128_S128x10112_S1x10112_1_0_0_1_n_n.contr.Idx) :
    (dot_S1x128_S128x10112_S1x10112_1_0_0_1_n_n.lhsIdx i q 1).val = (q ⟨0, by decide⟩).val :=
  dot_S1x128_S128x10112_S1x10112_1_0_0_1_n_n.lhsIdx_val_of_single rfl i q
theorem rhs_cnt_0 (i : S1x10112.Idx) (q : dot_S1x128_S128x10112_S1x10112_1_0_0_1_n_n.contr.Idx) :
    (dot_S1x128_S128x10112_S1x10112_1_0_0_1_n_n.rhsIdx i q 0).val = (q ⟨0, by decide⟩).val :=
  dot_S1x128_S128x10112_S1x10112_1_0_0_1_n_n.rhsIdx_val_of_single rfl i q
theorem rhs_cnt_1 (i : S1x10112.Idx) (q : dot_S1x128_S128x10112_S1x10112_1_0_0_1_n_n.contr.Idx) :
    (dot_S1x128_S128x10112_S1x10112_1_0_0_1_n_n.rhsIdx i q 1).val = (i 1).val := by
  unfold DotDims.rhsIdx
  rw [dif_neg (show ¬(1 : Fin S128x10112.rank) ∈ dot_S1x128_S128x10112_S1x10112_1_0_0_1_n_n.rhsBatch by decide), dif_pos (show (1 : Fin S128x10112.rank) ∈ dot_S1x128_S128x10112_S1x10112_1_0_0_1_n_n.rhsNonContracting by decide)]
  rfl

/-- One entry of the one-hot matrix times the constant one: 1 where the word is the number, else 0. -/
theorem one_bf16 : Ideal.ofBits .bf16 0x3F80#16 = 1 := by
  simp [Ideal.ofBits, Ideal.ieee]
  rw [← EReal.coe_mul, show ((128 : ℝ) * ((2 : ℝ) ^ 7)⁻¹) = 1 from by norm_num, EReal.coe_one]

theorem one_mul_hot (w : BitVec 32) (k : ℕ) :
    Ideal.ofBits .bf16 0x3F80#16 * Scalar.sitofp (F := Ideal) .f32 ((IntOp.cmpi .eq (BitVec.ofNat 32 k) w).setWidth 32) = Spec.hot w k := by
  rw [one_bf16, one_mul, Ideal.scalar_sitofp_def]
  unfold Spec.hot
  by_cases h : BitVec.ofNat 32 k = w
  · rw [if_pos h, show IntOp.cmpi .eq (BitVec.ofNat 32 k) w = 1#1 from by simp [IntOp.cmpi, h]]
    norm_num
  · rw [if_neg h, show IntOp.cmpi .eq (BitVec.ofNat 32 k) w = 0#1 from by
      unfold IntOp.cmpi; rw [show (BitVec.ofNat 32 k == w) = false from beq_eq_false_iff_ne.mpr h]; rfl]
    norm_num

/-- The product of the row of ones with the block's one-hot matrix, into zero: the block's count. -/
theorem matmul_cnt (x : IVec S128x1 32) (k : Fin 10112) :
    (matmul dot_S1x128_S128x10112_S1x10112_1_0_0_1_n_n none
      (broadcast S1x128 (Scalar.ofBits (F := Ideal) .bf16 0x3F80#16) : FVec Ideal S1x128 .bf16)
      (truncf .bf16 (sitofp .f32 (extui 32 (cmpi .eq (iota .tc S128x10112 32 [1] iota_S128x10112_d1_w32)
        (broadcastTo S128x10112 (shapeCast S128x1 x shapeCasts_S128x1_S128x1) broadcasts_S128x1_S128x10112)) natLt_1_32)) bitsLt_bf16_f32 : FVec Ideal S128x10112 .bf16)
      (constant (F := Ideal) S1x10112 .f32 0x00000000#32)) (ix2 (0 : Fin 1) k) = cnt x k.val := by
  refine (Ideal.matmul_constant_zero_apply dot_S1x128_S128x10112_S1x10112_1_0_0_1_n_n none _ _ (ix2 (0 : Fin 1) k)).trans ?_
  rw [← Equiv.sum_comp (contrEquiv1 dot_S1x128_S128x10112_S1x10112_1_0_0_1_n_n 128 rfl rfl).symm]
  unfold cnt
  refine Finset.sum_congr rfl fun q _ => ?_
  have hk := contrEquiv1_symm_val dot_S1x128_S128x10112_S1x10112_1_0_0_1_n_n 128 rfl rfl q
  have el : dot_S1x128_S128x10112_S1x10112_1_0_0_1_n_n.lhsIdx (ix2 (0 : Fin 1) k) ((contrEquiv1 dot_S1x128_S128x10112_S1x10112_1_0_0_1_n_n 128 rfl rfl).symm q) = ix2 (0 : Fin 1) q := funext fun a => Fin.ext (by
    match a with
    | ⟨0, _⟩ => exact lhs_cnt_0 _ _
    | ⟨1, _⟩ => exact (lhs_cnt_1 _ _).trans hk)
  have er : dot_S1x128_S128x10112_S1x10112_1_0_0_1_n_n.rhsIdx (ix2 (0 : Fin 1) k) ((contrEquiv1 dot_S1x128_S128x10112_S1x10112_1_0_0_1_n_n 128 rfl rfl).symm q) = ix2 q k := funext fun a => Fin.ext (by
    match a with
    | ⟨0, _⟩ => exact (rhs_cnt_0 _ _).trans hk
    | ⟨1, _⟩ => exact rhs_cnt_1 _ _)
  rw [el, er]
  show Ideal.ofBits .bf16 0x3F80#16 * Scalar.sitofp (F := Ideal) .f32 ((IntOp.cmpi .eq (iota .tc S128x10112 32 [1] iota_S128x10112_d1_w32 (ix2 q k))
    (broadcastTo S128x10112 (shapeCast S128x1 x shapeCasts_S128x1_S128x1) broadcasts_S128x1_S128x10112 (ix2 q k))).setWidth 32) = _
  rw [iota_single_apply, shapeCast_self, broadcastTo_a1_ab_apply]
  exact one_mul_hot _ _

/-- The zero row the first point stores. -/
theorem pay1_apply (i : S1x10112.Idx) : (k0_pay1 (F := Ideal)) i = 0 := Ideal.ofBits_zero_f32

/-- The row a point stores: the row it read plus the block's count. -/
theorem pay2_apply (x : Vec Ideal S128x1 .i32) (acc : Vec Ideal S1x10112 .f32) (k : Fin 10112) :
    k0_pay2 (F := Ideal) x acc (ix2 (0 : Fin 1) k) = acc (ix2 (0 : Fin 1) k) + cnt x k.val := by
  unfold k0_pay2
  exact congrArg₂ (fun a b : EReal => a + b)
    (congrFun (shapeCast_self acc shapeCasts_S1x10112_S1x10112) (ix2 (0 : Fin 1) k)) (matmul_cnt x k)

/-- At a later point the body leaves, over the row `xo` the point before left, `xo` plus the block's count. -/
theorem out_B (c : Dev nD) (i : grid0.Coords) (a1 : Memref sig .tc .vmem S128x1 .i32) (h1 : a1.IsWhole)
    (a2 : Memref sig .tc .vmem S1x10112 .f32) (h2 : a2.IsWhole) (hc : ¬cond0_0 i) (x : Vec Ideal S128x1 .i32)
    (xo : Vec Ideal S1x10112 .f32) :
    out0_B_1 (F := Ideal) c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S128x1) hz,
    View.ld_unit_zero (S := S1x10112) hz]

/-- At the first point the body stores the zero row, reads it back, and leaves it plus the block's count. -/
theorem out_A (c : Dev nD) (i : grid0.Coords) (a1 : Memref sig .tc .vmem S128x1 .i32) (h1 : a1.IsWhole)
    (a2 : Memref sig .tc .vmem S1x10112 .f32) (h2 : a2.IsWhole) (hc : cond0_0 i) (x : Vec Ideal S128x1 .i32) :
    out0_A_1 (F := Ideal) c i a1 h1 a2 h2 hc x = k0_pay2 x (k0_pay1 (F := Ideal)) := by
  unfold out0_A_1
  rw [View.read_writes_eq_canon _ _ _ (cover0_A_1 c i a1 h1 a2 h2 hc x)]
  unfold kernelRun0_A
  dsimp only
  sl_unfold_words
  rw [View.canon_cons_unit_zero (S := S1x10112) hz, View.readCov_unit_zero (S := S1x10112) _ hz]
  simp only [View.readAt_eq_ld, h1.read_unread, View.ld_unit_zero (S := S128x1) hz]

variable (V : (c : Dev nD) → (b : Ref sig .tc) → Buf (Elt Ideal) ((c : Thread nD τ).loc b))

/-- The column of target words the call reads, as the call finds it. -/
abbrev dcol (c : Dev nD) : IVec S650240x1 32 := V c main_v10

/-- The degree row: entry `k` counts the places whose target word names `k`. -/
abbrev degRow (c : Dev nD) : FVec Ideal S1x10112 .f32 := fun i => Spec.degK (Spec.colW (dcol V c)) (i 1).val

/-- The block of 128 words point `t` reads. -/
abbrev xblk (c : Dev nD) (t : Fin cfg0.N) : Vec Ideal S128x1 .i32 := iblk0 V c 0 t

/-- Point `n`'s addend at entry `k`: its block's count (nothing past the grid). -/
def addend (c : Dev nD) (n k : ℕ) : EReal := if h : n < cfg0.N then cnt (xblk V c ⟨n, h⟩) k else 0

theorem addend_of_lt (c : Dev nD) (n k : ℕ) (h : n < cfg0.N) : addend V c n k = cnt (xblk V c ⟨n, h⟩) k := dif_pos h

/-- After point `n` the row holds the counts of blocks 0 … n added up: by induction on the point. -/
theorem outsAt_eq (c : Dev nD) : ∀ (n : ℕ) (h : n < cfg0.N) (k : Fin 10112),
    outsAt0 V c n h (ix2 (0 : Fin 1) k) = ∑ s ∈ Finset.range (n + 1), addend V c s k.val
  | 0, h, k => by
    refine (congrFun ((outsAt0_A V c ⟨0, h⟩ (Nat.zero_mod _)).trans
      (out_A c (grid0.coords ⟨0, h⟩) (ms0_0 ⟨0, h⟩) (hs0_0 ⟨0, h⟩) (ms0_1 ⟨0, h⟩) (hs0_1 ⟨0, h⟩)
        ((hcond0_0 ⟨0, h⟩).mpr (Nat.zero_mod _)) (xblk V c ⟨0, h⟩))) (ix2 (0 : Fin 1) k)).trans ?_
    refine (pay2_apply (xblk V c ⟨0, h⟩) (k0_pay1 (F := Ideal)) k).trans ?_
    rw [pay1_apply, zero_add, Finset.sum_range_one, addend_of_lt V c 0 k.val h]
  | n + 1, h, k => by
    have hN : cfg0.N = 5080 := N_0
    have hB : ¬(⟨n + 1, h⟩ : Fin cfg0.N).val % 5080 = 0 := by dsimp only; omega
    refine (congrFun ((outsAt0_B V c ⟨n + 1, h⟩ hB).trans
      (out_B c (grid0.coords ⟨n + 1, h⟩) (ms0_0 ⟨n + 1, h⟩) (hs0_0 ⟨n + 1, h⟩) (ms0_1 ⟨n + 1, h⟩) (hs0_1 ⟨n + 1, h⟩)
        (fun hh => hB ((hcond0_0 ⟨n + 1, h⟩).mp hh)) (xblk V c ⟨n + 1, h⟩)
        (outsAt0 V c n (Nat.lt_of_succ_lt h)))) (ix2 (0 : Fin 1) k)).trans ?_
    refine (pay2_apply (xblk V c ⟨n + 1, h⟩) (outsAt0 V c n (Nat.lt_of_succ_lt h)) k).trans ?_
    rw [outsAt_eq c n (Nat.lt_of_succ_lt h) k, Finset.sum_range_succ _ (n + 1), addend_of_lt V c (n + 1) k.val h]

/-- The block index maps at every point: the input's block index is the point's number, the output's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Word `q` of point `t`'s block is place `128 t + q` of the column. -/
theorem xblk_apply (c : Dev nD) (t : Fin cfg0.N) (q : Fin 128) :
    xblk V c t (ix2 q (0 : Fin 1)) = Spec.colW (dcol V c) (t.val * 128 + q.val) := by
  have hN : t.val < 5080 := lt_of_lt_of_eq t.isLt N_0
  have hlt : t.val * 128 + q.val < 650240 := by have := q.isLt; omega
  unfold Spec.colW
  rw [dif_pos hlt]
  obtain ⟨e0, e1, -, -⟩ := idx_facts t
  show V c main_v10 (((cfg0.win 0).blk t).view.emb (ix2 q (0 : Fin 1))) = V c main_v10 (ix2 ⟨t.val * 128 + q.val, hlt⟩ (0 : Fin 1))
  refine congrArg (V c main_v10) (funext fun a => Fin.ext ?_)
  match a with
  | ⟨0, _⟩ => show win0_0.index t (0 : Fin 2) * 128 + 1 * q.val = t.val * 128 + q.val; omega
  | ⟨1, _⟩ => show win0_0.index t (1 : Fin 2) * 1 + 1 * 0 = 0; omega

/-- After the last point the row is the degree row. -/
theorem last_eq (c : Dev nD) (h : 5079 < cfg0.N) : outsAt0 V c 5079 h = degRow V c := by
  funext i
  obtain ⟨z, k, rfl⟩ : ∃ (z : Fin 1) (k : Fin 10112), i = ix2 z k := ⟨i 0, i 1, eq_ix2 i⟩
  obtain rfl : z = 0 := Subsingleton.elim _ _
  rw [outsAt_eq V c 5079 h k]
  show _ = Spec.degK (Spec.colW (dcol V c)) k.val
  unfold Spec.degK
  rw [Finset.sum_range]
  refine Finset.sum_congr rfl fun t _ => ?_
  have ht : t.val < cfg0.N := lt_of_lt_of_eq t.isLt N_0.symm
  rw [addend_of_lt V c t.val k.val ht]
  unfold cnt
  refine Finset.sum_congr rfl fun q _ => ?_
  rw [xblk_apply V c ⟨t.val, ht⟩ q]

/-- The one write-back, at the last point, writes the degree row: the block is the whole row. -/
theorem flushed_eq (c : Dev nD) (t : Fin cfg0.N) (hf : (cfg0.win 1).flush t = true) :
    (dat0 (F := Ideal) V c).flushed 1 t = ((cfg0.win 1).blk t).view.read (Elt Ideal) (degRow V c) := by
  have hN : cfg0.N = 5080 := N_0
  have h3 : t.val = 5079 := by have := (flush0_1 t).mp hf; have := t.isLt; omega
  obtain ⟨-, -, e0, e1⟩ := idx_facts t
  obtain ⟨tv, tl⟩ := t
  dsimp only at h3
  subst h3
  show (cfg0.win 1).cut (grid0.coords ⟨5079, tl⟩) ((dat0 V c).after 1 ⟨5079, tl⟩) = _
  rw [after0_1, last_eq V c tl]
  have hz' : (fun a => win0_1.index ⟨5079, tl⟩ a * main_v12.ty.shape.size a) = fun _ => 0 := funext fun a => by
    match a with
    | ⟨0, _⟩ => show win0_1.index ⟨5079, tl⟩ (0 : Fin 2) * 1 = 0; omega
    | ⟨1, _⟩ => show win0_1.index ⟨5079, tl⟩ (1 : Fin 2) * 10112 = 0; omega
  exact (Memref.read_access_unit_zero (Elt Ideal) main_v12 hz' (fun a => by rw [congrFun hz' a]; simp) (degRow V c)).symm

/-- The array the first call leaves is the degree row. -/
theorem degree (c : Dev nD) : (dat0 (F := Ideal) V c).arrAt 1 cfg0.N = degRow V c := by
  have hN : cfg0.N = 5080 := N_0
  refine (dat0 (F := Ideal) V c).arrAt_eq_of_cover 1 (degRow V c) (flushed_eq V c) fun i => ?_
  have tl : 5079 < cfg0.N := by omega
  obtain ⟨-, -, e0, e1⟩ := idx_facts ⟨5079, tl⟩
  refine ⟨⟨5079, tl⟩, (flush0_1 ⟨5079, tl⟩).mpr rfl, ?_⟩
  show i ∈ ((View.whole main_v12).slice (win0_1.rect ⟨5079, tl⟩)).set
  rw [View.set_slice_whole, Rect.mem_set_unit]
  intro a
  have h0 : (i 0 : Nat) < 1 := (i 0).isLt
  have h1 : (i 1 : Nat) < 10112 := (i 1).isLt
  match a with
  | ⟨0, _⟩ =>
    show win0_1.index ⟨5079, tl⟩ (0 : Fin 2) * 1 ≤ (i 0 : Nat) ∧ (i 0 : Nat) < win0_1.index ⟨5079, tl⟩ (0 : Fin 2) * 1 + 1
    omega
  | ⟨1, _⟩ =>
    show win0_1.index ⟨5079, tl⟩ (1 : Fin 2) * 10112 ≤ (i 1 : Nat) ∧ (i 1 : Nat) < win0_1.index ⟨5079, tl⟩ (1 : Fin 2) * 10112 + 10112
    omega

end Cert.KernelIdeal.Region0

end
-- ==== Proof.Region1.lean ====
/-
  The second call: the transformed features, each row scaled by its node's factor.

  One grid point, every block the whole array: the call multiplies the 10000 × 128 features by the 128 × 128 weights
  (a product into a zero accumulator: entry (i, j) is the sum over k of x i k · W k j) and multiplies row `i` of the
  product by entry `i` of the column of factors.
-/
import proofs.«430727_j6906307412209_2_alg».proof.Proof.Gen.KernelIdeal.Frame
import proofs.«430727_j6906307412209_2_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

theorem hz : (![0, 0] : Fin 2 → Nat) = fun _ => 0 := funext fun a => by fin_cases a <;> rfl

/-- A column broadcast over many columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of the features and the weights into zero, at `(p, j)`: row `p` of the features times column `j` of the weights. -/
theorem matmul_xw (x : FVec Ideal S10000x128 .f32) (W : FVec Ideal S128x128 .f32) (p : Fin 10000) (j : Fin 128) :
    (matmul dot_S10000x128_S128x128_S10000x128_1_0_0_1_n_n none
      (truncf .bf16 x bitsLt_bf16_f32 : FVec Ideal S10000x128 .bf16) (truncf .bf16 W bitsLt_bf16_f32 : FVec Ideal S128x128 .bf16)
      (constant (F := Ideal) S10000x128 .f32 0x00000000#32)) (ix2 p j)
      = Spec.xw (fun p q => x (ix2 p q)) (fun p q => W (ix2 p q)) p j := by
  refine (Ideal.matmul_constant_zero_apply dot_S10000x128_S128x128_S10000x128_1_0_0_1_n_n none _ _ (ix2 p j)).trans ?_
  rw [← Equiv.sum_comp (contrEquiv1 dot_S10000x128_S128x128_S10000x128_1_0_0_1_n_n 128 rfl rfl).symm]
  unfold Spec.xw
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 p j) ((contrEquiv1 dot_S10000x128_S128x128_S10000x128_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]
  rfl

/-- What the body stores, at `(p, j)`: the product's entry times the factor of row `p`. -/
theorem pay_apply (x : Vec Ideal S10000x128 .f32) (W : Vec Ideal S128x128 .f32) (f : Vec Ideal S10000x1 .f32)
    (p : Fin 10000) (j : Fin 128) :
    k1_pay1 (F := Ideal) x W f (ix2 p j)
      = Spec.xw (fun p q => x (ix2 p q)) (fun p q => W (ix2 p q)) p j * f (ix2 p (0 : Fin 1)) := by
  unfold k1_pay1
  exact congrArg₂ (fun a b : EReal => a * b) (matmul_xw x W p j)
    ((broadcastTo_a1_ab_apply _ broadcasts_S10000x1_S10000x128 p j).trans
      (congrFun (shapeCast_self f shapeCasts_S10000x1_S10000x1) (ix2 p (0 : Fin 1))))

/-- The same as one function of the index, over arrays equal to the body's three inputs. -/
theorem pay_eq_of (x x' : Vec Ideal S10000x128 .f32) (W W' : Vec Ideal S128x128 .f32) (f f' : Vec Ideal S10000x1 .f32)
    (ex : x = x') (eW : W = W') (ef : f = f') :
    k1_pay1 (F := Ideal) x W f = fun i : S10000x128.Idx =>
      Spec.xw (fun p q => x' (ix2 p q)) (fun p q => W' (ix2 p q)) (i 0) (i 1) * f' (ix2 (i 0) (0 : Fin 1)) := by
  subst ex eW ef
  funext i
  obtain ⟨p, j, rfl⟩ : ∃ (p : Fin 10000) (j : Fin 128), i = ix2 p j := ⟨i 0, i 1, eq_ix2 i⟩
  exact pay_apply x W f p j

variable (V : (c : Dev nD) → (b : Ref sig .tc) → Buf (Elt Ideal) ((c : Thread nD τ).loc b))

/-- The features, the weights and the column of factors, as the call finds them. -/
abbrev xarr (c : Dev nD) : FVec Ideal S10000x128 .f32 := V c main_arg0
abbrev warr (c : Dev nD) : FVec Ideal S128x128 .f32 := V c main_arg2
abbrev fcol (c : Dev nD) : FVec Ideal S10000x1 .f32 := V c main_v18

/-- Row `i` of the product of features and weights, times the factor of node `i`. -/
abbrev scaled (c : Dev nD) : FVec Ideal S10000x128 .bf16 := fun i =>
  Spec.xw (fun p q => xarr V c (ix2 p q)) (fun p q => warr V c (ix2 p q)) (i 0) (i 1) * fcol V c (ix2 (i 0) (0 : Fin 1))

/-- The block index maps at the one point: every window's block index is zero on both axes. -/
theorem idx_facts : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0) :=
  (by decide +kernel : ∀ t : Fin grid1.N, _)

/-- Each input's one block is its whole array. -/
theorem xblk_eq (c : Dev nD) (t : Fin cfg1.N) : (iblk1 V c 0 t : Vec Ideal S10000x128 .f32) = xarr V c := by
  obtain ⟨⟨e0, e1⟩, -, -, -⟩ := idx_facts t
  have hz' : (fun a => win1_0.index t a * main_arg0.ty.shape.size a) = fun _ => 0 := funext fun a => by
    match a with
    | ⟨0, _⟩ => show win1_0.index t (0 : Fin 2) * 10000 = 0; omega
    | ⟨1, _⟩ => show win1_0.index t (1 : Fin 2) * 128 = 0; omega
  unfold iblk1
  exact Memref.read_access_unit_zero (Elt Ideal) main_arg0 hz' (fun a => by rw [congrFun hz' a]; simp) (V c main_arg0)

theorem wblk_eq (c : Dev nD) (t : Fin cfg1.N) : (iblk1 V c 1 t : Vec Ideal S128x128 .f32) = warr V c := by
  obtain ⟨-, ⟨e0, e1⟩, -, -⟩ := idx_facts t
  have hz' : (fun a => win1_1.index t a * main_arg2.ty.shape.size a) = fun _ => 0 := funext fun a => by
    match a with
    | ⟨0, _⟩ => show win1_1.index t (0 : Fin 2) * 128 = 0; omega
    | ⟨1, _⟩ => show win1_1.index t (1 : Fin 2) * 128 = 0; omega
  unfold iblk1
  exact Memref.read_access_unit_zero (Elt Ideal) main_arg2 hz' (fun a => by rw [congrFun hz' a]; simp) (V c main_arg2)

theorem fblk_eq (c : Dev nD) (t : Fin cfg1.N) : (iblk1 V c 2 t : Vec Ideal S10000x1 .f32) = fcol V c := by
  obtain ⟨-, -, ⟨e0, e1⟩, -⟩ := idx_facts t
  have hz' : (fun a => win1_2.index t a * main_v18.ty.shape.size a) = fun _ => 0 := funext fun a => by
    match a with
    | ⟨0, _⟩ => show win1_2.index t (0 : Fin 2) * 10000 = 0; omega
    | ⟨1, _⟩ => show win1_2.index t (1 : Fin 2) * 1 = 0; omega
  unfold iblk1
  exact Memref.read_access_unit_zero (Elt Ideal) main_v18 hz' (fun a => by rw [congrFun hz' a]; simp) (V c main_v18)

/-- The one write-back writes the scaled product: the block is the whole array. -/
theorem flushed_eq (c : Dev nD) (t : Fin cfg1.N) (hf : (cfg1.win 3).flush t = true) :
    (dat1 (F := Ideal) V c).flushed 3 t = ((cfg1.win 3).blk t).view.read (Elt Ideal) (scaled V c) := by
  obtain ⟨-, -, -, ⟨e0, e1⟩⟩ := idx_facts t
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S10000x1) hz]
  rw [pay_eq_of (iblk1 V c 0 t) (xarr V c) (iblk1 V c 1 t) (warr V c) (iblk1 V c 2 t) (fcol V c)
    (xblk_eq V c t) (wblk_eq V c t) (fblk_eq V c t)]
  have hz' : (fun a => win1_3.index t a * main_v19.ty.shape.size a) = fun _ => 0 := funext fun a => by
    match a with
    | ⟨0, _⟩ => show win1_3.index t (0 : Fin 2) * 10000 = 0; omega
    | ⟨1, _⟩ => show win1_3.index t (1 : Fin 2) * 128 = 0; omega
  exact (Memref.read_access_unit_zero (Elt Ideal) main_v19 hz' (fun a => by rw [congrFun hz' a]; simp) (scaled V c)).symm

/-- The array the second call leaves is the scaled product. -/
theorem scaled_features (c : Dev nD) : (dat1 (F := Ideal) V c).arrAt 3 cfg1.N = scaled V c := by
  refine (dat1 (F := Ideal) V c).arrAt_eq_of_cover 3 (scaled V c) (flushed_eq V c) fun i => ?_
  obtain ⟨-, -, -, ⟨e0, e1⟩⟩ := idx_facts t1_0
  refine ⟨t1_0, flush1_3 t1_0, ?_⟩
  show i ∈ ((View.whole main_v19).slice (win1_3.rect t1_0)).set
  rw [View.set_slice_whole, Rect.mem_set_unit]
  intro a
  have h0 : (i 0 : Nat) < 10000 := (i 0).isLt
  have h1 : (i 1 : Nat) < 128 := (i 1).isLt
  match a with
  | ⟨0, _⟩ =>
    show win1_3.index t1_0 (0 : Fin 2) * 10000 ≤ (i 0 : Nat) ∧ (i 0 : Nat) < win1_3.index t1_0 (0 : Fin 2) * 10000 + 10000
    omega
  | ⟨1, _⟩ =>
    show win1_3.index t1_0 (1 : Fin 2) * 128 ≤ (i 1 : Nat) ∧ (i 1 : Nat) < win1_3.index t1_0 (1 : Fin 2) * 128 + 128
    omega

end Cert.KernelIdeal.Region1

end
-- ==== Proof.Region2.lean ====
/-
  The third call: gather and scatter as one-hot products, in two halves.

  The grid is 2 × 2540: half `c` walks the 2540 edge blocks `c · 2540 + i`. At the first block of a half the call clears
  its output block, the 10112 × 128 plane `c` of the result; at every block it adds, to entry (r, j) of the plane, the
  sum over the block's 128 places `q` of [the place's target word names r] times the message of the place, and the
  message of a place is the sum over the 10112 rows `k` of [the place's source word names k] times entry (k, j) of the
  scaled features. A plane is written back once, after the last block of its half.
-/
import proofs.«430727_j6906307412209_2_alg».proof.Proof.Gen.KernelIdeal.Frame
import proofs.«430727_j6906307412209_2_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

variable (V : (c : Dev nD) → (b : Ref sig .tc) → Buf (Elt Ideal) ((c : Thread nD τ).loc b))

/-- The column of source words, the row of target words and the padded scaled features, as the call finds them. -/
abbrev scol (c : Dev nD) : IVec S650240x1 32 := V c main_v9
abbrev drow (c : Dev nD) : IVec S1x650240 32 := V c main_v11
abbrev hpadArr (c : Dev nD) : FVec Ideal S10112x128 .bf16 := V c main_v20

/-- The padded scaled features read at any row (0 past the end). -/
def hpAt (c : Dev nD) (k : ℕ) (j : Fin 128) : EReal := if h : k < 10112 then hpadArr V c (ix2 ⟨k, h⟩ j) else 0

/-- The two planes: plane `c` holds, at (r, j), half `c`'s part of the aggregate. -/
abbrev planes (c : Dev nD) : FVec Ideal S2x10112x128 .f32 := fun i =>
  Spec.part (Spec.colW (scol V c)) (Spec.rowW (drow V c)) (hpAt V c) (i 0).val (i 1).val (i 2)

/-! ## What one block leaves in the plane's buffer -/

theorem hz2 : (![0, 0] : Fin 2 → Nat) = fun _ => 0 := funext fun a => by fin_cases a <;> rfl

theorem hz3 : (![0, 0, 0] : Fin 3 → Nat) = fun _ => 0 := funext fun a => by fin_cases a <;> rfl

section Pieces

variable {F : FTy → Type} [FloatOps F]

/-- A later block of a half: the buffer holding `acc` is left at the update of `acc` by the block's words. -/
theorem out_B (c : Dev nD) (i : grid2.Coords) (a2 : Memref sig .tc .vmem S128x1 .i32) (h2 : a2.IsWhole)
    (a3 : Memref sig .tc .vmem S1x128 .i32) (h3 : a3.IsWhole) (a4 : Memref sig .tc .vmem S10112x128 .bf16) (h4 : a4.IsWhole)
    (a5 : Memref sig .tc .vmem S1x10112x128 .f32) (h5 : a5.IsWhole) (hc : ¬cond2_0 i)
    (x0 : Vec F S128x1 .i32) (x1 : Vec F S1x128 .i32) (x2 : Vec F S10112x128 .bf16) (acc : Vec F S1x10112x128 .f32) :
    out2_B_3 c i a2 h2 a3 h3 a4 h4 a5 h5 hc x0 x1 x2 acc = k2_pay2 x0 x1 x2 acc := by
  unfold out2_B_3
  rw [View.read_writes_eq_canon _ _ _ (cover2_B_3 c i a2 h2 a3 h3 a4 h4 a5 h5 hc x0 x1 x2 acc)]
  unfold kernelRun2_B
  dsimp only
  sl_unfold_words
  rw [View.canon_unit_zero hz3]
  simp only [View.readAt_eq_ld, h2.read_unread, h3.read_unread, h4.read_unread, h5.read_unread,
    View.ld_unit_zero (S := S128x1) hz2, View.ld_unit_zero (S := S1x128) hz2, View.ld_unit_zero (S := S10112x128) hz2,
    View.ld_unit_zero (S := S1x10112x128) hz3, shapeCast_self]

end Pieces

/-- The first block of a half: the buffer is cleared, then updated by the block's words. -/
theorem out_A {F : FTy → Type} [FloatOps F] (c : Dev nD) (i : grid2.Coords) (a2 : Memref sig .tc .vmem S128x1 .i32) (h2 : a2.IsWhole)
    (a3 : Memref sig .tc .vmem S1x128 .i32) (h3 : a3.IsWhole) (a4 : Memref sig .tc .vmem S10112x128 .bf16) (h4 : a4.IsWhole)
    (a5 : Memref sig .tc .vmem S1x10112x128 .f32) (h5 : a5.IsWhole) (hc : cond2_0 i)
    (x0 : Vec F S128x1 .i32) (x1 : Vec F S1x128 .i32) (x2 : Vec F S10112x128 .bf16) :
    out2_A_3 c i a2 h2 a3 h3 a4 h4 a5 h5 hc x0 x1 x2 = k2_pay2 x0 x1 x2 (k2_pay1 (F := F)) := by
  unfold out2_A_3
  rw [View.read_writes_eq_canon _ _ _ (cover2_A_3 c i a2 h2 a3 h3 a4 h4 a5 h5 hc x0 x1 x2)]
  unfold kernelRun2_A
  dsimp only
  sl_unfold_words
  rw [View.canon_cons_unit_zero (S := S1x10112x128) hz3]
  simp only [View.readAt_eq_ld, h2.read_unread, h3.read_unread, h4.read_unread,
    View.readCov_unit_zero (S := S1x10112x128) _ hz3,
    View.ld_unit_zero (S := S128x1) hz2, View.ld_unit_zero (S := S1x128) hz2, View.ld_unit_zero (S := S10112x128) hz2,
    View.ld_unit_zero (S := S1x10112x128) hz3, shapeCast_self]

/-! ## The update at an entry -/

theorem cmpi_eq_of_eq {a b : BitVec 32} (h : a = b) : IntOp.cmpi .eq a b = 1#1 := by subst h; simp [IntOp.cmpi]
theorem cmpi_eq_of_ne {a b : BitVec 32} (h : ¬a = b) : IntOp.cmpi .eq a b = 0#1 := by
  unfold IntOp.cmpi
  show BitVec.ofBool (a == b) = 0#1
  rw [show (a == b) = false from beq_eq_false_iff_ne.mpr h]
  rfl

/-- A comparison of the number `k` with a word, widened and converted, is the one-hot entry. -/
theorem sitofp_cmpi_eq_hot (w : BitVec 32) (k : ℕ) :
    (FloatOps.sitofp (F := Ideal) .f32 ((IntOp.cmpi .eq (BitVec.ofNat 32 k) w).setWidth 32) : EReal) = Spec.hot w k := by
  unfold Spec.hot
  by_cases h : BitVec.ofNat 32 k = w
  · rw [if_pos h, cmpi_eq_of_eq h]
    show ((((1#1 : BitVec 1).setWidth 32).toInt : ℝ) : EReal) = 1
    rw [show ((1#1 : BitVec 1).setWidth 32).toInt = 1 from by decide]
    norm_num
  · rw [if_neg h, cmpi_eq_of_ne h]
    show ((((0#1 : BitVec 1).setWidth 32).toInt : ℝ) : EReal) = 0
    rw [show ((0#1 : BitVec 1).setWidth 32).toInt = 0 from by decide]
    norm_num

/-- A column spread along rows: entry (p, c) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_msg_0 (i : S128x128.Idx) (q : dot_S128x10112_S10112x128_S128x128_1_0_0_1_n_n.contr.Idx) :
    (dot_S128x10112_S10112x128_S128x128_1_0_0_1_n_n.lhsIdx i q 0).val = (i 0).val := by
  unfold DotDims.lhsIdx
  rw [dif_neg (show ¬(0 : Fin S128x10112.rank) ∈ dot_S128x10112_S10112x128_S128x128_1_0_0_1_n_n.lhsBatch by decide), dif_pos (show (0 : Fin S128x10112.rank) ∈ dot_S128x10112_S10112x128_S128x128_1_0_0_1_n_n.lhsNonContracting by decide)]
  rfl
theorem lhs_msg_1 (i : S128x128.Idx) (q : dot_S128x10112_S10112x128_S128x128_1_0_0_1_n_n.contr.Idx) :
    (dot_S128x10112_S10112x128_S128x128_1_0_0_1_n_n.lhsIdx i q 1).val = (q ⟨0, by decide⟩).val :=
  dot_S128x10112_S10112x128_S128x128_1_0_0_1_n_n.lhsIdx_val_of_single rfl i q
theorem rhs_msg_0 (i : S128x128.Idx) (q : dot_S128x10112_S10112x128_S128x128_1_0_0_1_n_n.contr.Idx) :
    (dot_S128x10112_S10112x128_S128x128_1_0_0_1_n_n.rhsIdx i q 0).val = (q ⟨0, by decide⟩).val :=
  dot_S128x10112_S10112x128_S128x128_1_0_0_1_n_n.rhsIdx_val_of_single rfl i q
theorem rhs_msg_1 (i : S128x128.Idx) (q : dot_S128x10112_S10112x128_S128x128_1_0_0_1_n_n.contr.Idx) :
    (dot_S128x10112_S10112x128_S128x128_1_0_0_1_n_n.rhsIdx i q 1).val = (i 1).val := by
  unfold DotDims.rhsIdx
  rw [dif_neg (show ¬(1 : Fin S10112x128.rank) ∈ dot_S128x10112_S10112x128_S128x128_1_0_0_1_n_n.rhsBatch by decide), dif_pos (show (1 : Fin S10112x128.rank) ∈ dot_S128x10112_S10112x128_S128x128_1_0_0_1_n_n.rhsNonContracting by decide)]
  rfl

/-- The messages: the product of a 128 × 10112 array with a 10112 × 128 one into zero, at an entry. -/
theorem msg_apply (A : FVec Ideal S128x10112 .bf16) (B : FVec Ideal S10112x128 .bf16) (q j : Fin 128) :
    matmul dot_S128x10112_S10112x128_S128x128_1_0_0_1_n_n none A B (constant (F := Ideal) S128x128 .f32 0x00000000#32) (ix2 q j)
      = ∑ k : Fin 10112, A (ix2 q k) * B (ix2 k j) := by
  show FloatOps.matmul dot_S128x10112_S10112x128_S128x128_1_0_0_1_n_n none A B (constant (F := Ideal) S128x128 .f32 0x00000000#32) (ix2 q j) = _
  rw [Ideal.matmul_constant_zero_apply, ← Equiv.sum_comp (contrEquiv1 dot_S128x10112_S10112x128_S128x128_1_0_0_1_n_n 10112 rfl rfl).symm]
  refine Finset.sum_congr rfl fun k _ => ?_
  have hk := contrEquiv1_symm_val dot_S128x10112_S10112x128_S128x128_1_0_0_1_n_n 10112 rfl rfl k
  have el : dot_S128x10112_S10112x128_S128x128_1_0_0_1_n_n.lhsIdx (ix2 q j) ((contrEquiv1 dot_S128x10112_S10112x128_S128x128_1_0_0_1_n_n 10112 rfl rfl).symm k) = ix2 q k := funext fun a => Fin.ext (by
    match a with
    | ⟨0, _⟩ => exact lhs_msg_0 _ _
    | ⟨1, _⟩ => exact (lhs_msg_1 _ _).trans hk)
  have er : dot_S128x10112_S10112x128_S128x128_1_0_0_1_n_n.rhsIdx (ix2 q j) ((contrEquiv1 dot_S128x10112_S10112x128_S128x128_1_0_0_1_n_n 10112 rfl rfl).symm k) = ix2 k j := funext fun a => Fin.ext (by
    match a with
    | ⟨0, _⟩ => exact (rhs_msg_0 _ _).trans hk
    | ⟨1, _⟩ => exact rhs_msg_1 _ _)
  rw [el, er]

theorem lhs_upd_0 (i : S10112x128.Idx) (q : dot_S10112x128_S128x128_S10112x128_1_0_0_1_n_n.contr.Idx) :
    (dot_S10112x128_S128x128_S10112x128_1_0_0_1_n_n.lhsIdx i q 0).val = (i 0).val := by
  unfold DotDims.lhsIdx
  rw [dif_neg (show ¬(0 : Fin S10112x128.rank) ∈ dot_S10112x128_S128x128_S10112x128_1_0_0_1_n_n.lhsBatch by decide), dif_pos (show (0 : Fin S10112x128.rank) ∈ dot_S10112x128_S128x128_S10112x128_1_0_0_1_n_n.lhsNonContracting by decide)]
  rfl
theorem lhs_upd_1 (i : S10112x128.Idx) (q : dot_S10112x128_S128x128_S10112x128_1_0_0_1_n_n.contr.Idx) :
    (dot_S10112x128_S128x128_S10112x128_1_0_0_1_n_n.lhsIdx i q 1).val = (q ⟨0, by decide⟩).val :=
  dot_S10112x128_S128x128_S10112x128_1_0_0_1_n_n.lhsIdx_val_of_single rfl i q
theorem rhs_upd_0 (i : S10112x128.Idx) (q : dot_S10112x128_S128x128_S10112x128_1_0_0_1_n_n.contr.Idx) :
    (dot_S10112x128_S128x128_S10112x128_1_0_0_1_n_n.rhsIdx i q 0).val = (q ⟨0, by decide⟩).val :=
  dot_S10112x128_S128x128_S10112x128_1_0_0_1_n_n.rhsIdx_val_of_single rfl i q
theorem rhs_upd_1 (i : S10112x128.Idx) (q : dot_S10112x128_S128x128_S10112x128_1_0_0_1_n_n.contr.Idx) :
    (dot_S10112x128_S128x128_S10112x128_1_0_0_1_n_n.rhsIdx i q 1).val = (i 1).val := by
  unfold DotDims.rhsIdx
  rw [dif_neg (show ¬(1 : Fin S128x128.rank) ∈ dot_S10112x128_S128x128_S10112x128_1_0_0_1_n_n.rhsBatch by decide), dif_pos (show (1 : Fin S128x128.rank) ∈ dot_S10112x128_S128x128_S10112x128_1_0_0_1_n_n.rhsNonContracting by decide)]
  rfl

/-- The update: the product of a 10112 × 128 array with a 128 × 128 one into zero, at an entry. -/
theorem upd_apply (A : FVec Ideal S10112x128 .bf16) (B : FVec Ideal S128x128 .bf16) (r : Fin 10112) (j : Fin 128) :
    matmul dot_S10112x128_S128x128_S10112x128_1_0_0_1_n_n none A B (constant (F := Ideal) S10112x128 .f32 0x00000000#32) (ix2 r j)
      = ∑ q : Fin 128, A (ix2 r q) * B (ix2 q j) := by
  show FloatOps.matmul dot_S10112x128_S128x128_S10112x128_1_0_0_1_n_n none A B (constant (F := Ideal) S10112x128 .f32 0x00000000#32) (ix2 r j) = _
  rw [Ideal.matmul_constant_zero_apply, ← Equiv.sum_comp (contrEquiv1 dot_S10112x128_S128x128_S10112x128_1_0_0_1_n_n 128 rfl rfl).symm]
  refine Finset.sum_congr rfl fun k _ => ?_
  have hk := contrEquiv1_symm_val dot_S10112x128_S128x128_S10112x128_1_0_0_1_n_n 128 rfl rfl k
  have el : dot_S10112x128_S128x128_S10112x128_1_0_0_1_n_n.lhsIdx (ix2 r j) ((contrEquiv1 dot_S10112x128_S128x128_S10112x128_1_0_0_1_n_n 128 rfl rfl).symm k) = ix2 r k := funext fun a => Fin.ext (by
    match a with
    | ⟨0, _⟩ => exact lhs_upd_0 _ _
    | ⟨1, _⟩ => exact (lhs_upd_1 _ _).trans hk)
  have er : dot_S10112x128_S128x128_S10112x128_1_0_0_1_n_n.rhsIdx (ix2 r j) ((contrEquiv1 dot_S10112x128_S128x128_S10112x128_1_0_0_1_n_n 128 rfl rfl).symm k) = ix2 k j := funext fun a => Fin.ext (by
    match a with
    | ⟨0, _⟩ => exact (rhs_upd_0 _ _).trans hk
    | ⟨1, _⟩ => exact rhs_upd_1 _ _)
  rw [el, er]

/-- The cleared buffer is zero everywhere. -/
theorem pay1_apply (i : S1x10112x128.Idx) : (k2_pay1 (F := Ideal)) i = 0 := by
  obtain ⟨u, r, j, rfl⟩ : ∃ (u : Fin 1) (r : Fin 10112) (j : Fin 128), i = ix3 u r j := ⟨i 0, i 1, i 2, eq_ix3 i⟩
  unfold k2_pay1
  refine (shapeCast_ab_1ab_apply _ _ u r j).trans ?_
  exact Ideal.ofBits_zero_f32

/-- The one-hot array of the source words: entry (q, k) says whether place q's word names row k. -/
theorem srcHot_apply (x0 : Vec Ideal S128x1 .i32) (q : Fin 128) (k : Fin 10112) :
    (truncf .bf16 (sitofp .f32 (extui 32 (cmpi .eq (iota .tc S128x10112 32 [1] iota_S128x10112_d1_w32)
        (broadcastTo S128x10112 (shapeCast S128x1 x0 shapeCasts_S128x1_S128x1) broadcasts_S128x1_S128x10112)) natLt_1_32)) bitsLt_bf16_f32
      : FVec Ideal S128x10112 .bf16) (ix2 q k) = Spec.hot (x0 (ix2 q (0 : Fin 1))) k.val := by
  have e1 : iota .tc S128x10112 32 [1] iota_S128x10112_d1_w32 (ix2 q k) = BitVec.ofNat 32 k.val :=
    iota_single_apply .tc S128x10112 32 1 iota_S128x10112_d1_w32 (ix2 q k)
  have e2 : broadcastTo S128x10112 (shapeCast S128x1 x0 shapeCasts_S128x1_S128x1) broadcasts_S128x1_S128x10112 (ix2 q k)
      = x0 (ix2 q (0 : Fin 1)) :=
    (broadcastTo_a1_ab_apply _ _ q k).trans (congrFun (shapeCast_self x0 _) _)
  show FloatOps.sitofp (F := Ideal) .f32 ((IntOp.cmpi .eq (iota .tc S128x10112 32 [1] iota_S128x10112_d1_w32 (ix2 q k))
      (broadcastTo S128x10112 (shapeCast S128x1 x0 shapeCasts_S128x1_S128x1) broadcasts_S128x1_S128x10112 (ix2 q k))).setWidth 32) = _
  rw [e1, e2]
  exact sitofp_cmpi_eq_hot _ _

/-- The one-hot array of the target words: entry (r, q) says whether place q's word names row r. -/
theorem dstHot_apply (x1 : Vec Ideal S1x128 .i32) (r : Fin 10112) (q : Fin 128) :
    (truncf .bf16 (sitofp .f32 (extui 32 (cmpi .eq (iota .tc S10112x128 32 [0] iota_S10112x128_d0_w32)
        (broadcastTo S10112x128 (shapeCast S1x128 x1 shapeCasts_S1x128_S1x128) broadcasts_S1x128_S10112x128)) natLt_1_32)) bitsLt_bf16_f32
      : FVec Ideal S10112x128 .bf16) (ix2 r q) = Spec.hot (x1 (ix2 (0 : Fin 1) q)) r.val := by
  have e1 : iota .tc S10112x128 32 [0] iota_S10112x128_d0_w32 (ix2 r q) = BitVec.ofNat 32 r.val :=
    iota_single_apply .tc S10112x128 32 0 iota_S10112x128_d0_w32 (ix2 r q)
  have e2 : broadcastTo S10112x128 (shapeCast S1x128 x1 shapeCasts_S1x128_S1x128) broadcasts_S1x128_S10112x128 (ix2 r q)
      = x1 (ix2 (0 : Fin 1) q) :=
    (broadcastTo_1b_ab_apply _ _ r q).trans (congrFun (shapeCast_self x1 _) _)
  show FloatOps.sitofp (F := Ideal) .f32 ((IntOp.cmpi .eq (iota .tc S10112x128 32 [0] iota_S10112x128_d0_w32 (ix2 r q))
      (broadcastTo S10112x128 (shapeCast S1x128 x1 shapeCasts_S1x128_S1x128) broadcasts_S1x128_S10112x128 (ix2 r q))).setWidth 32) = _
  rw [e1, e2]
  exact sitofp_cmpi_eq_hot _ _

/-- One block's update at an entry: what the buffer held plus, over the block's 128 places, [the place's target word
    names the row] times the place's message, the message being the row of the features its source word names. -/
theorem pay2_apply (x0 : Vec Ideal S128x1 .i32) (x1 : Vec Ideal S1x128 .i32) (x2 : FVec Ideal S10112x128 .bf16)
    (acc : FVec Ideal S1x10112x128 .f32) (u : Fin 1) (r : Fin 10112) (j : Fin 128) :
    k2_pay2 x0 x1 x2 acc (ix3 u r j)
      = acc (ix3 u r j) + ∑ q : Fin 128, Spec.hot (x1 (ix2 (0 : Fin 1) q)) r.val
          * ∑ k : Fin 10112, Spec.hot (x0 (ix2 q (0 : Fin 1))) k.val * x2 (ix2 k j) := by
  obtain rfl : u = 0 := Subsingleton.elim _ _
  unfold k2_pay2
  refine (shapeCast_ab_1ab_apply _ _ 0 r j).trans ?_
  refine (addf_apply _ _ (ix2 r j)).trans ?_
  refine congrArg₂ (fun a b : EReal => a + b) (shapeCast_1ab_ab_apply acc _ r j) ?_
  refine (upd_apply _ _ r j).trans ?_
  refine Finset.sum_congr rfl fun q _ => ?_
  refine congrArg₂ (fun a b : EReal => a * b) (dstHot_apply x1 r q) ?_
  refine (msg_apply _ _ q j).trans ?_
  refine Finset.sum_congr rfl fun k _ => ?_
  exact congrArg₂ (fun a b : EReal => a * b) (srcHot_apply x0 q k) (congrFun (shapeCast_self x2 _) _)

/-! ## The blocks the call reads -/

/-- The call's index maps over the grid: block `t` of the source column and of the target row, the whole features,
    plane `t / 2540` of the result. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 3) = t.val / 2540 ∧ win2_3.index t (1 : Fin 3) = 0 ∧ win2_3.index t (2 : Fin 3) = 0 :=
  (by decide +kernel : ∀ t : Fin grid2.N, _)

/-- The blocks of the three inputs at a point, at their literal types. -/
abbrev sblk (c : Dev nD) (t : Fin cfg2.N) : Vec Ideal S128x1 .i32 := iblk2 V c 0 t
abbrev dblk (c : Dev nD) (t : Fin cfg2.N) : Vec Ideal S1x128 .i32 := iblk2 V c 1 t
abbrev hblk (c : Dev nD) (t : Fin cfg2.N) : FVec Ideal S10112x128 .bf16 := iblk2 V c 2 t

/-- Place `q` of block `t` of the source column is place `128 t + q` of the column. -/
theorem sblk_apply (c : Dev nD) (t : Fin cfg2.N) (q : Fin 128) :
    sblk V c t (ix2 q (0 : Fin 1)) = Spec.colW (scol V c) (t.val * 128 + q.val) := by
  have hN : t.val < 5080 := lt_of_lt_of_eq t.isLt N_2
  have hlt : t.val * 128 + q.val < 650240 := by have := q.isLt; omega
  unfold Spec.colW
  rw [dif_pos hlt]
  show iblk2 V c 0 t (ix2 q (0 : Fin 1)) = _
  unfold iblk2
  rw [View.read_apply]
  show V c main_v9 _ = V c main_v9 _
  congr 1
  obtain ⟨e0, e1, -⟩ := idx_facts t
  funext a; apply Fin.ext
  match a with
  | ⟨0, _⟩ => show win2_0.index t (0 : Fin 2) * 128 + 1 * q.val = t.val * 128 + q.val; rw [e0]; omega
  | ⟨1, _⟩ => show win2_0.index t (1 : Fin 2) * 1 + 1 * 0 = 0; rw [e1]

/-- Place `q` of block `t` of the target row is place `128 t + q` of the row. -/
theorem dblk_apply (c : Dev nD) (t : Fin cfg2.N) (q : Fin 128) :
    dblk V c t (ix2 (0 : Fin 1) q) = Spec.rowW (drow V c) (t.val * 128 + q.val) := by
  have hN : t.val < 5080 := lt_of_lt_of_eq t.isLt N_2
  have hlt : t.val * 128 + q.val < 650240 := by have := q.isLt; omega
  unfold Spec.rowW
  rw [dif_pos hlt]
  show iblk2 V c 1 t (ix2 (0 : Fin 1) q) = _
  unfold iblk2
  rw [View.read_apply]
  show V c main_v11 _ = V c main_v11 _
  congr 1
  obtain ⟨-, -, e2, e3, -⟩ := idx_facts t
  funext a; apply Fin.ext
  match a with
  | ⟨0, _⟩ => show win2_1.index t (0 : Fin 2) * 1 + 1 * 0 = 0; rw [e2]
  | ⟨1, _⟩ => show win2_1.index t (1 : Fin 2) * 128 + 1 * q.val = t.val * 128 + q.val; rw [e3]; omega

/-- The features' block is the whole array at every point. -/
theorem hblk_apply (c : Dev nD) (t : Fin cfg2.N) (k : Fin 10112) (j : Fin 128) :
    hblk V c t (ix2 k j) = hpAt V c k.val j := by
  unfold hpAt
  rw [dif_pos k.isLt]
  show iblk2 V c 2 t (ix2 k j) = _
  unfold iblk2
  rw [View.read_apply]
  show V c main_v20 _ = V c main_v20 _
  congr 1
  obtain ⟨-, -, -, -, e4, e5, -⟩ := idx_facts t
  funext a; apply Fin.ext
  match a with
  | ⟨0, _⟩ => show win2_2.index t (0 : Fin 2) * 10112 + 1 * k.val = k.val; rw [e4]; omega
  | ⟨1, _⟩ => show win2_2.index t (1 : Fin 2) * 128 + 1 * j.val = j.val; rw [e5]; omega

/-! ## The fold over a half -/

/-- Block `n`'s part of entry (r, j) of its plane: over the block's 128 places, [the place's target word names r]
    times the row of the features the place's source word names. -/
def addend (c : Dev nD) (n r : ℕ) (j : Fin 128) : EReal :=
  ∑ q : Fin 128, Spec.hot (Spec.rowW (drow V c) (n * 128 + q.val)) r
    * ∑ k : Fin 10112, Spec.hot (Spec.colW (scol V c) (n * 128 + q.val)) k.val * hpAt V c k.val j

/-- The update at point `t` adds block `t`'s part to what the buffer held. -/
theorem step_apply (c : Dev nD) (t : Fin cfg2.N) (acc : FVec Ideal S1x10112x128 .f32) (i : S1x10112x128.Idx) :
    k2_pay2 (sblk V c t) (dblk V c t) (hblk V c t) acc i = acc i + addend V c t.val (i 1).val (i 2) := by
  obtain ⟨u, r, j, rfl⟩ : ∃ (u : Fin 1) (r : Fin 10112) (j : Fin 128), i = ix3 u r j := ⟨i 0, i 1, i 2, eq_ix3 i⟩
  refine (pay2_apply (sblk V c t) (dblk V c t) (hblk V c t) acc u r j).trans ?_
  show _ + _ = _ + addend V c t.val r.val j
  unfold addend
  refine congrArg (fun x : EReal => acc (ix3 u r j) + x) ?_
  refine Finset.sum_congr rfl fun q _ => ?_
  rw [dblk_apply]
  refine congrArg (fun x : EReal => Spec.hot (Spec.rowW (drow V c) (t.val * 128 + q.val)) r.val * x) ?_
  refine Finset.sum_congr rfl fun k _ => ?_
  rw [sblk_apply, hblk_apply]

/-- What the buffer is reset to at the first block of a half, and how a later block updates it. -/
abbrev resetAt (c : Dev nD) (n : ℕ) (h : n < cfg2.N) : S1x10112x128.Idx → EReal :=
  k2_pay2 (sblk V c ⟨n, h⟩) (dblk V c ⟨n, h⟩) (hblk V c ⟨n, h⟩) (k2_pay1 (F := Ideal))
abbrev stepAt (c : Dev nD) (n : ℕ) (h : n < cfg2.N) (acc : S1x10112x128.Idx → EReal) : S1x10112x128.Idx → EReal :=
  k2_pay2 (sblk V c ⟨n, h⟩) (dblk V c ⟨n, h⟩) (hblk V c ⟨n, h⟩) acc

theorem outsAt_reset (c : Dev nD) (n : ℕ) (h : n < cfg2.N) (h0 : n % 2540 = 0) :
    outsAt2 V c n h = resetAt V c n h :=
  (outsAt2_A V c ⟨n, h⟩ h0).trans (out_A c (grid2.coords ⟨n, h⟩) (ms2_0 ⟨n, h⟩) (hs2_0 ⟨n, h⟩) (ms2_1 ⟨n, h⟩) (hs2_1 ⟨n, h⟩)
    (ms2_2 ⟨n, h⟩) (hs2_2 ⟨n, h⟩) (ms2_3 ⟨n, h⟩) (hs2_3 ⟨n, h⟩) ((hcond2_0 ⟨n, h⟩).mpr h0)
    (sblk V c ⟨n, h⟩) (dblk V c ⟨n, h⟩) (hblk V c ⟨n, h⟩))

theorem outsAt_step (c : Dev nD) (n : ℕ) (h : n + 1 < cfg2.N) (h0 : ¬(n + 1) % 2540 = 0) :
    outsAt2 V c (n + 1) h = stepAt V c (n + 1) h (outsAt2 V c n (Nat.lt_of_succ_lt h)) :=
  (outsAt2_B V c ⟨n + 1, h⟩ h0).trans (out_B c (grid2.coords ⟨n + 1, h⟩) (ms2_0 ⟨n + 1, h⟩) (hs2_0 ⟨n + 1, h⟩) (ms2_1 ⟨n + 1, h⟩) (hs2_1 ⟨n + 1, h⟩)
    (ms2_2 ⟨n + 1, h⟩) (hs2_2 ⟨n + 1, h⟩) (ms2_3 ⟨n + 1, h⟩) (hs2_3 ⟨n + 1, h⟩) (fun hc => h0 ((hcond2_0 ⟨n + 1, h⟩).mp hc))
    (sblk V c ⟨n + 1, h⟩) (dblk V c ⟨n + 1, h⟩) (hblk V c ⟨n + 1, h⟩) (outsAt2 V c n (Nat.lt_of_succ_lt h)))

/-- At the last block of a half the buffer holds, at every entry, the sum of the half's 2540 parts. -/
theorem outsAt_flush (c : Dev nD) (t : Fin cfg2.N) (hf : t.val % 2540 = 2539) (i : S1x10112x128.Idx) :
    outsAt2 V c t.val t.isLt i = ∑ s : Fin 2540, addend V c (t.val / 2540 * 2540 + s.val) (i 1).val (i 2) := by
  have h' : 2540 * (t.val / 2540) + t.val % 2540 < cfg2.N := by rw [Nat.div_add_mod]; exact t.isLt
  have key := Pipeline.eq_accAt_of_mod (N := cfg2.N) (α := S1x10112x128.Idx → EReal) (outsAt2 V c) 2540 (resetAt V c) (stepAt V c)
    (outsAt_reset V c) (outsAt_step V c) (by norm_num) t.val t.isLt h'
  have sum := Pipeline.accAt_add_apply (N := cfg2.N) (ι := S1x10112x128.Idx) (β := EReal) (resetAt V c) (stepAt V c)
    (fun _ => 0) (fun n i => addend V c n (i 1).val (i 2)) (2540 * (t.val / 2540)) 2539
    (fun h i => by
      show k2_pay2 (sblk V c ⟨_, h⟩) (dblk V c ⟨_, h⟩) (hblk V c ⟨_, h⟩) (k2_pay1 (F := Ideal)) i = 0 + addend V c _ (i 1).val (i 2)
      rw [step_apply V c ⟨_, h⟩ (k2_pay1 (F := Ideal)) i, pay1_apply])
    (fun n h acc i _ _ => step_apply V c ⟨n, h⟩ acc i)
    (t.val % 2540) (by omega) h' i
  refine (congrFun key i).trans (sum.trans ?_)
  have e : t.val % 2540 + 1 = 2540 := by omega
  show (0 : EReal) + ∑ s ∈ Finset.range (t.val % 2540 + 1), addend V c (2540 * (t.val / 2540) + s) (i 1).val (i 2) = _
  rw [zero_add, e, Finset.sum_range, Nat.mul_comm 2540 (t.val / 2540)]

/-! ## From the two last blocks to the array -/

/-- What the last block of a half writes back is its plane. -/
theorem flushed_eq (c : Dev nD) (t : Fin cfg2.N) (hf : (cfg2.win 3).flush t = true) :
    (dat2 (F := Ideal) V c).flushed 3 t = ((cfg2.win 3).blk t).view.read (Elt Ideal) (planes V c) := by
  have ht : t.val < 5080 := lt_of_lt_of_eq t.isLt N_2
  have h39 : t.val % 2540 = 2539 := (flush2_3 t).mp hf
  show (cfg2.win 3).cut (grid2.coords t) ((dat2 (F := Ideal) V c).after 3 t) = _
  rw [after2_3]
  refine funext fun (y : S1x10112x128.Idx) => ?_
  rw [View.read_apply]
  obtain ⟨-, -, -, -, -, -, e6, e7, e8⟩ := idx_facts t
  have hp : t.val / 2540 < 2 := by omega
  have hemb : ((cfg2.win 3).blk t).view.emb y = ix3 (⟨t.val / 2540, hp⟩ : Fin 2) (y 1) (y 2) := by
    funext a; apply Fin.ext
    match a with
    | ⟨0, _⟩ => show win2_3.index t (0 : Fin 3) * 1 + 1 * (y 0).val = t.val / 2540; rw [e6]; have : (y 0).val < 1 := (y 0).isLt; omega
    | ⟨1, _⟩ => show win2_3.index t (1 : Fin 3) * 10112 + 1 * (y 1).val = (y 1).val; rw [e7]; omega
    | ⟨2, _⟩ => show win2_3.index t (2 : Fin 3) * 128 + 1 * (y 2).val = (y 2).val; rw [e8]; omega
  rw [hemb]
  show outsAt2 V c t.val t.isLt y = Spec.part (Spec.colW (scol V c)) (Spec.rowW (drow V c)) (hpAt V c) (t.val / 2540) (y 1).val (y 2)
  rw [outsAt_flush V c t h39 y]
  rfl

/-- Every entry of the result lies in the plane one of the two last blocks writes back. -/
theorem cover (i : S2x10112x128.Idx) :
    ∃ t : Fin cfg2.N, (cfg2.win 3).flush t = true ∧ i ∈ ((cfg2.win 3).blk t).view.set := by
  have hN : cfg2.N = 5080 := N_2
  have hi0 : (i 0).val < 2 := (i 0).isLt
  have hi1 : (i 1).val < 10112 := (i 1).isLt
  have hi2 : (i 2).val < 128 := (i 2).isLt
  have hlt : 2540 * (i 0).val + 2539 < cfg2.N := by rw [hN]; omega
  obtain ⟨-, -, -, -, -, -, e6, e7, e8⟩ := idx_facts ⟨2540 * (i 0).val + 2539, hlt⟩
  have e6' : win2_3.index ⟨2540 * (i 0).val + 2539, hlt⟩ (0 : Fin 3) = (i 0).val := by rw [e6]; show (2540 * (i 0).val + 2539) / 2540 = _; omega
  refine ⟨⟨2540 * (i 0).val + 2539, hlt⟩, (flush2_3 _).mpr (by show (2540 * (i 0).val + 2539) % 2540 = 2539; omega), ?_⟩
  show i ∈ ((View.whole main_v21).slice (win2_3.rect ⟨2540 * (i 0).val + 2539, hlt⟩)).set
  rw [View.set_slice_whole, Rect.mem_set_unit]
  intro a
  match a with
  | ⟨0, _⟩ =>
    show win2_3.index ⟨2540 * (i 0).val + 2539, hlt⟩ (0 : Fin 3) * 1 ≤ (i 0).val ∧ (i 0).val < win2_3.index ⟨2540 * (i 0).val + 2539, hlt⟩ (0 : Fin 3) * 1 + 1
    rw [e6']; omega
  | ⟨1, _⟩ =>
    show win2_3.index ⟨2540 * (i 0).val + 2539, hlt⟩ (1 : Fin 3) * 10112 ≤ (i 1).val ∧ (i 1).val < win2_3.index ⟨2540 * (i 0).val + 2539, hlt⟩ (1 : Fin 3) * 10112 + 10112
    rw [e7]; omega
  | ⟨2, _⟩ =>
    show win2_3.index ⟨2540 * (i 0).val + 2539, hlt⟩ (2 : Fin 3) * 128 ≤ (i 2).val ∧ (i 2).val < win2_3.index ⟨2540 * (i 0).val + 2539, hlt⟩ (2 : Fin 3) * 128 + 128
    rw [e8]; omega

/-- The array the third call leaves is the two planes. -/
theorem aggregate (c : Dev nD) : (dat2 (F := Ideal) V c).arrAt 3 cfg2.N = planes V c :=
  (dat2 (F := Ideal) V c).arrAt_eq_of_cover 3 (planes V c) (flushed_eq V c) cover

end Cert.KernelIdeal.Region2

end
-- ==== Proof.GlueWords.lean ====
/-
  The edge words as the calls find them.

  Before the first call the host cuts the two rows out of the adjacency array, appends the 10000 loop edges (node `n` to
  node `n`) to each, pads both lists to 650240 places with the all-ones word, and lays the source list out as a column
  and the target list as a column and as a row. No later step writes these buffers. So at any place `e` each of them
  holds `Spec.edge` of its row at `e`.
-/
import proofs.«430727_j6906307412209_2_alg».proof.Proof.Gen.KernelIdeal.Frame
import proofs.«430727_j6906307412209_2_alg».proof.Proof.Spec
import Idealize.ShloMosaic.Lib.Pipeline.Value
import Idealize.ShloMosaic.Lib.KernelVsHost
import Idealize.ShloMosaic.Lib.StableHlo.Run
import Idealize.ShloMosaic.Lib.ValueIdx
import Idealize.ShloMosaic.Lib.ValueLayout
import Idealize.ShloMosaic.Lib.Tactic

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.KernelIdeal.Glue

open Cert.KernelIdeal Cert.KernelIdeal.Gen

variable (m : (ℓ : Loc nD τ sig) → Buf (Elt Ideal) ℓ) (ρ : Dev nD → PrngReg)

/-- The adjacency array at launch, and its two rows. -/
abbrev adj (c : Dev nD) : IVec S2x640000 32 := m ((c : Thread nD τ).loc main_arg1)
def srcRow (c : Dev nD) : Fin 640000 → BitVec 32 := fun e => adj m c (ix2 (0 : Fin 2) e)
def dstRow (c : Dev nD) : Fin 640000 → BitVec 32 := fun e => adj m c (ix2 (1 : Fin 2) e)

/-! ## The host's layout steps read at a place, over any arrays of the literal types -/

/-- Row `k` of the adjacency array, cut out and laid flat, holds at `e` the array's word at `(k, e)`. -/
theorem row_apply (A : IVec S2x640000 32) (o : ℕ) (h : S2x640000.Slices ![o, 0] S1x640000)
    (k : Fin 2) (hk : k.val = o) (e : Fin 640000) :
    shapeCast S640000 (extractStridedSlice S1x640000 ![o, 0] A h) shapeCasts_S1x640000_S640000 (ix1 e)
      = A (ix2 k e) := by
  rw [shapeCast_1a_a_apply]
  exact slice2_axis0_apply o A h (0 : Fin 1) e k (by rw [hk]; rfl)

/-- The 640000 words followed by the 10000: a place before 640000 reads the first list, a later one the second. -/
theorem cat_apply (a : IVec S640000 32) (b : IVec S10000 32) (j : Fin 650000) :
    concatenate S650000 0 [⟨S640000, a⟩, ⟨S10000, b⟩] concatenates_S640000_S10000_S650000_d0 (ix1 j)
      = if h : j.val < 640000 then a (ix1 ⟨j.val, h⟩) else b (ix1 ⟨j.val - 640000, by omega⟩) := by
  split
  · next h =>
    exact concatenate_pair_apply_left (0 : Fin 1) a b _ (ix1 j) rfl (ix1 ⟨j.val, h⟩)
      (fun d => by match d with | ⟨0, _⟩ => rfl)
  · next h =>
    exact concatenate_pair_apply_right (0 : Fin 1) a b _ (ix1 j) rfl rfl (ix1 ⟨j.val - 640000, by omega⟩)
      (fun d hd => by match d with | ⟨0, _⟩ => exact absurd rfl hd)
      (by show (j.val - 640000) + 640000 = j.val; omega)

/-- The 650000 words padded at the high end to 650240: a place before 650000 reads the list, a later one the padding
    word. -/
theorem pad_apply (x : IVec S650000 32) (v : IVec S_ 32) (j : Fin 650240) :
    pad S650240 ![0] ![240] ![0] x v pads_S650000_S650240_02400 h_S_ (ix1 j)
      = if h : j.val < 650000 then x (ix1 ⟨j.val, h⟩) else v (Shape.Idx.first h_S_) := by
  split
  · next h =>
    exact pad_apply_of_inside _ _ _ x v _ h_S_ (ix1 j) (ix1 ⟨j.val, h⟩)
      (fun d => by match d with | ⟨0, _⟩ => show j.val = 0 + j.val * (0 + 1); omega)
  · next h =>
    refine pad_apply_of_not_inside _ _ _ x v _ h_S_ (ix1 j) (0 : Fin 1) ?_
    show ¬(0 ≤ j.val ∧ (j.val - 0) % (0 + 1) = 0 ∧ (j.val - 0) / (0 + 1) < 650000)
    omega

/-- The whole list the host builds from row `k`: at place `j` it is `Spec.edge` of that row. -/
theorem padded_apply (A : IVec S2x640000 32) (o : ℕ) (h : S2x640000.Slices ![o, 0] S1x640000)
    (k : Fin 2) (hk : k.val = o) (j : Fin 650240) :
    pad S650240 ![0] ![240] ![0]
        (concatenate S650000 0
          [⟨S640000, shapeCast S640000 (extractStridedSlice S1x640000 ![o, 0] A h) shapeCasts_S1x640000_S640000⟩,
           ⟨S10000, iotaInDim S10000 32 0⟩] concatenates_S640000_S10000_S650000_d0)
        (constantI S_ 32 4294967295#32) pads_S650000_S650240_02400 h_S_ (ix1 j)
      = Spec.edge (fun e => A (ix2 k e)) j.val := by
  rw [pad_apply]
  unfold Spec.edge
  by_cases h1 : j.val < 640000
  · have h2 : j.val < 650000 := by omega
    rw [dif_pos h2, dif_pos h1, cat_apply, dif_pos h1]
    exact row_apply A o h k hk ⟨j.val, h1⟩
  · by_cases h2 : j.val < 650000
    · rw [dif_pos h2, dif_neg h1, if_pos h2, cat_apply, dif_neg h1]
      rfl
    · rw [dif_neg h2, dif_neg h1, if_neg h2]
      rfl

/-- The list as a column: place `(e, 0)` reads the list at `e`. -/
theorem col_apply (x : IVec S650240 32) (i : S650240x1.Idx) :
    shapeCast S650240x1 x shapeCasts_S650240_S650240x1 i = x (ix1 (i 0)) := by
  refine shapeCast_apply x _ i (ix1 (i 0)) ?_
  rw [Shape.rowMajor_val_two, Shape.rowMajor_val_one]
  have h1 : (i 1).val < 1 := (i 1).isLt
  show (i 0).val = (i 0).val * 1 + (i 1).val
  omega

/-- The list as a row: place `(0, e)` reads the list at `e`. -/
theorem rowv_apply (x : IVec S650240 32) (i : S1x650240.Idx) :
    shapeCast S1x650240 x shapeCasts_S650240_S1x650240 i = x (ix1 (i 1)) :=
  (congrArg _ (eq_ix2 i)).trans (shapeCast_a_1a_apply x _ (i 0) (i 1))

/-! ## What each stretch of host operations leaves in its results, from any contents `V` -/

section Stretches
variable (V : Valuation τ sig (Elt Ideal))

/-- The list built from the row cut at `o`: the row laid flat, the 10000 loop words, the padding. -/
abbrev paddedList (A : IVec S2x640000 32) (o : ℕ) (h : S2x640000.Slices ![o, 0] S1x640000) : IVec S650240 32 :=
  pad S650240 ![0] ![240] ![0]
    (concatenate S650000 0
      [⟨S640000, shapeCast S640000 (extractStridedSlice S1x640000 ![o, 0] A h) shapeCasts_S1x640000_S640000⟩,
       ⟨S10000, iotaInDim S10000 32 0⟩] concatenates_S640000_S10000_S650000_d0)
    (constantI S_ 32 4294967295#32) pads_S650000_S650240_02400 h_S_

theorem ops0_v5 :
    (StableHlo.after hostOps0 V (Proc.devRef .tc main_v5) : IVec S650000 32)
      = concatenate S650000 0
          [⟨S640000, shapeCast S640000 (extractStridedSlice S1x640000 ![0, 0] (V (Proc.devRef .tc main_arg1) : IVec S2x640000 32)
              slices_S2x640000_S1x640000_0_0) shapeCasts_S1x640000_S640000⟩,
           ⟨S10000, iotaInDim S10000 32 0⟩] concatenates_S640000_S10000_S650000_d0 := by
  after_results
  rfl

theorem ops0_v6 :
    (StableHlo.after hostOps0 V (Proc.devRef .tc main_v6) : IVec S650000 32)
      = concatenate S650000 0
          [⟨S640000, shapeCast S640000 (extractStridedSlice S1x640000 ![1, 0] (V (Proc.devRef .tc main_arg1) : IVec S2x640000 32)
              slices_S2x640000_S1x640000_1_0) shapeCasts_S1x640000_S640000⟩,
           ⟨S10000, iotaInDim S10000 32 0⟩] concatenates_S640000_S10000_S650000_d0 := by
  after_results
  rfl

theorem ops0_c :
    (StableHlo.after hostOps0 V (Proc.devRef .tc main_c) : IVec S_ 32) = constantI S_ 32 4294967295#32 := by
  after_results

theorem ops0_1_v7 :
    (StableHlo.after hostOps0_1 V (Proc.devRef .tc main_v7) : IVec S650240 32)
      = pad S650240 ![0] ![240] ![0] (V (Proc.devRef .tc main_v5) : IVec S650000 32)
          (V (Proc.devRef .tc main_c) : IVec S_ 32) pads_S650000_S650240_02400 h_S_ := by
  after_results
  rfl

theorem ops0_2_c0 :
    (StableHlo.after hostOps0_2 V (Proc.devRef .tc main_c_0) : IVec S_ 32) = constantI S_ 32 4294967295#32 := by
  after_results

theorem ops0_3_v8 :
    (StableHlo.after hostOps0_3 V (Proc.devRef .tc main_v8) : IVec S650240 32)
      = pad S650240 ![0] ![240] ![0] (V (Proc.devRef .tc main_v6) : IVec S650000 32)
          (V (Proc.devRef .tc main_c_0) : IVec S_ 32) pads_S650000_S650240_02400 h_S_ := by
  after_results
  rfl

theorem ops0_4_v9 :
    (StableHlo.after hostOps0_4 V (Proc.devRef .tc main_v9) : IVec S650240x1 32)
      = shapeCast S650240x1 (V (Proc.devRef .tc main_v7) : IVec S650240 32) shapeCasts_S650240_S650240x1 := by
  after_results
  rfl

theorem ops0_4_v10 :
    (StableHlo.after hostOps0_4 V (Proc.devRef .tc main_v10) : IVec S650240x1 32)
      = shapeCast S650240x1 (V (Proc.devRef .tc main_v8) : IVec S650240 32) shapeCasts_S650240_S650240x1 := by
  after_results
  rfl

theorem ops0_4_v11 :
    (StableHlo.after hostOps0_4 V (Proc.devRef .tc main_v11) : IVec S1x650240 32)
      = shapeCast S1x650240 (V (Proc.devRef .tc main_v8) : IVec S650240 32) shapeCasts_S650240_S1x650240 := by
  after_results
  rfl

end Stretches

/-! ## The fold through the program at these buffers -/

/-- A stretch of host operations leaves a buffer none of them writes. -/
local macro "stretch_keeps" : tactic => `(tactic|
  (refine StableHlo.after_of_forall_not_mem _ _ (List.forall_iff_forall_mem.mp ?_)
   simp only [hostOps0_1, hostOps0_2, hostOps0_3, hostOps1, hostOps1_1, hostOps1_2, hostOps2, hostOps2_1,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

section Fold
variable (c : Dev nD)

/-- The padded source list, once the first padding has run. -/
theorem W2_v7 :
    (W2 m ρ c (Proc.devRef .tc main_v7) : IVec S650240 32)
      = paddedList (adj m c) 0 slices_S2x640000_S1x640000_0_0 := by
  refine (ops0_1_v7 (W1 m ρ c)).trans ?_
  have e5 : (W1 m ρ c (Proc.devRef .tc main_v5) : IVec S650000 32) = _ := ops0_v5 (W0 m ρ c)
  have ec : (W1 m ρ c (Proc.devRef .tc main_c) : IVec S_ 32) = _ := ops0_c (W0 m ρ c)
  rw [e5, ec]

/-- It is still there when the column is made. -/
theorem W4_v7 :
    (W4 m ρ c (Proc.devRef .tc main_v7) : IVec S650240 32)
      = paddedList (adj m c) 0 slices_S2x640000_S1x640000_0_0 :=
  calc W4 m ρ c (Proc.devRef .tc main_v7)
    _ = W3 m ρ c (Proc.devRef .tc main_v7) := by stretch_keeps
    _ = W2 m ρ c (Proc.devRef .tc main_v7) := by stretch_keeps
    _ = _ := W2_v7 m ρ c

/-- The unpadded target list is untouched up to its own padding. -/
theorem W3_v6 :
    (W3 m ρ c (Proc.devRef .tc main_v6) : IVec S650000 32)
      = concatenate S650000 0
          [⟨S640000, shapeCast S640000 (extractStridedSlice S1x640000 ![1, 0] (adj m c)
              slices_S2x640000_S1x640000_1_0) shapeCasts_S1x640000_S640000⟩,
           ⟨S10000, iotaInDim S10000 32 0⟩] concatenates_S640000_S10000_S650000_d0 :=
  calc W3 m ρ c (Proc.devRef .tc main_v6)
    _ = W2 m ρ c (Proc.devRef .tc main_v6) := by stretch_keeps
    _ = W1 m ρ c (Proc.devRef .tc main_v6) := by stretch_keeps
    _ = _ := ops0_v6 (W0 m ρ c)

/-- The padded target list. -/
theorem W4_v8 :
    (W4 m ρ c (Proc.devRef .tc main_v8) : IVec S650240 32)
      = paddedList (adj m c) 1 slices_S2x640000_S1x640000_1_0 := by
  refine (ops0_3_v8 (W3 m ρ c)).trans ?_
  have e6 : (W3 m ρ c (Proc.devRef .tc main_v6) : IVec S650000 32) = _ := W3_v6 m ρ c
  have ec : (W3 m ρ c (Proc.devRef .tc main_c_0) : IVec S_ 32) = _ := ops0_2_c0 (W2 m ρ c)
  rw [e6, ec]

/-- No step between the first call's entry and the third's writes the source column. -/
theorem W12_v9 : W12 m ρ c (Proc.devRef .tc main_v9) = W5 m ρ c (Proc.devRef .tc main_v9) :=
  calc W12 m ρ c (Proc.devRef .tc main_v9)
    _ = W11 m ρ c (Proc.devRef .tc main_v9) := by stretch_keeps
    _ = W10 m ρ c (Proc.devRef .tc main_v9) := by stretch_keeps
    _ = W9 m ρ c (Proc.devRef .tc main_v9) := W10_of_ne m ρ c main_v9 (by decide)
    _ = W8 m ρ c (Proc.devRef .tc main_v9) := by stretch_keeps
    _ = W7 m ρ c (Proc.devRef .tc main_v9) := by stretch_keeps
    _ = W6 m ρ c (Proc.devRef .tc main_v9) := by stretch_keeps
    _ = W5 m ρ c (Proc.devRef .tc main_v9) := W6_of_ne m ρ c main_v9 (by decide)

/-- Nor the target row. -/
theorem W12_v11 : W12 m ρ c (Proc.devRef .tc main_v11) = W5 m ρ c (Proc.devRef .tc main_v11) :=
  calc W12 m ρ c (Proc.devRef .tc main_v11)
    _ = W11 m ρ c (Proc.devRef .tc main_v11) := by stretch_keeps
    _ = W10 m ρ c (Proc.devRef .tc main_v11) := by stretch_keeps
    _ = W9 m ρ c (Proc.devRef .tc main_v11) := W10_of_ne m ρ c main_v11 (by decide)
    _ = W8 m ρ c (Proc.devRef .tc main_v11) := by stretch_keeps
    _ = W7 m ρ c (Proc.devRef .tc main_v11) := by stretch_keeps
    _ = W6 m ρ c (Proc.devRef .tc main_v11) := by stretch_keeps
    _ = W5 m ρ c (Proc.devRef .tc main_v11) := W6_of_ne m ρ c main_v11 (by decide)

end Fold

/-- The column of target words the first call reads. -/
theorem dstCol_first (c : Dev nD) :
    (V5 m ρ c main_v10 : IVec S650240x1 32) = fun i => Spec.edge (dstRow m c) (i 0).val := by
  funext i
  have e : (V5 m ρ c main_v10 : IVec S650240x1 32) = _ := ops0_4_v10 (W4 m ρ c)
  have e8 : (W4 m ρ c (Proc.devRef .tc main_v8) : IVec S650240 32) = _ := W4_v8 m ρ c
  rw [e, e8, col_apply]
  exact padded_apply (adj m c) 1 _ (1 : Fin 2) rfl (i 0)

/-- The column of source words the third call reads. -/
theorem srcCol_third (c : Dev nD) :
    (V12 m ρ c main_v9 : IVec S650240x1 32) = fun i => Spec.edge (srcRow m c) (i 0).val := by
  funext i
  have e : (V12 m ρ c main_v9 : IVec S650240x1 32) = _ := (W12_v9 m ρ c).trans (ops0_4_v9 (W4 m ρ c))
  have e7 : (W4 m ρ c (Proc.devRef .tc main_v7) : IVec S650240 32) = _ := W4_v7 m ρ c
  rw [e, e7, col_apply]
  exact padded_apply (adj m c) 0 _ (0 : Fin 2) rfl (i 0)

/-- The row of target words the third call reads. -/
theorem dstRow_third (c : Dev nD) :
    (V12 m ρ c main_v11 : IVec S1x650240 32) = fun i => Spec.edge (dstRow m c) (i 1).val := by
  funext i
  have e : (V12 m ρ c main_v11 : IVec S1x650240 32) = _ := (W12_v11 m ρ c).trans (ops0_4_v11 (W4 m ρ c))
  have e8 : (W4 m ρ c (Proc.devRef .tc main_v8) : IVec S650240 32) = _ := W4_v8 m ρ c
  rw [e, e8, rowv_apply]
  exact padded_apply (adj m c) 1 _ (1 : Fin 2) rfl (i 1)

end Cert.KernelIdeal.Glue

end
-- ==== Proof.GlueFloats.lean ====
/-
  The float buffers between the calls, and the last stretch.

  After the first call the host turns the degree row into the column of factors: entry `i` is the inverse square root
  of degree `i` where that is positive and 0 elsewhere, for the first 10000 entries. The second call reads the features
  and the weights as launched. After it the host pads its result with 112 zero rows. After the third call the host adds
  the two planes, keeps the first 10000 rows, multiplies row `i` by factor `i` and adds the bias.
-/
import proofs.«430727_j6906307412209_2_alg».proof.Proof.Gen.KernelIdeal.Frame
import proofs.«430727_j6906307412209_2_alg».proof.Proof.Spec
import Idealize.ShloMosaic.Lib.Pipeline.Value
import Idealize.ShloMosaic.Lib.KernelVsHost
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Tactic

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.KernelIdeal.Glue

open Cert.KernelIdeal Cert.KernelIdeal.Gen

variable (m : (ℓ : Loc nD τ sig) → Buf (Elt Ideal) ℓ) (ρ : Dev nD → PrngReg)

/-- The degree row as the first call left it, the scaled features as the second left them, the planes as the third. -/
abbrev degLeft (c : Dev nD) : FVec Ideal S1x10112 .f32 := V6 m ρ c main_v12
abbrev scaledLeft (c : Dev nD) : FVec Ideal S10000x128 .bf16 := V10 m ρ c main_v19
abbrev planesLeft (c : Dev nD) : FVec Ideal S2x10112x128 .f32 := V13 m ρ c main_v21
/-- The column of factors as the second call finds it, the padded features as the third finds them, the result after
    the last stretch, and the bias as launched. -/
abbrev factorCol (c : Dev nD) : FVec Ideal S10000x1 .f32 := V9 m ρ c main_v18
abbrev paddedArr (c : Dev nD) : FVec Ideal S10112x128 .bf16 := V12 m ρ c main_v20
abbrev resultArr (c : Dev nD) : FVec Ideal S10000x128 .f32 := W14 m ρ c (Proc.devRef .tc main_v32)
abbrev biasArr (c : Dev nD) : FVec Ideal S128 .f32 := m ((c : Thread nD τ).loc main_arg3)

/-- A row below 10000 is a row below 10112. -/
abbrev wide (p : Fin 10000) : Fin 10112 := ⟨p.val, Nat.lt_of_lt_of_le p.isLt (by decide)⟩

/-- A stretch of host operations none of which writes the buffer leaves it as it was. -/
local macro "stretch_leaves" s:ident : tactic =>
  `(tactic| exact StableHlo.after_of_forall_not_mem _ _ (List.forall_iff_forall_mem.mp (by
      simp only [$s:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The column of factors -/

namespace Floats

section Factor

variable (X : Valuation τ sig (Elt Ideal))

/-- What the last stretch before the second call leaves in the column of factors: the first 10000 rows of the
    transposed row of factors. -/
theorem col_of_row :
    StableHlo.after hostOps1_2 X (Proc.devRef .tc main_v18)
      = extractStridedSlice S10000x1 ![0, 0]
          (transpose S10112x1 [1, 0] (X (Proc.devRef .tc main_v16)) transposes_S1x10112_S10112x1_1_0)
          slices_S10112x1_S10000x1_0_0 := by
  after_results

/-- What the called selection leaves in the row of factors. -/
theorem row_of_select :
    StableHlo.after hostOps1_1 X (Proc.devRef .tc main_v16)
      = select (X (Proc.devRef .tc main_v14)) (X (Proc.devRef .tc main_v15))
          (broadcastInDim S1x10112 ![] bcast_S_S1x10112 (X (Proc.devRef .tc main_cst_1))) := by
  after_results
  simp only [StableHlo.TRef.ofBuf, StableHlo.TRef.toBuf, cast_eq]
  rfl

/-- What the stretch after the first call leaves: the comparison of the degrees with zero, their inverse square roots,
    and the zero constant. -/
theorem cmp_of_deg :
    StableHlo.after hostOps1 X (Proc.devRef .tc main_v14)
      = cmpf .ogt (X (Proc.devRef .tc main_v12))
          (broadcastInDim S1x10112 ![] bcast_S_S1x10112 (constant (F := Ideal) S_ .f32 0x00000000#32)) := by
  after_results
theorem rsqrt_of_deg :
    StableHlo.after hostOps1 X (Proc.devRef .tc main_v15)
      = Host.rsqrt (F := Ideal) (s := S1x10112) (φ := .f32) (X (Proc.devRef .tc main_v12)) := by
  after_results
theorem zero_of_deg :
    StableHlo.after hostOps1 X (Proc.devRef .tc main_cst_1) = constant (F := Ideal) S_ .f32 0x00000000#32 := by
  after_results

end Factor

/-- The selection read at a row of the column: the inverse square root of the degree where the degree is positive,
    zero elsewhere. -/
theorem factor_read (deg : FVec Ideal S1x10112 .f32) (i : S10000x1.Idx) :
    extractStridedSlice S10000x1 ![0, 0]
        (transpose S10112x1 [1, 0]
          (select (cmpf .ogt deg (broadcastInDim S1x10112 ![] bcast_S_S1x10112 (constant (F := Ideal) S_ .f32 0x00000000#32)))
            (Host.rsqrt deg)
            (broadcastInDim S1x10112 ![] bcast_S_S1x10112 (constant (F := Ideal) S_ .f32 0x00000000#32)))
          transposes_S1x10112_S10112x1_1_0)
        slices_S10112x1_S10000x1_0_0 i
      = Spec.dinvOf (deg (ix2 (0 : Fin 1) (wide (i 0)))) := by
  obtain ⟨p, q, rfl⟩ : ∃ p q, i = ix2 p q := ⟨i 0, i 1, eq_ix2 i⟩
  obtain rfl : q = 0 := Subsingleton.elim _ _
  rw [slice2_axis0_apply 0 _ _ p 0 (wide p) (Nat.zero_add _).symm, transpose_ix2_apply, select_apply, cmpf_apply,
    Ideal.cmpf_def, broadcastInDim_apply _ _ _ _ ix0 (fun a => a.elim0), constant_apply, Ideal.ofBits_zero_f32]
  show Scalar.select (BitVec.ofBool (decide (0 < deg (ix2 0 (wide p))))) (Ideal.rsqrt (deg (ix2 0 (wide p)))) 0
    = Spec.dinvOf (deg (ix2 0 (wide p)))
  unfold Spec.dinvOf
  by_cases h : 0 < deg (ix2 0 (wide p))
  · rw [if_pos h, decide_eq_true h]; exact select_one _ _
  · rw [if_neg h, decide_eq_false h]; exact select_zero _ _

end Floats

open Floats in
/-- The column of factors the second call reads: the factor of each of the first 10000 degrees. -/
theorem factorCol_second (c : Dev nD) :
    factorCol m ρ c = fun (i : S10000x1.Idx) => Spec.dinvOf (degLeft m ρ c (ix2 (0 : Fin 1) (wide (i 0)))) := by
  have e16 : W8 m ρ c (Proc.devRef .tc main_v16)
      = select (cmpf .ogt (degLeft m ρ c) (broadcastInDim S1x10112 ![] bcast_S_S1x10112 (constant (F := Ideal) S_ .f32 0x00000000#32)))
          (Host.rsqrt (degLeft m ρ c))
          (broadcastInDim S1x10112 ![] bcast_S_S1x10112 (constant (F := Ideal) S_ .f32 0x00000000#32)) := by
    refine (row_of_select (W7 m ρ c)).trans ?_
    have h14 : W7 m ρ c (Proc.devRef .tc main_v14) = _ := cmp_of_deg (W6 m ρ c)
    have h15 : W7 m ρ c (Proc.devRef .tc main_v15) = _ := rsqrt_of_deg (W6 m ρ c)
    have hc : W7 m ρ c (Proc.devRef .tc main_cst_1) = _ := zero_of_deg (W6 m ρ c)
    rw [h14, h15, hc]
  funext i
  refine (congrFun ((col_of_row (W8 m ρ c)).trans ?_) i).trans (factor_read (degLeft m ρ c) i)
  rw [e16]

/-- The features and the weights the second call reads are the launch contents. -/
theorem features_second (c : Dev nD) : V9 m ρ c main_arg0 = m ((c : Thread nD τ).loc main_arg0) :=
  calc W9 m ρ c (Proc.devRef .tc main_arg0)
    _ = W8 m ρ c (Proc.devRef .tc main_arg0) := by stretch_leaves hostOps1_2
    _ = W7 m ρ c (Proc.devRef .tc main_arg0) := by stretch_leaves hostOps1_1
    _ = W6 m ρ c (Proc.devRef .tc main_arg0) := by stretch_leaves hostOps1
    _ = W5 m ρ c (Proc.devRef .tc main_arg0) := W6_of_ne m ρ c main_arg0 (by decide)
    _ = W4 m ρ c (Proc.devRef .tc main_arg0) := by stretch_leaves hostOps0_4
    _ = W3 m ρ c (Proc.devRef .tc main_arg0) := by stretch_leaves hostOps0_3
    _ = W2 m ρ c (Proc.devRef .tc main_arg0) := by stretch_leaves hostOps0_2
    _ = W1 m ρ c (Proc.devRef .tc main_arg0) := by stretch_leaves hostOps0_1
    _ = W0 m ρ c (Proc.devRef .tc main_arg0) := by stretch_leaves hostOps0
    _ = m ((c : Thread nD τ).loc main_arg0) := rfl
theorem weights_second (c : Dev nD) : V9 m ρ c main_arg2 = m ((c : Thread nD τ).loc main_arg2) :=
  calc W9 m ρ c (Proc.devRef .tc main_arg2)
    _ = W8 m ρ c (Proc.devRef .tc main_arg2) := by stretch_leaves hostOps1_2
    _ = W7 m ρ c (Proc.devRef .tc main_arg2) := by stretch_leaves hostOps1_1
    _ = W6 m ρ c (Proc.devRef .tc main_arg2) := by stretch_leaves hostOps1
    _ = W5 m ρ c (Proc.devRef .tc main_arg2) := W6_of_ne m ρ c main_arg2 (by decide)
    _ = W4 m ρ c (Proc.devRef .tc main_arg2) := by stretch_leaves hostOps0_4
    _ = W3 m ρ c (Proc.devRef .tc main_arg2) := by stretch_leaves hostOps0_3
    _ = W2 m ρ c (Proc.devRef .tc main_arg2) := by stretch_leaves hostOps0_2
    _ = W1 m ρ c (Proc.devRef .tc main_arg2) := by stretch_leaves hostOps0_1
    _ = W0 m ρ c (Proc.devRef .tc main_arg2) := by stretch_leaves hostOps0
    _ = m ((c : Thread nD τ).loc main_arg2) := rfl

/-! ## The padded features -/

namespace Floats

section Padded

variable (X : Valuation τ sig (Elt Ideal))

/-- What the called padding leaves: the scaled features, padded by 112 rows of the converted constant. -/
theorem padded_of_scaled :
    StableHlo.after hostOps2_1 X (Proc.devRef .tc main_v20)
      = pad S10112x128 ![0, 0] ![112, 0] ![0, 0] (X (Proc.devRef .tc main_v19))
          (sitofp (F := Ideal) (s := S_) .bf16 (X (Proc.devRef .tc main_c_2)))
          pads_S10000x128_S10112x128_01120_000 h_S_ := by
  after_results
  simp only [StableHlo.TRef.ofBuf, StableHlo.TRef.toBuf, cast_eq]

/-- The stretch before it writes the integer constant 0 and leaves the scaled features. -/
theorem zero_word : StableHlo.after hostOps2 X (Proc.devRef .tc main_c_2) = constantI S_ 32 0#32 := by
  after_results
theorem scaled_kept : StableHlo.after hostOps2 X (Proc.devRef .tc main_v19) = X (Proc.devRef .tc main_v19) := by
  after_results

end Padded

/-- The padding read at an index: the operand on the first 10000 rows, and the converted 0, which is 0, below. -/
theorem pad_read (x : FVec Ideal S10000x128 .bf16) (i : S10112x128.Idx) :
    pad S10112x128 ![0, 0] ![112, 0] ![0, 0] x (sitofp (F := Ideal) (s := S_) .bf16 (constantI S_ 32 0#32))
        pads_S10000x128_S10112x128_01120_000 h_S_ i
      = if h : (i 0).val < 10000 then x (ix2 (⟨(i 0).val, h⟩ : Fin 10000) (i 1)) else (0 : EReal) := by
  by_cases h : (i 0).val < 10000
  · rw [dif_pos h]
    refine pad_apply_of_inside _ _ _ _ _ _ _ i (ix2 (⟨(i 0).val, h⟩ : Fin 10000) (i 1)) fun a => ?_
    match a with
    | ⟨0, _⟩ => exact (by simp : (i 0).val = 0 + (i 0).val * (0 + 1))
    | ⟨1, _⟩ => exact (by simp : (i 1).val = 0 + (i 1).val * (0 + 1))
  · rw [dif_neg h, pad_apply_of_not_inside _ _ _ _ _ _ _ i (0 : Fin 2) (fun hc => h ?_), sitofp_apply, constantI_apply]
    · show (((0#32 : BitVec 32).toInt : ℝ) : EReal) = 0
      rw [BitVec.toInt_zero, Int.cast_zero, EReal.coe_zero]
    · have h3 : ((i 0).val - 0) / (0 + 1) < 10000 := hc.2.2
      simpa using h3

end Floats

open Floats in
/-- The padded scaled features the third call reads: the second call's result on the first 10000 rows, zero below. -/
theorem padded_third (c : Dev nD) :
    paddedArr m ρ c = fun (i : S10112x128.Idx) =>
      if h : (i 0).val < 10000 then scaledLeft m ρ c (ix2 (⟨(i 0).val, h⟩ : Fin 10000) (i 1)) else (0 : EReal) := by
  have e : W12 m ρ c (Proc.devRef .tc main_v20)
      = pad S10112x128 ![0, 0] ![112, 0] ![0, 0] (scaledLeft m ρ c)
          (sitofp (F := Ideal) (s := S_) .bf16 (constantI S_ 32 0#32)) pads_S10000x128_S10112x128_01120_000 h_S_ := by
    refine (padded_of_scaled (W11 m ρ c)).trans ?_
    have h19 : W11 m ρ c (Proc.devRef .tc main_v19) = _ := scaled_kept (W10 m ρ c)
    have hc : W11 m ρ c (Proc.devRef .tc main_c_2) = _ := zero_word (W10 m ρ c)
    rw [h19, hc]
  funext i
  exact (congrFun e i).trans (pad_read (scaledLeft m ρ c) i)

/-! ## The result -/

namespace Floats

section Result

variable (X : Valuation τ sig (Elt Ideal))

/-- What the last stretch leaves in the result: the factor column broadcast along the columns, times the first 10000
    rows of the sum of the two planes, plus the bias broadcast along the rows. -/
theorem result_of_planes :
    StableHlo.after hostOps3 X (Proc.devRef .tc main_v32)
      = addf (F := Ideal) (φ := .f32)
          (mulf (F := Ideal) (φ := .f32)
            (broadcastInDim S10000x128 ![0, 1] bcast_S10000x1_S10000x128_0_1 (X (Proc.devRef .tc main_v18) : FVec Ideal S10000x1 .f32))
            (extractStridedSlice S10000x128 ![0, 0]
              (addf (F := Ideal) (φ := .f32)
                (shapeCast S10112x128
                  (extractStridedSlice S1x10112x128 ![0, 0, 0] (X (Proc.devRef .tc main_v21) : FVec Ideal S2x10112x128 .f32)
                    slices_S2x10112x128_S1x10112x128_0_0_0)
                  shapeCasts_S1x10112x128_S10112x128)
                (shapeCast S10112x128
                  (extractStridedSlice S1x10112x128 ![1, 0, 0] (X (Proc.devRef .tc main_v21) : FVec Ideal S2x10112x128 .f32)
                    slices_S2x10112x128_S1x10112x128_1_0_0)
                  shapeCasts_S1x10112x128_S10112x128))
              slices_S10112x128_S10000x128_0_0))
          (broadcastInDim S10000x128 ![0, 1] bcast_S1x128_S10000x128_0_1
            (broadcastInDim S1x128 ![1] bcast_S128_S1x128_1 (X (Proc.devRef .tc main_arg3) : FVec Ideal S128 .f32))) := by
  after_results
  rfl

end Result

/-- The last stretch's result read at an index: the factor of the row times the sum of the two planes there, plus the
    bias of the column. -/
theorem result_read (f : FVec Ideal S10000x1 .f32) (pl : FVec Ideal S2x10112x128 .f32) (b : FVec Ideal S128 .f32)
    (i : S10000x128.Idx) :
    addf (F := Ideal) (φ := .f32)
        (mulf (F := Ideal) (φ := .f32) (broadcastInDim S10000x128 ![0, 1] bcast_S10000x1_S10000x128_0_1 f)
          (extractStridedSlice S10000x128 ![0, 0]
            (addf (F := Ideal) (φ := .f32)
              (shapeCast S10112x128
                (extractStridedSlice S1x10112x128 ![0, 0, 0] pl slices_S2x10112x128_S1x10112x128_0_0_0)
                shapeCasts_S1x10112x128_S10112x128)
              (shapeCast S10112x128
                (extractStridedSlice S1x10112x128 ![1, 0, 0] pl slices_S2x10112x128_S1x10112x128_1_0_0)
                shapeCasts_S1x10112x128_S10112x128))
            slices_S10112x128_S10000x128_0_0))
        (broadcastInDim S10000x128 ![0, 1] bcast_S1x128_S10000x128_0_1
          (broadcastInDim S1x128 ![1] bcast_S128_S1x128_1 b)) i
      = f (ix2 (i 0) (0 : Fin 1))
          * (pl (ix3 (0 : Fin 2) (wide (i 0)) (i 1)) + pl (ix3 (1 : Fin 2) (wide (i 0)) (i 1)))
        + b (ix1 (i 1)) := by
  obtain ⟨p, q, rfl⟩ : ∃ p q, i = ix2 p q := ⟨i 0, i 1, eq_ix2 i⟩
  rw [addf_apply, mulf_apply,
    broadcastInDim_apply _ _ f (ix2 p q) (ix2 p (0 : Fin 1))
      (fun a => by match a with | ⟨0, _⟩ => rfl | ⟨1, _⟩ => rfl),
    slice2_axis0_apply 0 _ _ p q (wide p) (Nat.zero_add _).symm, addf_apply,
    shapeCast_1ab_ab_apply, shapeCast_1ab_ab_apply,
    extractStridedSlice_apply ![0, 0, 0] pl _ (ix3 (0 : Fin 1) (wide p) q) (ix3 (0 : Fin 2) (wide p) q)
      (fun a => by
        match a with
        | ⟨0, _⟩ => rfl
        | ⟨1, _⟩ => exact (Nat.zero_add _).symm
        | ⟨2, _⟩ => exact (Nat.zero_add _).symm),
    extractStridedSlice_apply ![1, 0, 0] pl _ (ix3 (0 : Fin 1) (wide p) q) (ix3 (1 : Fin 2) (wide p) q)
      (fun a => by
        match a with
        | ⟨0, _⟩ => rfl
        | ⟨1, _⟩ => exact (Nat.zero_add _).symm
        | ⟨2, _⟩ => exact (Nat.zero_add _).symm),
    broadcastInDim_apply _ _ _ (ix2 p q) (ix2 (0 : Fin 1) q)
      (fun a => by match a with | ⟨0, _⟩ => rfl | ⟨1, _⟩ => rfl),
    broadcastInDim_apply _ _ b (ix2 (0 : Fin 1) q) (ix1 q) (fun a => by match a with | ⟨0, _⟩ => rfl)]

end Floats

open Floats in
/-- The result: row `i`'s factor times the sum of the two planes at row `i`, plus the bias. -/
theorem result_last (c : Dev nD) :
    resultArr m ρ c = fun (i : S10000x128.Idx) =>
      factorCol m ρ c (ix2 (i 0) (0 : Fin 1))
          * (planesLeft m ρ c (ix3 (0 : Fin 2) (wide (i 0)) (i 1)) + planesLeft m ρ c (ix3 (1 : Fin 2) (wide (i 0)) (i 1)))
        + biasArr m c (ix1 (i 1)) := by
  have h18 : W13 m ρ c (Proc.devRef .tc main_v18) = factorCol m ρ c :=
    calc W13 m ρ c (Proc.devRef .tc main_v18)
      _ = W12 m ρ c (Proc.devRef .tc main_v18) := W13_of_ne m ρ c main_v18 (by decide)
      _ = W11 m ρ c (Proc.devRef .tc main_v18) := by stretch_leaves hostOps2_1
      _ = W10 m ρ c (Proc.devRef .tc main_v18) := by stretch_leaves hostOps2
      _ = W9 m ρ c (Proc.devRef .tc main_v18) :=
          (W10_arr m ρ c 2).trans (((dat1 (V9 m ρ) c).arrAt_in 2 rfl _).trans (A_eq1 (V9 m ρ) c 2))
  have hb : W13 m ρ c (Proc.devRef .tc main_arg3) = biasArr m c :=
    (show W14 m ρ c (Proc.devRef .tc main_arg3) = W13 m ρ c (Proc.devRef .tc main_arg3) by
      stretch_leaves hostOps3).symm.trans (W14_main_arg3 m ρ c)
  funext i
  refine (congrFun ((result_of_planes (W13 m ρ c)).trans ?_) i).trans
    (result_read (factorCol m ρ c) (planesLeft m ρ c) (biasArr m c) i)
  rw [h18, hb]

end Cert.KernelIdeal.Glue

end
-- ==== Proof.KValue.lean ====
/-
  The kernel's result as one function of its arguments.

  The three calls and the host steps between them compose: the first call's degree row becomes the column of factors;
  the second call's rows are the transformed features times their node's factor, padded with zero rows; the third
  call's two planes are the two halves of the one-hot aggregate of those padded rows; the last stretch adds the planes,
  applies the target's factor and adds the bias. Read at row `r`, column `j` this is the first arrangement of the
  specification, `Spec.outK`, of the two edge lists built from the rows of the adjacency array.

  The lists are only ever read at the 650240 places of the padded edge list, and the padded features only at their
  10112 rows, so buffers that agree with the specification's functions there may stand in for them.
-/
import proofs.«430727_j6906307412209_2_alg».proof.Proof.KernelRun
import proofs.«430727_j6906307412209_2_alg».proof.Proof.Region0
import proofs.«430727_j6906307412209_2_alg».proof.Proof.Region1
import proofs.«430727_j6906307412209_2_alg».proof.Proof.Region2
import proofs.«430727_j6906307412209_2_alg».proof.Proof.GlueWords
import proofs.«430727_j6906307412209_2_alg».proof.Proof.GlueFloats
import proofs.«430727_j6906307412209_2_alg».proof.Proof.Spec

set_option maxRecDepth 16384

open scoped BigOperators

noncomputable section

open Idealize.ShloMosaic Idealize.ShloMosaic.TcCoe Idealize.SL.Sem
open Idealize.ShloMosaic.Pipeline (Dat)
open Idealize.ShloMosaic.ValueIdx

namespace Cert.Spec

/-- The degree count reads its list only below 650240. -/
theorem degK_congr {d d' : ℕ → BitVec 32} (h : ∀ e, e < 650240 → d e = d' e) (k : ℕ) : degK d k = degK d' k := by
  unfold degK
  refine Finset.sum_congr rfl fun t _ => Finset.sum_congr rfl fun q _ => ?_
  rw [h _ (by have := t.isLt; have := q.isLt; omega)]

/-- A half of the aggregate reads its lists only below 650240 and the rows only below 10112. -/
theorem part_congr {s s' d d' : ℕ → BitVec 32} {hp hp' : ℕ → Fin 128 → EReal} (hs : ∀ e, e < 650240 → s e = s' e)
    (hd : ∀ e, e < 650240 → d e = d' e) (hh : ∀ k, k < 10112 → ∀ j, hp k j = hp' k j) (c : ℕ) (hc : c < 2) (r : ℕ)
    (j : Fin 128) : part s d hp c r j = part s' d' hp' c r j := by
  unfold part
  refine Finset.sum_congr rfl fun i _ => Finset.sum_congr rfl fun q _ => ?_
  have he : (c * 2540 + i.val) * 128 + q.val < 650240 := by have := i.isLt; have := q.isLt; omega
  rw [hs _ he, hd _ he]
  refine congrArg _ (Finset.sum_congr rfl fun k _ => ?_)
  rw [hh k.val k.isLt j]

/-- A column that holds a list reads it back at every place of the column. -/
theorem colW_of {n : ℕ} (f : ℕ → BitVec 32) (e : ℕ) (he : e < n) :
    colW (n := n) (fun i => f (i 0).val) e = f e := by
  unfold colW
  rw [dif_pos he]
  rfl

/-- A row that holds a list reads it back at every place of the row. -/
theorem rowW_of {n : ℕ} (f : ℕ → BitVec 32) (e : ℕ) (he : e < n) :
    rowW (n := n) (fun i => f (i 1).val) e = f e := by
  unfold rowW
  rw [dif_pos he]
  rfl

end Cert.Spec

namespace Cert.KernelIdeal.Value

open Cert.KernelIdeal Cert.KernelIdeal.Gen Cert.KernelIdeal.Glue

variable (m : (ℓ : Loc nD τ sig) → Buf (Elt Ideal) ℓ) (ρ : Dev nD → PrngReg)

/-- The arguments as launched, by their literal types, and as functions of coordinates. -/
abbrev xarg (c : Dev nD) : FVec Ideal S10000x128 .f32 := m ((c : Thread nD τ).loc main_arg0)
abbrev warg (c : Dev nD) : FVec Ideal S128x128 .f32 := m ((c : Thread nD τ).loc main_arg2)
def xfun (c : Dev nD) : Fin 10000 → Fin 128 → EReal := fun p q => xarg m c (ix2 p q)
def wfun (c : Dev nD) : Fin 128 → Fin 128 → EReal := fun p q => warg m c (ix2 p q)
def bfun (c : Dev nD) : Fin 128 → EReal := fun q => biasArr m c (ix1 q)
/-- The two padded edge lists. -/
def sW (c : Dev nD) : ℕ → BitVec 32 := Spec.edge (srcRow m c)
def dW (c : Dev nD) : ℕ → BitVec 32 := Spec.edge (dstRow m c)
/-- The factor of row `k`. -/
def dv (c : Dev nD) (k : ℕ) : EReal := Spec.dinvOf (Spec.degK (dW m c) k)

/-- The result array: the first arrangement of the specification at the arguments. -/
abbrev result (c : Dev nD) : FVec Ideal S10000x128 .f32 := fun i =>
  Spec.outK (sW m c) (dW m c) (xfun m c) (wfun m c) (bfun m c) (i 0) (i 1)

/-- The degree row the first call leaves counts the target list. -/
theorem degLeft_apply (c : Dev nD) (k : Fin 10112) :
    degLeft m ρ c (ix2 (0 : Fin 1) k) = Spec.degK (dW m c) k.val := by
  have h1 : degLeft m ρ c = Region0.degRow (V5 m ρ) c := (hF0 m ρ c 1).symm.trans (Region0.degree (V5 m ρ) c)
  rw [h1]
  show Spec.degK (Spec.colW (Region0.dcol (V5 m ρ) c)) k.val = _
  refine Spec.degK_congr (fun e he => ?_) _
  show Spec.colW (V5 m ρ c main_v10 : IVec S650240x1 32) e = _
  rw [dstCol_first m ρ c]
  exact Spec.colW_of (Spec.edge (dstRow m c)) e he

/-- The column of factors holds the factor of each node. -/
theorem factor_apply (c : Dev nD) (p : Fin 10000) : factorCol m ρ c (ix2 p (0 : Fin 1)) = dv m c p.val := by
  rw [factorCol_second m ρ c]
  show Spec.dinvOf (degLeft m ρ c (ix2 (0 : Fin 1) (wide p))) = _
  rw [degLeft_apply m ρ c (wide p)]
  rfl

/-- The second call leaves the transformed features, each row times its node's factor. -/
theorem scaled_apply (c : Dev nD) (p : Fin 10000) (j : Fin 128) :
    scaledLeft m ρ c (ix2 p j) = Spec.xw (xfun m c) (wfun m c) p j * dv m c p.val := by
  have h1 : scaledLeft m ρ c = Region1.scaled (V9 m ρ) c := (hF1 m ρ c 3).symm.trans (Region1.scaled_features (V9 m ρ) c)
  rw [h1]
  show Spec.xw (fun a b => Region1.xarr (V9 m ρ) c (ix2 a b)) (fun a b => Region1.warr (V9 m ρ) c (ix2 a b)) p j
      * Region1.fcol (V9 m ρ) c (ix2 p (0 : Fin 1)) = _
  have hx : Region1.xarr (V9 m ρ) c = xarg m c := features_second m ρ c
  have hw : Region1.warr (V9 m ρ) c = warg m c := weights_second m ρ c
  have hf : Region1.fcol (V9 m ρ) c (ix2 p (0 : Fin 1)) = dv m c p.val := factor_apply m ρ c p
  rw [hx, hw, hf]
  rfl

/-- The padded features the third call reads are the specification's padded rows. -/
theorem hpAt_apply (c : Dev nD) (k : ℕ) (hk : k < 10112) (j : Fin 128) :
    Region2.hpAt (V12 m ρ) c k j = Spec.hpad (xfun m c) (wfun m c) (dv m c) k j := by
  unfold Region2.hpAt Spec.hpad
  rw [dif_pos hk]
  show paddedArr m ρ c (ix2 ⟨k, hk⟩ j) = _
  rw [padded_third m ρ c]
  by_cases h : k < 10000
  · rw [dif_pos h]
    show (if h' : k < 10000 then scaledLeft m ρ c (ix2 (⟨k, h'⟩ : Fin 10000) j) else (0 : EReal)) = _
    rw [dif_pos h]
    exact scaled_apply m ρ c ⟨k, h⟩ j
  · rw [dif_neg h]
    show (if h' : k < 10000 then scaledLeft m ρ c (ix2 (⟨k, h'⟩ : Fin 10000) j) else (0 : EReal)) = _
    rw [dif_neg h]

/-- Each plane the third call leaves is that half of the aggregate. -/
theorem planes_apply (c : Dev nD) (h : Fin 2) (p : Fin 10000) (j : Fin 128) :
    planesLeft m ρ c (ix3 h (wide p) j)
      = Spec.part (sW m c) (dW m c) (Spec.hpad (xfun m c) (wfun m c) (dv m c)) h.val p.val j := by
  have h1 : planesLeft m ρ c = Region2.planes (V12 m ρ) c := (hF2 m ρ c 3).symm.trans (Region2.aggregate (V12 m ρ) c)
  rw [h1]
  show Spec.part (Spec.colW (Region2.scol (V12 m ρ) c)) (Spec.rowW (Region2.drow (V12 m ρ) c)) (Region2.hpAt (V12 m ρ) c)
      h.val p.val j = _
  refine Spec.part_congr (fun e he => ?_) (fun e he => ?_) (fun k hk j' => hpAt_apply m ρ c k hk j') h.val h.isLt p.val j
  · show Spec.colW (V12 m ρ c main_v9 : IVec S650240x1 32) e = _
    rw [srcCol_third m ρ c]
    exact Spec.colW_of (Spec.edge (srcRow m c)) e he
  · show Spec.rowW (V12 m ρ c main_v11 : IVec S1x650240 32) e = _
    rw [dstRow_third m ρ c]
    exact Spec.rowW_of (Spec.edge (dstRow m c)) e he

/-- The result buffer after the last stretch is the specification's first arrangement. -/
theorem last_eq (c : Dev nD) : resultArr m ρ c = result m c := by
  rw [result_last m ρ c]
  funext i
  show factorCol m ρ c (ix2 (i 0) (0 : Fin 1))
        * (planesLeft m ρ c (ix3 (0 : Fin 2) (wide (i 0)) (i 1)) + planesLeft m ρ c (ix3 (1 : Fin 2) (wide (i 0)) (i 1)))
      + biasArr m c (ix1 (i 1)) = _
  rw [factor_apply m ρ c (i 0), planes_apply m ρ c 0 (i 0) (i 1), planes_apply m ρ c 1 (i 0) (i 1)]
  rfl

/-- The run, read: every execution ends with the result buffer at the specification's first arrangement of the
    arguments, and the arguments as launched. -/
theorem run : θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (last_eq m ρ c), (h c).2⟩) (run_named m ρ)

end Cert.KernelIdeal.Value

end
-- ==== Proof.RefRun.lean ====
/-
  The reference's run, read stage by stage.

  The reference is a straight line of sixty host operations. Each writes one buffer from buffers written before it, so the
  contents after the whole line are obtained by following the line: after the operations up to the one that writes a
  buffer, that buffer holds the operation's function of its operands' contents, and no later operation writes it again.
  Taken a stretch at a time, each buffer is identified with its stage function of the four arguments; the last stage is
  the result.

  The line is cut into seven consecutive stretches. For each stretch one lemma, over an arbitrary valuation of the
  buffers: if the buffers still to be read hold their stage functions before the stretch, then after it the buffers it
  writes that are read later hold theirs, and the others keep what they held. A buffer is written once, so a value
  established in one stretch is carried unchanged through the later ones. The contents after the whole line are the
  contents after the last stretch from those after the one before, and so on back to the launch.
-/
import proofs.«430727_j6906307412209_2_alg».proof.Proof.RefOps
import proofs.«430727_j6906307412209_2_alg».proof.Proof.RefRead
import Idealize.ShloMosaic.Lib.StableHlo.Run

set_option maxRecDepth 16384

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines run one after the other: those after the second, from those after the first. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- Stretch 1: operations 1 to 7 of the line. -/
def ops1 : List (HloOp τ sig (Elt F)) :=
  [ nullary main_v0 (iotaInDim S10000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S650000 0 [⟨S640000, a⟩, ⟨S10000, b⟩] concatenates_S640000_S10000_S650000_d0) : (⟨S640000, .i32⟩ : BufTy).Contents (Elt F) → (⟨S10000, .i32⟩ : BufTy).Contents (Elt F) → (⟨S650000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S650000 0 [⟨S640000, a⟩, ⟨S10000, b⟩] concatenates_S640000_S10000_S650000_d0) : (⟨S640000, .i32⟩ : BufTy).Contents (Elt F) → (⟨S10000, .i32⟩ : BufTy).Contents (Elt F) → (⟨S650000, .i32⟩ : BufTy).Contents (Elt F)) ]

/-- Stretch 2: operations 8 to 13 of the line. -/
def ops2 : List (HloOp τ sig (Elt F)) :=
  [ nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S10000_S650000x1_S650000_n_0_0_1 x i u) : (⟨S10000, .f32⟩ : BufTy).Contents (Elt F) → (⟨S650000x1, .i32⟩ : BufTy).Contents (Elt F) → (⟨S650000, .f32⟩ : BufTy).Contents (Elt F) → (⟨S10000, .f32⟩ : BufTy).Contents (Elt F)) ]

/-- Stretch 3: operations 14 to 21 of the line. -/
def ops3 : List (HloOp τ sig (Elt F)) :=
  [ nullary main_cst_1 (constant S_ .f32 0x00000000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (cmpf .ogt : (⟨S10000, .f32⟩ : BufTy).Contents (Elt F) → (⟨S10000, .f32⟩ : BufTy).Contents (Elt F) → (⟨S10000, .i1⟩ : BufTy).Contents (Elt F)),
    unary main_v10 main_v13 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v12) (TRef.of (T := ⟨S10000, .f32⟩) main_v13) (TRef.of (T := ⟨S10000, .f32⟩) main_call0_v1) (TRef.of (T := ⟨S10000, .f32⟩) main_v14) select ]

/-- Stretch 4: operations 22 to 30 of the line. -/
def ops4 : List (HloOp τ sig (Elt F)) :=
  [ nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v3 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 10000#32),
    unary main_c_3 main_v17 (broadcastInDim S650000 ![] bcast_S_S650000 : (⟨S_, .i32⟩ : BufTy).Contents (Elt F) → (⟨S650000, .i32⟩ : BufTy).Contents (Elt F)),
    binary main_v3 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S10000_S650000x1_S650000_n_0_n_n_0_1_1 x i) : (⟨S10000, .f32⟩ : BufTy).Contents (Elt F) → (⟨S650000x1, .i32⟩ : BufTy).Contents (Elt F) → (⟨S650000, .f32⟩ : BufTy).Contents (Elt F)) ]

/-- Stretch 5: operations 31 to 40 of the line. -/
def ops5 : List (HloOp τ sig (Elt F)) :=
  [ nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 10000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S10000_S650000x1_S650000_n_0_n_n_0_1_1 x i) : (⟨S10000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)) ]

/-- Stretch 6: operations 41 to 50 of the line. -/
def ops6 : List (HloOp τ sig (Elt F)) :=
  [ binary main_arg0 main_arg2 main_v30 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v3 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 10000#32),
    unary main_c_7 main_v33 (broadcastInDim S650000 ![] bcast_S_S650000 : (⟨S_, .i32⟩ : BufTy).Contents (Elt F) → (⟨S650000, .i32⟩ : BufTy).Contents (Elt F)),
    binary main_v3 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v3 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v30 main_v36 main_v37 ((fun x i => Host.gather gather_S10000x128_S650000x1_S650000x128_1_0_n_n_0_1_1128 x i) : (⟨S10000x128, .f32⟩ : BufTy).Contents (Elt F) → (⟨S650000x1, .i32⟩ : BufTy).Contents (Elt F) → (⟨S650000x128, .f32⟩ : BufTy).Contents (Elt F)) ]

/-- Stretch 7: operations 51 to 60 of the line. -/
def ops7 : List (HloOp τ sig (Elt F)) :=
  [ unary main_v29 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x128 ![0, 1] bcast_S650000x1_S650000x128_0_1 : (⟨S650000x1, .f32⟩ : BufTy).Contents (Elt F) → (⟨S650000x128, .f32⟩ : BufTy).Contents (Elt F)),
    binary main_v37 main_v39 main_v40 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v41 (broadcastInDim S10000x128 ![] bcast_S_S10000x128 : (⟨S_, .f32⟩ : BufTy).Contents (Elt F) → (⟨S10000x128, .f32⟩ : BufTy).Contents (Elt F)),
    unary main_v6 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S10000x128_S650000x1_S650000x128_1_0_0_1 x i u) : (⟨S10000x128, .f32⟩ : BufTy).Contents (Elt F) → (⟨S650000x1, .i32⟩ : BufTy).Contents (Elt F) → (⟨S650000x128, .f32⟩ : BufTy).Contents (Elt F) → (⟨S10000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S10000x128 ![0, 1] bcast_S1x128_S10000x128_0_1 : (⟨S1x128, .f32⟩ : BufTy).Contents (Elt F) → (⟨S10000x128, .f32⟩ : BufTy).Contents (Elt F)),
    binary main_v43 main_v45 main_v46 (addf : (⟨S10000x128, .f32⟩ : BufTy).Contents (Elt F) → (⟨S10000x128, .f32⟩ : BufTy).Contents (Elt F) → (⟨S10000x128, .f32⟩ : BufTy).Contents (Elt F)) ]

/-- The line is its seven stretches in a row. -/
theorem ops_cut : (ops : List (HloOp τ sig (Elt F))) = ops1 ++ (ops2 ++ (ops3 ++ (ops4 ++ (ops5 ++ (ops6 ++ ops7))))) := rfl

/-- Stretch 1: from contents at which main_arg0, main_arg1, main_arg2, main_arg3 hold their stage functions, after it main_v3, main_v6, main_arg0, main_arg2, main_arg3 hold theirs. -/
theorem stage1 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_a0 : W (Proc.devRef (τ := τ) .tc main_arg0) = x0)
    (h_a1 : W (Proc.devRef (τ := τ) .tc main_arg1) = x1)
    (h_a2 : W (Proc.devRef (τ := τ) .tc main_arg2) = x2)
    (h_a3 : W (Proc.devRef (τ := τ) .tc main_arg3) = x3) :
    after ops1 W (Proc.devRef (τ := τ) .tc main_v3) = val_main_v3 (F := F) x1
    ∧ after ops1 W (Proc.devRef (τ := τ) .tc main_v6) = val_main_v6 (F := F) x1
    ∧ after ops1 W (Proc.devRef (τ := τ) .tc main_arg0) = x0
    ∧ after ops1 W (Proc.devRef (τ := τ) .tc main_arg2) = x2
    ∧ after ops1 W (Proc.devRef (τ := τ) .tc main_arg3) = x3 := by
  refine ⟨?_, ?_, ?_, ?_, ?_⟩
  · unfold ops1
    after_results
    rw [h_a1]
    rfl
  · unfold ops1
    after_results
    rw [h_a1]
    rfl
  · unfold ops1
    after_results
    exact h_a0
  · unfold ops1
    after_results
    exact h_a2
  · unfold ops1
    after_results
    exact h_a3

/-- Stretch 2: from contents at which main_v3, main_v6, main_arg0, main_arg2, main_arg3 hold their stage functions, after it main_v10, main_v3, main_v6, main_arg0, main_arg2, main_arg3 hold theirs. -/
theorem stage2 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v3 : W (Proc.devRef (τ := τ) .tc main_v3) = val_main_v3 (F := F) x1)
    (h_v6 : W (Proc.devRef (τ := τ) .tc main_v6) = val_main_v6 (F := F) x1)
    (h_a0 : W (Proc.devRef (τ := τ) .tc main_arg0) = x0)
    (h_a2 : W (Proc.devRef (τ := τ) .tc main_arg2) = x2)
    (h_a3 : W (Proc.devRef (τ := τ) .tc main_arg3) = x3) :
    after ops2 W (Proc.devRef (τ := τ) .tc main_v10) = val_main_v10 (F := F) x1
    ∧ after ops2 W (Proc.devRef (τ := τ) .tc main_v3) = val_main_v3 (F := F) x1
    ∧ after ops2 W (Proc.devRef (τ := τ) .tc main_v6) = val_main_v6 (F := F) x1
    ∧ after ops2 W (Proc.devRef (τ := τ) .tc main_arg0) = x0
    ∧ after ops2 W (Proc.devRef (τ := τ) .tc main_arg2) = x2
    ∧ after ops2 W (Proc.devRef (τ := τ) .tc main_arg3) = x3 := by
  refine ⟨?_, ?_, ?_, ?_, ?_, ?_⟩
  · unfold ops2
    after_results
    rw [h_v6]
    rfl
  · unfold ops2
    after_results
    exact h_v3
  · unfold ops2
    after_results
    exact h_v6
  · unfold ops2
    after_results
    exact h_a0
  · unfold ops2
    after_results
    exact h_a2
  · unfold ops2
    after_results
    exact h_a3

/-- Stretch 3: from contents at which main_v10, main_v3, main_v6, main_arg0, main_arg2, main_arg3 hold their stage functions, after it main_v14, main_v3, main_v6, main_arg0, main_arg2, main_arg3 hold theirs. -/
theorem stage3 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v10 : W (Proc.devRef (τ := τ) .tc main_v10) = val_main_v10 (F := F) x1)
    (h_v3 : W (Proc.devRef (τ := τ) .tc main_v3) = val_main_v3 (F := F) x1)
    (h_v6 : W (Proc.devRef (τ := τ) .tc main_v6) = val_main_v6 (F := F) x1)
    (h_a0 : W (Proc.devRef (τ := τ) .tc main_arg0) = x0)
    (h_a2 : W (Proc.devRef (τ := τ) .tc main_arg2) = x2)
    (h_a3 : W (Proc.devRef (τ := τ) .tc main_arg3) = x3) :
    after ops3 W (Proc.devRef (τ := τ) .tc main_v14) = val_main_v14 (F := F) x1
    ∧ after ops3 W (Proc.devRef (τ := τ) .tc main_v3) = val_main_v3 (F := F) x1
    ∧ after ops3 W (Proc.devRef (τ := τ) .tc main_v6) = val_main_v6 (F := F) x1
    ∧ after ops3 W (Proc.devRef (τ := τ) .tc main_arg0) = x0
    ∧ after ops3 W (Proc.devRef (τ := τ) .tc main_arg2) = x2
    ∧ after ops3 W (Proc.devRef (τ := τ) .tc main_arg3) = x3 := by
  refine ⟨?_, ?_, ?_, ?_, ?_, ?_⟩
  · unfold ops3
    after_results
    rw [h_v10]
    rfl
  · unfold ops3
    after_results
    exact h_v3
  · unfold ops3
    after_results
    exact h_v6
  · unfold ops3
    after_results
    exact h_a0
  · unfold ops3
    after_results
    exact h_a2
  · unfold ops3
    after_results
    exact h_a3

/-- Stretch 4: from contents at which main_v14, main_v3, main_v6, main_arg0, main_arg2, main_arg3 hold their stage functions, after it main_v21, main_v3, main_v6, main_v14, main_arg0, main_arg2, main_arg3 hold theirs. -/
theorem stage4 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v14 : W (Proc.devRef (τ := τ) .tc main_v14) = val_main_v14 (F := F) x1)
    (h_v3 : W (Proc.devRef (τ := τ) .tc main_v3) = val_main_v3 (F := F) x1)
    (h_v6 : W (Proc.devRef (τ := τ) .tc main_v6) = val_main_v6 (F := F) x1)
    (h_a0 : W (Proc.devRef (τ := τ) .tc main_arg0) = x0)
    (h_a2 : W (Proc.devRef (τ := τ) .tc main_arg2) = x2)
    (h_a3 : W (Proc.devRef (τ := τ) .tc main_arg3) = x3) :
    after ops4 W (Proc.devRef (τ := τ) .tc main_v21) = val_main_v21 (F := F) x1
    ∧ after ops4 W (Proc.devRef (τ := τ) .tc main_v3) = val_main_v3 (F := F) x1
    ∧ after ops4 W (Proc.devRef (τ := τ) .tc main_v6) = val_main_v6 (F := F) x1
    ∧ after ops4 W (Proc.devRef (τ := τ) .tc main_v14) = val_main_v14 (F := F) x1
    ∧ after ops4 W (Proc.devRef (τ := τ) .tc main_arg0) = x0
    ∧ after ops4 W (Proc.devRef (τ := τ) .tc main_arg2) = x2
    ∧ after ops4 W (Proc.devRef (τ := τ) .tc main_arg3) = x3 := by
  refine ⟨?_, ?_, ?_, ?_, ?_, ?_, ?_⟩
  · unfold ops4
    after_results
    rw [h_v3, h_v14]
    rfl
  · unfold ops4
    after_results
    exact h_v3
  · unfold ops4
    after_results
    exact h_v6
  · unfold ops4
    after_results
    exact h_v14
  · unfold ops4
    after_results
    exact h_a0
  · unfold ops4
    after_results
    exact h_a2
  · unfold ops4
    after_results
    exact h_a3

/-- Stretch 5: from contents at which main_v21, main_v3, main_v6, main_v14, main_arg0, main_arg2, main_arg3 hold their stage functions, after it main_v29, main_v3, main_v6, main_arg0, main_arg2, main_arg3 hold theirs. -/
theorem stage5 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v21 : W (Proc.devRef (τ := τ) .tc main_v21) = val_main_v21 (F := F) x1)
    (h_v3 : W (Proc.devRef (τ := τ) .tc main_v3) = val_main_v3 (F := F) x1)
    (h_v6 : W (Proc.devRef (τ := τ) .tc main_v6) = val_main_v6 (F := F) x1)
    (h_v14 : W (Proc.devRef (τ := τ) .tc main_v14) = val_main_v14 (F := F) x1)
    (h_a0 : W (Proc.devRef (τ := τ) .tc main_arg0) = x0)
    (h_a2 : W (Proc.devRef (τ := τ) .tc main_arg2) = x2)
    (h_a3 : W (Proc.devRef (τ := τ) .tc main_arg3) = x3) :
    after ops5 W (Proc.devRef (τ := τ) .tc main_v29) = val_main_v29 (F := F) x1
    ∧ after ops5 W (Proc.devRef (τ := τ) .tc main_v3) = val_main_v3 (F := F) x1
    ∧ after ops5 W (Proc.devRef (τ := τ) .tc main_v6) = val_main_v6 (F := F) x1
    ∧ after ops5 W (Proc.devRef (τ := τ) .tc main_arg0) = x0
    ∧ after ops5 W (Proc.devRef (τ := τ) .tc main_arg2) = x2
    ∧ after ops5 W (Proc.devRef (τ := τ) .tc main_arg3) = x3 := by
  refine ⟨?_, ?_, ?_, ?_, ?_, ?_⟩
  · unfold ops5
    after_results
    rw [h_v6, h_v14, h_v21]
    rfl
  · unfold ops5
    after_results
    exact h_v3
  · unfold ops5
    after_results
    exact h_v6
  · unfold ops5
    after_results
    exact h_a0
  · unfold ops5
    after_results
    exact h_a2
  · unfold ops5
    after_results
    exact h_a3

/-- Stretch 6: from contents at which main_v29, main_v3, main_v6, main_arg0, main_arg2, main_arg3 hold their stage functions, after it main_v37, main_v6, main_v29, main_arg3 hold theirs. -/
theorem stage6 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v29 : W (Proc.devRef (τ := τ) .tc main_v29) = val_main_v29 (F := F) x1)
    (h_v3 : W (Proc.devRef (τ := τ) .tc main_v3) = val_main_v3 (F := F) x1)
    (h_v6 : W (Proc.devRef (τ := τ) .tc main_v6) = val_main_v6 (F := F) x1)
    (h_a0 : W (Proc.devRef (τ := τ) .tc main_arg0) = x0)
    (h_a2 : W (Proc.devRef (τ := τ) .tc main_arg2) = x2)
    (h_a3 : W (Proc.devRef (τ := τ) .tc main_arg3) = x3) :
    after ops6 W (Proc.devRef (τ := τ) .tc main_v37) = val_main_v37 (F := F) x0 x1 x2
    ∧ after ops6 W (Proc.devRef (τ := τ) .tc main_v6) = val_main_v6 (F := F) x1
    ∧ after ops6 W (Proc.devRef (τ := τ) .tc main_v29) = val_main_v29 (F := F) x1
    ∧ after ops6 W (Proc.devRef (τ := τ) .tc main_arg3) = x3 := by
  refine ⟨?_, ?_, ?_, ?_⟩
  · unfold ops6
    after_results
    rw [h_a0, h_a2, h_v3]
    rfl
  · unfold ops6
    after_results
    exact h_v6
  · unfold ops6
    after_results
    exact h_v29
  · unfold ops6
    after_results
    exact h_a3

/-- Stretch 7: from contents at which main_v37, main_v6, main_v29, main_arg3 hold their stage functions, after it main_v46 hold theirs. -/
theorem stage7 (W : Valuation τ sig (Elt F)) (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F))
    (h_v37 : W (Proc.devRef (τ := τ) .tc main_v37) = val_main_v37 (F := F) x0 x1 x2)
    (h_v6 : W (Proc.devRef (τ := τ) .tc main_v6) = val_main_v6 (F := F) x1)
    (h_v29 : W (Proc.devRef (τ := τ) .tc main_v29) = val_main_v29 (F := F) x1)
    (h_a3 : W (Proc.devRef (τ := τ) .tc main_arg3) = x3) :
    after ops7 W (Proc.devRef (τ := τ) .tc main_v46) = val_main_v46 (F := F) x0 x1 x2 x3 := by
  unfold ops7
  after_results
  rw [h_v29, h_v37, h_v6, h_a3]
  rfl

/-- After the whole line, from any contents, the result buffer holds the last stage function of the arguments' contents. -/
theorem result (W : Valuation τ sig (Elt F)) :
    after ops W (Proc.devRef (τ := τ) .tc main_v46)
      = val_main_v46 (F := F) (W (Proc.devRef (τ := τ) .tc main_arg0)) (W (Proc.devRef (τ := τ) .tc main_arg1)) (W (Proc.devRef (τ := τ) .tc main_arg2)) (W (Proc.devRef (τ := τ) .tc main_arg3)) := by
  rw [ops_cut, after_two, after_two, after_two, after_two, after_two, after_two]
  obtain ⟨h_v3, h_v6, h_a0, h_a2, h_a3⟩ := stage1 W _ _ _ _ rfl rfl rfl rfl
  generalize after ops1 W = W1 at h_v3 h_v6 h_a0 h_a2 h_a3 ⊢
  obtain ⟨h_v10, h_v3, h_v6, h_a0, h_a2, h_a3⟩ := stage2 W1 _ _ _ _ h_v3 h_v6 h_a0 h_a2 h_a3
  generalize after ops2 W1 = W2 at h_v10 h_v3 h_v6 h_a0 h_a2 h_a3 ⊢
  obtain ⟨h_v14, h_v3, h_v6, h_a0, h_a2, h_a3⟩ := stage3 W2 _ _ _ _ h_v10 h_v3 h_v6 h_a0 h_a2 h_a3
  generalize after ops3 W2 = W3 at h_v14 h_v3 h_v6 h_a0 h_a2 h_a3 ⊢
  obtain ⟨h_v21, h_v3, h_v6, h_v14, h_a0, h_a2, h_a3⟩ := stage4 W3 _ _ _ _ h_v14 h_v3 h_v6 h_a0 h_a2 h_a3
  generalize after ops4 W3 = W4 at h_v21 h_v3 h_v6 h_v14 h_a0 h_a2 h_a3 ⊢
  obtain ⟨h_v29, h_v3, h_v6, h_a0, h_a2, h_a3⟩ := stage5 W4 _ _ _ _ h_v21 h_v3 h_v6 h_v14 h_a0 h_a2 h_a3
  generalize after ops5 W4 = W5 at h_v29 h_v3 h_v6 h_a0 h_a2 h_a3 ⊢
  obtain ⟨h_v37, h_v6, h_v29, h_a3⟩ := stage6 W5 _ _ _ _ h_v29 h_v3 h_v6 h_a0 h_a2 h_a3
  generalize after ops6 W5 = W6 at h_v37 h_v6 h_v29 h_a3 ⊢
  exact stage7 W6 _ _ _ _ h_v37 h_v6 h_v29 h_a3

/-- On every device, from any memory with zero counters: every weakly fair execution of the reference terminates with
    the result buffer at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = val_main_v46 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunP

end
-- ==== Proof.RefValue.lean ====
/-
  The reference, read at an index.

  The reference builds the same edge list without the padding (650000 places), counts the degrees by a scatter of ones
  (an update whose index lies outside the 10000 rows is dropped, so row `k` receives one for every place whose target
  word names `k`), turns them into factors, multiplies the features by the weights, reads for every place the row of
  the product and the two factors that the place's words index (an index word is made non-negative by adding 10000 to a
  negative one, then kept inside the table), and scatters the scaled rows onto the target rows; the bias is added last.
-/
import proofs.«430727_j6906307412209_2_alg».proof.Proof.RefRead
import proofs.«430727_j6906307412209_2_alg».proof.Proof.Spec
import Idealize.ShloMosaic.Lib.Pipeline.Value
import Idealize.ShloMosaic.Lib.StableHlo.Predicate
import Idealize.ShloMosaic.PureOps.Ideal.Laws
import Idealize.ShloMosaic.Lib.ValueIdx
import Idealize.ShloMosaic.Lib.ValueLayout
import Idealize.ShloMosaic.Lib.IdealHost

set_option maxRecDepth 16384

open scoped BigOperators

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen

open Cert.ReferenceIdeal.ReadP

/-! ## Words -/

/-- A word whose signed value is a number below 10000 is that number's word, and conversely. -/
theorem word_eq_iff {w : BitVec 32} {k : ℕ} (hk : k < 10000) : w.toInt = (k : ℤ) ↔ BitVec.ofNat 32 k = w := by
  constructor
  · intro h
    have hlt : w.toNat < 10000 := Spec.toNat_lt_of_toInt ⟨by omega, by omega⟩
    have h2 := Spec.toInt_of_toNat_lt hlt
    exact (Spec.ofNat_eq_iff (by omega)).2 (by omega)
  · intro h
    have hk' : k = w.toNat := (Spec.ofNat_eq_iff (by omega)).1 h
    rw [Spec.toInt_of_toNat_lt (by omega), hk']

/-! ## The two edge lists -/

/-- The padded list of source words: the first row of the adjacency array, then every node's own number. -/
abbrev src (x1 : IVec S2x640000 32) : ℕ → BitVec 32 := Spec.edge fun p => x1 (ix2 (0 : Fin 2) p)

/-- The padded list of target words: the second row of the adjacency array, then every node's own number. -/
abbrev dst (x1 : IVec S2x640000 32) : ℕ → BitVec 32 := Spec.edge fun p => x1 (ix2 (1 : Fin 2) p)

/-- A list of 640000 words followed by the numbers 0 … 9999 reads, at place e, what the edge list holds there. -/
theorem concat_apply (y : IVec S640000 32) (e : Fin 650000) :
    concatenate S650000 0 [⟨S640000, y⟩, ⟨S10000, val_main_v0 (F := Ideal)⟩] concatenates_S640000_S10000_S650000_d0 (ix1 e)
      = Spec.edge (fun p => y (ix1 p)) e.val := by
  by_cases h : e.val < 640000
  · rw [Spec.edge, dif_pos h]
    exact concatenate_pair_apply_left (0 : Fin S650000.rank) y (val_main_v0 (F := Ideal))
      concatenates_S640000_S10000_S650000_d0 (ix1 e) rfl (ix1 ⟨e.val, h⟩) (fun b => match b with | ⟨0, _⟩ => rfl)
  · have h2 : e.val < 650000 := e.isLt
    rw [Spec.edge, dif_neg h, if_pos h2]
    refine (concatenate_pair_apply_right (0 : Fin S650000.rank) y (val_main_v0 (F := Ideal))
      concatenates_S640000_S10000_S650000_d0 (ix1 e) rfl rfl (ix1 ⟨e.val - 640000, by omega⟩)
      (fun b hb => match b, hb with | ⟨0, _⟩, hb => absurd rfl hb) ?_).trans ?_
    · show (e.val - 640000) + 640000 = e.val
      omega
    · rfl

/-- The first row of the adjacency array, cut out and flattened, read at a place. -/
theorem v2_apply (x1 : IVec S2x640000 32) (p : Fin 640000) :
    val_main_v2 (F := Ideal) x1 (ix1 p) = x1 (ix2 (0 : Fin 2) p) := by
  rw [val_main_v2_apply, val_main_v1_apply]
  refine congrArg x1 (funext fun a => ?_)
  match a with
  | ⟨0, _⟩ => rfl
  | ⟨1, _⟩ => exact Fin.ext (Nat.mod_eq_of_lt p.isLt)

/-- The second row likewise. -/
theorem v5_apply (x1 : IVec S2x640000 32) (p : Fin 640000) :
    val_main_v5 (F := Ideal) x1 (ix1 p) = x1 (ix2 (1 : Fin 2) p) := by
  rw [val_main_v5_apply, val_main_v4_apply]
  refine congrArg x1 (funext fun a => ?_)
  match a with
  | ⟨0, _⟩ => rfl
  | ⟨1, _⟩ => exact Fin.ext (Nat.mod_eq_of_lt p.isLt)

/-- The reference's source list is the padded list of source words, before the padding. -/
theorem v3_apply (x1 : IVec S2x640000 32) (e : Fin 650000) : val_main_v3 (F := Ideal) x1 (ix1 e) = src x1 e.val := by
  refine (concat_apply (val_main_v2 (F := Ideal) x1) e).trans ?_
  exact congrArg (fun row => Spec.edge row e.val) (funext fun p => v2_apply x1 p)

/-- The reference's target list is the padded list of target words, before the padding. -/
theorem v6_apply (x1 : IVec S2x640000 32) (e : Fin 650000) : val_main_v6 (F := Ideal) x1 (ix1 e) = dst x1 e.val := by
  refine (concat_apply (val_main_v5 (F := Ideal) x1) e).trans ?_
  exact congrArg (fun row => Spec.edge row e.val) (funext fun p => v5_apply x1 p)

/-! ## Where an update of a scatter lands -/

/-- An update lands on an element exactly when, on every axis, the start read off the index words plus the update's
    window coordinate is the element's coordinate (a sum that is negative or past the axis names no element). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hi := Option.some.inj h
      have hv : (i a).val = (d.start j idx a + (d.window j a : ℤ)).toNat := by rw [← hi]
      rw [hv, Int.toNat_of_nonneg (hc a).1]
    · cases h
  · intro h
    have hc : ∀ a, 0 ≤ d.start j idx a + (d.window j a : ℤ) ∧ d.start j idx a + (d.window j a : ℤ) < s.size a := fun a => by
      rw [h a]
      have := (i a).isLt
      omega
    rw [dif_pos hc]
    refine congrArg some (funext fun a => Fin.ext ?_)
    show (d.start j idx a + (d.window j a : ℤ)).toNat = (i a).val
    rw [h a, Int.toNat_natCast]

/-! ## The degrees -/

/-- The start of the degree scatter's update at place e is the index word at e, read signed. -/
theorem deg_start (idx : IVec S650000x1 32) (e : Fin 650000) :
    scatter_S10000_S650000x1_S650000_n_0_0_1.start (ix1 e) idx 0 = (idx (ix2 e (0 : Fin 1))).toInt := by
  unfold ScatterDims.start
  rw [dif_pos (show (0 : Fin S10000.rank) ∈ scatter_S10000_S650000x1_S650000_n_0_0_1.scatterDimsToOperandDims from
    List.mem_singleton.mpr rfl)]
  refine congrArg (fun t => (idx t).toInt) (funext fun b => ?_)
  match b with
  | ⟨0, _⟩ => rfl
  | ⟨1, _⟩ => rfl

/-- The degree scatter's update is one element: it has no window coordinate. -/
theorem deg_window (e : Fin 650000) : scatter_S10000_S650000x1_S650000_n_0_0_1.window (ix1 e) 0 = 0 := by
  unfold ScatterDims.window
  rw [dif_neg (show ¬ (0 : Fin S10000.rank) ∈ scatter_S10000_S650000x1_S650000_n_0_0_1.sKept by decide)]

/-- The update at place e lands on row k exactly when the index word at e is the number k. -/
theorem deg_lands (idx : IVec S650000x1 32) (e : Fin 650000) (k : Fin 10000) :
    scatter_S10000_S650000x1_S650000_n_0_0_1.resultIdx? (ix1 e) idx = some (ix1 k)
      ↔ BitVec.ofNat 32 k.val = idx (ix2 e (0 : Fin 1)) := by
  rw [resultIdx?_eq_some_iff, ← word_eq_iff k.isLt]
  constructor
  · intro h
    have h0 := h 0
    rw [deg_start, deg_window] at h0
    have h1 : ((ix1 k : S10000.Idx) 0).val = k.val := rfl
    rw [h1] at h0
    omega
  · intro h a
    match a with
    | ⟨0, _⟩ =>
      show scatter_S10000_S650000x1_S650000_n_0_0_1.start (ix1 e) idx 0
          + (scatter_S10000_S650000x1_S650000_n_0_0_1.window (ix1 e) 0 : ℤ) = (k.val : ℤ)
      rw [deg_start, deg_window, h]
      omega

/-- The column of target words the degree scatter reads. -/
theorem v9_apply' (x1 : IVec S2x640000 32) (e : Fin 650000) :
    val_main_v9 (F := Ideal) x1 (ix2 e (0 : Fin 1)) = dst x1 e.val := by
  have hi : idx_main_v9 (ix2 e (0 : Fin 1)) = ix1 e := funext fun a => match a with | ⟨0, _⟩ => rfl
  rw [val_main_v9_apply, hi]
  exact v6_apply x1 e

/-- Every update of the degree scatter is one. -/
theorem v7_apply' (e : Fin 650000) : val_main_v7 (F := Ideal) (ix1 e) = (1 : EReal) := by
  rw [val_main_v7_apply, val_main_cst_apply, Ideal.ofBits_def, Ideal.ofBits_one_f32]

/-- The degree the reference counts for row k: one for every place, before the padding, whose target word is k. -/
theorem v10_apply (x1 : IVec S2x640000 32) (k : Fin 10000) :
    val_main_v10 (F := Ideal) x1 (ix1 k) = Spec.degR (dst x1) k.val := by
  unfold val_main_v10 Host.scatterAdd
  rw [Ideal.hostScatterAdd_def]
  unfold Ideal.hostScatterAdd
  show _ + _ = _
  rw [val_main_v8_apply, val_main_cst_0_apply, Ideal.ofBits_def, Ideal.ofBits_zero_f32, zero_add, Finset.sum_filter]
  refine (Cert.LibSums.sum_idx1 _).trans ?_
  unfold Spec.degR
  refine Finset.sum_congr rfl fun e _ => ?_
  beta_reduce
  unfold Spec.hot
  by_cases h : BitVec.ofNat 32 k.val = dst x1 e.val
  · rw [if_pos h, if_pos ((deg_lands _ e k).2 (by rw [v9_apply']; exact h)), v7_apply']
  · rw [if_neg h, if_neg (fun hh => h (by have h3 := (deg_lands _ e k).1 hh; rw [v9_apply'] at h3; exact h3))]

/-! ## The factors -/

/-- Choosing by the comparison with zero: the inverse square root where the degree is positive, zero elsewhere. -/
theorem select_gt (g u : EReal) : Scalar.select (Ideal.cmp .ogt g 0) u (0 : EReal) = if 0 < g then u else 0 := by
  show Scalar.select (BitVec.ofBool (decide (0 < g))) u 0 = _
  by_cases h : 0 < g
  · rw [if_pos h, decide_eq_true h]
    exact select_one _ _
  · rw [if_neg h, decide_eq_false h]
    exact select_zero _ _

/-- The factor the reference computes for row k. -/
theorem v14_apply' (x1 : IVec S2x640000 32) (k : Fin 10000) :
    val_main_v14 (F := Ideal) x1 (ix1 k) = Spec.dinvOf (Spec.degR (dst x1) k.val) := by
  rw [val_main_v14_apply, val_main_v12_apply, val_main_v13_apply, val_main_call0_v1_apply, val_main_call0_v0_apply,
    val_main_cst_2_apply, val_main_v11_apply, val_main_cst_1_apply, v10_apply]
  generalize Spec.degR (dst x1) k.val = g
  rw [Ideal.cmpf_def, Ideal.hostUnary_rsqrt_def, Ideal.ofBits_def, Ideal.ofBits_zero_f32]
  exact select_gt g (Ideal.rsqrt g)

/-! ## Index words made non-negative -/

/-- The source word at place e after the printed normalisation. -/
theorem v19_apply' (x1 : IVec S2x640000 32) (e : Fin 650000) :
    val_main_v19 (F := Ideal) x1 (ix1 e) = Spec.norm (src x1 e.val) := by
  rw [val_main_v19_apply, val_main_v16_apply, val_main_v18_apply, val_main_v15_apply, val_main_v17_apply,
    val_main_c_apply, val_main_c_3_apply, v3_apply]
  rfl

/-- The target word at place e after the printed normalisation. -/
theorem v26_apply' (x1 : IVec S2x640000 32) (e : Fin 650000) :
    val_main_v26 (F := Ideal) x1 (ix1 e) = Spec.norm (dst x1 e.val) := by
  rw [val_main_v26_apply, val_main_v23_apply, val_main_v25_apply, val_main_v22_apply, val_main_v24_apply,
    val_main_c_4_apply, val_main_c_5_apply, v6_apply]
  rfl

/-- The source word at place e after the printed normalisation, as the row gather reads it. -/
theorem v35_apply' (x1 : IVec S2x640000 32) (e : Fin 650000) :
    val_main_v35 (F := Ideal) x1 (ix1 e) = Spec.norm (src x1 e.val) := by
  rw [val_main_v35_apply, val_main_v32_apply, val_main_v34_apply, val_main_v31_apply, val_main_v33_apply,
    val_main_c_6_apply, val_main_c_7_apply, v3_apply]
  rfl

theorem v20_apply' (x1 : IVec S2x640000 32) (e : Fin 650000) :
    val_main_v20 (F := Ideal) x1 (ix2 e (0 : Fin 1)) = Spec.norm (src x1 e.val) := by
  have hi : idx_main_v20 (ix2 e (0 : Fin 1)) = ix1 e := funext fun a => match a with | ⟨0, _⟩ => rfl
  rw [val_main_v20_apply, hi]
  exact v19_apply' x1 e

theorem v27_apply' (x1 : IVec S2x640000 32) (e : Fin 650000) :
    val_main_v27 (F := Ideal) x1 (ix2 e (0 : Fin 1)) = Spec.norm (dst x1 e.val) := by
  have hi : idx_main_v27 (ix2 e (0 : Fin 1)) = ix1 e := funext fun a => match a with | ⟨0, _⟩ => rfl
  rw [val_main_v27_apply, hi]
  exact v26_apply' x1 e

theorem v36_apply' (x1 : IVec S2x640000 32) (e : Fin 650000) :
    val_main_v36 (F := Ideal) x1 (ix2 e (0 : Fin 1)) = Spec.norm (src x1 e.val) := by
  have hi : idx_main_v36 (ix2 e (0 : Fin 1)) = ix1 e := funext fun a => match a with | ⟨0, _⟩ => rfl
  rw [val_main_v36_apply, hi]
  exact v35_apply' x1 e

/-! ## The gathers -/

theorem ofFin_eq_ix1 {n : ℕ} (k : Fin n) : Shape.Idx.ofFin k = ix1 k :=
  funext fun a => match a with | ⟨0, _⟩ => rfl

theorem ixP_eq_ix2 {n : ℕ} (p : Fin n) : StableHlo.Predicate.ixP p = ix2 p (0 : Fin 1) :=
  funext fun a => match a with | ⟨0, _⟩ => rfl | ⟨1, _⟩ => rfl

/-- The gather from the table of factors reads, at place e, the table at the index word of place e read signed and kept
    inside the table. -/
theorem take_apply (x : FVec Ideal S10000 .f32) (idx : IVec S650000x1 32) (e : Fin 650000) (w : BitVec 32)
    (hw : idx (ix2 e (0 : Fin 1)) = w) :
    Host.gather gather_S10000_S650000x1_S650000_n_0_n_n_0_1_1 x idx (ix1 e)
      = x (ix1 ⟨min w.toInt.toNat 9999, by omega⟩) := by
  subst hw
  rw [← ofFin_eq_ix1 e]
  refine (StableHlo.Predicate.gather_take gather_S10000_S650000x1_S650000_n_0_n_n_0_1_1 rfl rfl rfl rfl x idx e
    (by decide)).trans ?_
  rw [ofFin_eq_ix1]
  refine congrArg x (congrArg ix1 (Fin.ext ?_))
  show min (idx (StableHlo.Predicate.ixP e)).toInt.toNat (10000 - 1) = min (idx (ix2 e (0 : Fin 1))).toInt.toNat 9999
  rw [ixP_eq_ix2]

/-- The factor of the source of place e. -/
theorem v21_apply' (x1 : IVec S2x640000 32) (e : Fin 650000) :
    val_main_v21 (F := Ideal) x1 (ix1 e) = Spec.dinvOf (Spec.degR (dst x1) (Spec.node (src x1 e.val)).val) := by
  unfold val_main_v21
  exact (take_apply _ _ e _ (v20_apply' x1 e)).trans (v14_apply' x1 (Spec.node (src x1 e.val)))

/-- The factor of the target of place e. -/
theorem v28_apply' (x1 : IVec S2x640000 32) (e : Fin 650000) :
    val_main_v28 (F := Ideal) x1 (ix1 e) = Spec.dinvOf (Spec.degR (dst x1) (Spec.node (dst x1 e.val)).val) := by
  unfold val_main_v28
  exact (take_apply _ _ e _ (v27_apply' x1 e)).trans (v14_apply' x1 (Spec.node (dst x1 e.val)))

/-- Row axis of the row gather: the index word of place e read signed and kept inside the table. -/
theorem rows_idx0 (idx : IVec S650000x1 32) (e : Fin 650000) (q : Fin 128) :
    (gather_S10000x128_S650000x1_S650000x128_1_0_n_n_0_1_1128.operandIdx (ix2 e q) idx 0).val
      = min (idx (ix2 e (0 : Fin 1))).toInt.toNat 9999 := by
  show gather_S10000x128_S650000x1_S650000x128_1_0_n_n_0_1_1128.start (ix2 e q) idx 0
      + gather_S10000x128_S650000x1_S650000x128_1_0_n_n_0_1_1128.batchCoord (ix2 e q) 0
      + gather_S10000x128_S650000x1_S650000x128_1_0_n_n_0_1_1128.offCoord (ix2 e q) 0 = _
  rw [GatherDims.batchCoord_eq_zero _ _ _ (show ¬ (0 : Fin S10000x128.rank) ∈
      gather_S10000x128_S650000x1_S650000x128_1_0_n_n_0_1_1128.operandBatchingDims from List.not_mem_nil),
    GatherDims.offCoord_eq_zero _ _ _ (show ¬ (0 : Fin S10000x128.rank) ∈
      gather_S10000x128_S650000x1_S650000x128_1_0_n_n_0_1_1128.sKept by decide),
    Nat.add_zero]
  unfold GatherDims.start
  rw [dif_pos (show (0 : Fin S10000x128.rank) ∈ gather_S10000x128_S650000x1_S650000x128_1_0_n_n_0_1_1128.startIndexMap from
    List.mem_singleton.mpr rfl)]
  show min _ (10000 - 1) = _
  refine congrArg (fun t => min (idx t).toInt.toNat 9999) (funext fun b => ?_)
  match b with
  | ⟨0, _⟩ => rfl
  | ⟨1, _⟩ => rfl

/-- Column axis of the row gather: the column of the result. -/
theorem rows_idx1 (idx : IVec S650000x1 32) (e : Fin 650000) (q : Fin 128) :
    (gather_S10000x128_S650000x1_S650000x128_1_0_n_n_0_1_1128.operandIdx (ix2 e q) idx 1).val = q.val := by
  show gather_S10000x128_S650000x1_S650000x128_1_0_n_n_0_1_1128.start (ix2 e q) idx 1
      + gather_S10000x128_S650000x1_S650000x128_1_0_n_n_0_1_1128.batchCoord (ix2 e q) 1
      + gather_S10000x128_S650000x1_S650000x128_1_0_n_n_0_1_1128.offCoord (ix2 e q) 1 = _
  rw [GatherDims.batchCoord_eq_zero _ _ _ (show ¬ (1 : Fin S10000x128.rank) ∈
      gather_S10000x128_S650000x1_S650000x128_1_0_n_n_0_1_1128.operandBatchingDims from List.not_mem_nil),
    Nat.add_zero]
  unfold GatherDims.start GatherDims.offCoord
  rw [dif_neg (show ¬ (1 : Fin S10000x128.rank) ∈ gather_S10000x128_S650000x1_S650000x128_1_0_n_n_0_1_1128.startIndexMap by decide),
    dif_pos (show (1 : Fin S10000x128.rank) ∈ gather_S10000x128_S650000x1_S650000x128_1_0_n_n_0_1_1128.sKept by decide),
    Nat.zero_add]
  rfl

/-- The gather of rows reads, at place e and column q, the table at the row the index word of place e names (read signed
    and kept inside the table) and column q. -/
theorem rows_apply (x : FVec Ideal S10000x128 .f32) (idx : IVec S650000x1 32) (e : Fin 650000) (q : Fin 128)
    (w : BitVec 32) (hw : idx (ix2 e (0 : Fin 1)) = w) :
    Host.gather gather_S10000x128_S650000x1_S650000x128_1_0_n_n_0_1_1128 x idx (ix2 e q)
      = x (ix2 ⟨min w.toInt.toNat 9999, by omega⟩ q) := by
  subst hw
  unfold Host.gather
  refine congrArg x (funext fun a => Fin.ext ?_)
  match a with
  | ⟨0, _⟩ => exact rows_idx0 idx e q
  | ⟨1, _⟩ => exact rows_idx1 idx e q

/-! ## The product of the features by the weights -/

theorem v30_apply' (x0 : FVec Ideal S10000x128 .f32) (x2 : FVec Ideal S128x128 .f32) (p : Fin 10000) (q : Fin 128) :
    val_main_v30 (F := Ideal) x0 x2 (ix2 p q) = Spec.xw (fun p q => x0 (ix2 p q)) (fun p q => x2 (ix2 p q)) p q := by
  rw [val_main_v30_apply]
  unfold Spec.xw
  refine Finset.sum_congr rfl fun k _ => ?_
  have hl : lidx_main_v30 (ix2 p q) k = ix2 p k := funext fun a => match a with | ⟨0, _⟩ => rfl | ⟨1, _⟩ => rfl
  have hr : ridx_main_v30 (ix2 p q) k = ix2 k q := funext fun a => match a with | ⟨0, _⟩ => rfl | ⟨1, _⟩ => rfl
  exact congrArg₂ (· * ·) (congrArg x0 hl) (congrArg x2 hr)

/-- The row of the product that place e brings: its source's. -/
theorem v37_apply' (x0 : FVec Ideal S10000x128 .f32) (x1 : IVec S2x640000 32) (x2 : FVec Ideal S128x128 .f32)
    (e : Fin 650000) (q : Fin 128) :
    val_main_v37 (F := Ideal) x0 x1 x2 (ix2 e q)
      = Spec.xw (fun p q => x0 (ix2 p q)) (fun p q => x2 (ix2 p q)) (Spec.node (src x1 e.val)) q := by
  unfold val_main_v37
  exact (rows_apply _ _ e q _ (v36_apply' x1 e)).trans (v30_apply' x0 x2 (Spec.node (src x1 e.val)) q)

/-- What place e scatters into column q: its source's row of the product scaled by both ends' factors. -/
theorem v40_apply' (x0 : FVec Ideal S10000x128 .f32) (x1 : IVec S2x640000 32) (x2 : FVec Ideal S128x128 .f32)
    (e : Fin 650000) (q : Fin 128) :
    val_main_v40 (F := Ideal) x0 x1 x2 (ix2 e q)
      = Spec.xw (fun p q => x0 (ix2 p q)) (fun p q => x2 (ix2 p q)) (Spec.node (src x1 e.val)) q
          * (Spec.dinvOf (Spec.degR (dst x1) (Spec.node (src x1 e.val)).val)
              * Spec.dinvOf (Spec.degR (dst x1) (Spec.node (dst x1 e.val)).val)) := by
  have hi : idx_main_v38 (idx_main_v39 (ix2 e q)) = ix1 e := funext fun a => match a with | ⟨0, _⟩ => rfl
  rw [val_main_v40_apply, Ideal.mulf_def, v37_apply', val_main_v39_apply, val_main_v38_apply, hi, val_main_v29_apply,
    Ideal.mulf_def, v21_apply', v28_apply']

/-! ## The scatter onto the target rows -/

theorem out_start0 (idx : IVec S650000x1 32) (e : Fin 650000) (q : Fin 128) :
    scatter_S10000x128_S650000x1_S650000x128_1_0_0_1.start (ix2 e q) idx 0 = (idx (ix2 e (0 : Fin 1))).toInt := by
  unfold ScatterDims.start
  rw [dif_pos (show (0 : Fin S10000x128.rank) ∈ scatter_S10000x128_S650000x1_S650000x128_1_0_0_1.scatterDimsToOperandDims from
    List.mem_singleton.mpr rfl)]
  refine congrArg (fun t => (idx t).toInt) (funext fun b => ?_)
  match b with
  | ⟨0, _⟩ => rfl
  | ⟨1, _⟩ => rfl

theorem out_start1 (idx : IVec S650000x1 32) (e : Fin 650000) (q : Fin 128) :
    scatter_S10000x128_S650000x1_S650000x128_1_0_0_1.start (ix2 e q) idx 1 = 0 := by
  unfold ScatterDims.start
  rw [dif_neg (show ¬ (1 : Fin S10000x128.rank) ∈ scatter_S10000x128_S650000x1_S650000x128_1_0_0_1.scatterDimsToOperandDims by decide)]

theorem out_window0 (e : Fin 650000) (q : Fin 128) :
    scatter_S10000x128_S650000x1_S650000x128_1_0_0_1.window (ix2 e q) 0 = 0 := by
  unfold ScatterDims.window
  rw [dif_neg (show ¬ (0 : Fin S10000x128.rank) ∈ scatter_S10000x128_S650000x1_S650000x128_1_0_0_1.sKept by decide)]

theorem out_window1 (e : Fin 650000) (q : Fin 128) :
    scatter_S10000x128_S650000x1_S650000x128_1_0_0_1.window (ix2 e q) 1 = q.val := by
  unfold ScatterDims.window
  rw [dif_pos (show (1 : Fin S10000x128.rank) ∈ scatter_S10000x128_S650000x1_S650000x128_1_0_0_1.sKept by decide)]
  rfl

/-- The update at place e, column q' lands on row r, column q exactly when the index word at e is the number r and the
    columns are the same. -/
theorem out_lands (idx : IVec S650000x1 32) (e : Fin 650000) (q' : Fin 128) (r : Fin 10000) (q : Fin 128) :
    scatter_S10000x128_S650000x1_S650000x128_1_0_0_1.resultIdx? (ix2 e q') idx = some (ix2 r q)
      ↔ BitVec.ofNat 32 r.val = idx (ix2 e (0 : Fin 1)) ∧ q = q' := by
  rw [resultIdx?_eq_some_iff, ← word_eq_iff r.isLt]
  constructor
  · intro h
    have h0 := h 0
    have h1 := h 1
    rw [out_start0, out_window0] at h0
    rw [out_start1, out_window1] at h1
    have e0 : ((ix2 r q : S10000x128.Idx) 0).val = r.val := rfl
    have e1 : ((ix2 r q : S10000x128.Idx) 1).val = q.val := rfl
    rw [e0] at h0
    rw [e1] at h1
    exact ⟨by omega, Fin.ext (by omega)⟩
  · intro h a
    match a with
    | ⟨0, _⟩ =>
      show scatter_S10000x128_S650000x1_S650000x128_1_0_0_1.start (ix2 e q') idx 0
          + (scatter_S10000x128_S650000x1_S650000x128_1_0_0_1.window (ix2 e q') 0 : ℤ) = (r.val : ℤ)
      rw [out_start0, out_window0, h.1]
      omega
    | ⟨1, _⟩ =>
      show scatter_S10000x128_S650000x1_S650000x128_1_0_0_1.start (ix2 e q') idx 1
          + (scatter_S10000x128_S650000x1_S650000x128_1_0_0_1.window (ix2 e q') 1 : ℤ) = (q.val : ℤ)
      rw [out_start1, out_window1, h.2]
      omega

/-- The column of target words the last scatter reads. -/
theorem v42_apply' (x1 : IVec S2x640000 32) (e : Fin 650000) :
    val_main_v42 (F := Ideal) x1 (ix2 e (0 : Fin 1)) = dst x1 e.val := by
  have hi : idx_main_v42 (ix2 e (0 : Fin 1)) = ix1 e := funext fun a => match a with | ⟨0, _⟩ => rfl
  rw [val_main_v42_apply, hi]
  exact v6_apply x1 e

/-- The scattered sum at row r, column q: over the places before the padding, those whose target word is r each bring
    their source's row of the product scaled by both ends' factors. -/
theorem v43_apply' (x0 : FVec Ideal S10000x128 .f32) (x1 : IVec S2x640000 32) (x2 : FVec Ideal S128x128 .f32)
    (r : Fin 10000) (q : Fin 128) :
    val_main_v43 (F := Ideal) x0 x1 x2 (ix2 r q)
      = ∑ e : Fin 650000, Spec.hot (dst x1 e.val) r.val
          * (Spec.xw (fun p q => x0 (ix2 p q)) (fun p q => x2 (ix2 p q)) (Spec.node (src x1 e.val)) q
              * (Spec.dinvOf (Spec.degR (dst x1) (Spec.node (src x1 e.val)).val)
                  * Spec.dinvOf (Spec.degR (dst x1) (Spec.node (dst x1 e.val)).val))) := by
  unfold val_main_v43 Host.scatterAdd
  rw [Ideal.hostScatterAdd_def]
  unfold Ideal.hostScatterAdd
  show _ + _ = _
  rw [val_main_v41_apply, val_main_cst_8_apply, Ideal.ofBits_def, Ideal.ofBits_zero_f32, zero_add, Finset.sum_filter]
  refine (Cert.LibSums.sum_idx2' _).trans ?_
  refine Finset.sum_congr rfl fun e _ => ?_
  beta_reduce
  rw [Finset.sum_eq_single q]
  · rw [v40_apply']
    unfold Spec.hot
    by_cases h : BitVec.ofNat 32 r.val = dst x1 e.val
    · rw [if_pos h, one_mul, if_pos ((out_lands _ e q r q).2 ⟨by rw [v42_apply']; exact h, rfl⟩)]
    · rw [if_neg h, zero_mul, if_neg (fun hh => h (by have h3 := ((out_lands _ e q r q).1 hh).1; rw [v42_apply'] at h3; exact h3))]
  · intro q' _ hq'
    rw [if_neg (fun hh => hq' ((out_lands _ e q' r q).1 hh).2.symm)]
  · intro hh
    exact absurd (Finset.mem_univ _) hh

/-! ## The bias and the result -/

theorem v45_apply' (x3 : FVec Ideal S128 .f32) (r : Fin 10000) (q : Fin 128) :
    val_main_v45 (F := Ideal) x3 (ix2 r q) = x3 (ix1 q) := by
  have hi : idx_main_v44 (idx_main_v45 (ix2 r q)) = ix1 q := funext fun a => match a with | ⟨0, _⟩ => rfl
  rw [val_main_v45_apply, val_main_v44_apply, hi]

theorem v46_apply' (x0 : FVec Ideal S10000x128 .f32) (x1 : IVec S2x640000 32) (x2 : FVec Ideal S128x128 .f32)
    (x3 : FVec Ideal S128 .f32) (r : Fin 10000) (q : Fin 128) :
    val_main_v46 (F := Ideal) x0 x1 x2 x3 (ix2 r q)
      = Spec.outR (src x1) (dst x1) (fun p q => x0 (ix2 p q)) (fun p q => x2 (ix2 p q)) (fun q => x3 (ix1 q)) r q := by
  rw [val_main_v46_apply, Ideal.addf_def, v43_apply', v45_apply']
  rfl

/-- The reference's result, as a function of its four arguments, is the second arrangement of the specification:
    row `r`, column `j` holds `Spec.outR` of the two edge lists built from the rows of the adjacency array. -/
theorem result_eq (x0 : FVec Ideal S10000x128 .f32) (x1 : IVec S2x640000 32) (x2 : FVec Ideal S128x128 .f32)
    (x3 : FVec Ideal S128 .f32) :
    Cert.ReferenceIdeal.ReadP.val_main_v46 (F := Ideal) x0 x1 x2 x3
      = fun i => Spec.outR (Spec.edge fun e => x1 (ix2 (0 : Fin 2) e)) (Spec.edge fun e => x1 (ix2 (1 : Fin 2) e))
          (fun p q => x0 (ix2 p q)) (fun p q => x2 (ix2 p q)) (fun q => x3 (ix1 q)) (i 0) (i 1) := by
  funext i
  exact (congrArg (Cert.ReferenceIdeal.ReadP.val_main_v46 (F := Ideal) x0 x1 x2 x3) (eq_ix2 i)).trans
    (v46_apply' x0 x1 x2 x3 (i 0) (i 1))

end Cert.ReferenceIdeal.RefValue

end
-- ==== Proof.lean ====
/-
  A graph convolution as three kernels against its jnp reference, over the extended reals.

  Both programs compute, for 10000 nodes with 128 features, 640000 edges given as two rows of node indices, a
  128 × 128 weight matrix and a bias: out = D^(-1/2) (A + I) D^(-1/2) (x W) + b, where A counts the edges from a source
  to a target, I adds a loop at every node and D is the diagonal of the degrees (edges arriving at a node, its loop
  included).

  The kernel never gathers or scatters. It pads the edge list (with its loops) to 5080 blocks of 128 by a word that
  names no node, and turns every index into a one-hot row or column on the fly, so that selection is a matrix product:
  a first call counts the degrees (a row of ones times the one-hot of the targets, block after block, accumulated in its
  output block); the host takes inverse square roots where the degree is positive; a second call multiplies the features
  by the weights and each row by its node's factor; a third call, in two halves of 2540 blocks, accumulates for every
  block the one-hot of the targets times (the one-hot of the sources times the scaled rows); the host adds the halves,
  applies the target's factor and adds the bias. The reference builds the same edge list, counts the degrees by a
  scatter of ones, reads rows and factors by index and scatters the scaled rows onto their targets.

  What is proved. The kernel's result array is the first arrangement of the specification (`Spec.outK`: KValue.lean,
  over one module per call and two for the host steps between them) and the reference's the second (`Spec.outR`:
  RefRun.lean follows the reference's sixty operations, RefValue.lean reads the last one at an index). The two
  arrangements agree (`Spec.outK_eq_outR`) because a one-hot product over the 10112 padded rows picks exactly the
  source's row when the source word names a node, the padding words select nothing, and a real factor moves across a
  finite sum of reals. That uses the precondition (PreFacts.lean): the features and the weights are finite, and every
  source index is a node. A target index that names no node is dropped by both programs, and the bias is only added at
  the end, so neither needs a hypothesis. The idealization rewrote nothing, so the fourth claim is trivial; the three
  frames are the generated ones (the reference's is its run with the result dropped).
-/
import proofs.«430727_j6906307412209_2_alg».proof.Defs
import proofs.«430727_j6906307412209_2_alg».proof.Proof.Gen.Kernel
import proofs.«430727_j6906307412209_2_alg».proof.Proof.Gen.Kernel.Skeleton
import proofs.«430727_j6906307412209_2_alg».proof.Proof.Gen.Kernel.Launch
import proofs.«430727_j6906307412209_2_alg».proof.Proof.Gen.Kernel.Points
import proofs.«430727_j6906307412209_2_alg».proof.Proof.Gen.Kernel.Frame
import proofs.«430727_j6906307412209_2_alg».proof.Proof.Gen.KernelIdeal
import proofs.«430727_j6906307412209_2_alg».proof.Proof.Gen.KernelIdeal.Skeleton
import proofs.«430727_j6906307412209_2_alg».proof.Proof.Gen.KernelIdeal.Launch
import proofs.«430727_j6906307412209_2_alg».proof.Proof.Gen.KernelIdeal.Points
import proofs.«430727_j6906307412209_2_alg».proof.Proof.Gen.KernelIdeal.Frame
import proofs.«430727_j6906307412209_2_alg».proof.Proof.Gen.ReferenceIdeal
import proofs.«430727_j6906307412209_2_alg».proof.Proof.Gen.Pre_finite_inputs
import proofs.«430727_j6906307412209_2_alg».proof.Proof.Spec
import proofs.«430727_j6906307412209_2_alg».proof.Proof.PreFacts
import proofs.«430727_j6906307412209_2_alg».proof.Proof.KValue
import proofs.«430727_j6906307412209_2_alg».proof.Proof.RefRun
import proofs.«430727_j6906307412209_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the same result array: the kernel's is the first
    arrangement of the specification, the reference's the second, and under the precondition the two agree. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2, Cert.ReferenceIdeal.RefValue.result_eq]
  obtain ⟨hx, hW, hs⟩ := Cert.PreFacts.of_pre _ _ _ _ (hpre c)
  funext i
  exact (Cert.Spec.outK_eq_outR (Cert.KernelIdeal.Glue.srcRow m c) (Cert.KernelIdeal.Glue.dstRow m c)
    (Cert.KernelIdeal.Value.xfun m c) (Cert.KernelIdeal.Value.wfun m c) (Cert.KernelIdeal.Value.bfun m c)
    (fun p q => hx p q) (fun p q => hW p q) hs (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
